-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x3x3 : Shape := ⟨3, ![16, 3, 3]⟩
abbrev S16x3 : Shape := ⟨2, ![16, 3]⟩
abbrev S4096x3 : Shape := ⟨2, ![4096, 3]⟩
abbrev S_ : Shape := ⟨0, ![]⟩

class Facts : Prop where
  bcast_S_S16x3x3 : S_.BroadcastsInDim S16x3x3 (![] : Fin 0 → Fin S16x3x3.rank)
  reducesTo_S16x3x3_S_d0_1_2 : S16x3x3.ReducesTo [0, 1, 2] S_
  h_S_ : 0 < S_.numel
  bcast_S_S16x3 : S_.BroadcastsInDim S16x3 (![] : Fin 0 → Fin S16x3.rank)
  reducesTo_S16x3_S_d0_1 : S16x3.ReducesTo [0, 1] S_
  bcast_S_S4096x3 : S_.BroadcastsInDim S4096x3 (![] : Fin 0 → Fin S4096x3.rank)
  reducesTo_S4096x3_S_d0_1 : S4096x3.ReducesTo [0, 1] S_

variable [Facts]

def fn_part1 {F : FTy → Type} [FloatOps F] (main_arg4 : FVec F S4096x3 .f32) (main_v13 : IVec S_ 1) (main_v16 : IVec S16x3 1) : IVec S_ 1 :=
  let main_c_5 : IVec S_ 1 := constantI S_ 1 1#1
  let main_v17 : IVec S_ 1 := (fun x v => Host.reduce IntOp.andi x v reducesTo_S16x3_S_d0_1 h_S_) main_v16 main_c_5
  let main_v18 : IVec S_ 1 := andi main_v13 main_v17
  let main_v19 : FVec F S4096x3 .f32 := Host.absf main_arg4
  let main_cst_6 : FVec F S_ .f32 := constant S_ .f32 0x7F800000#32
  let main_v20 : FVec F S4096x3 .f32 := broadcastInDim S4096x3 ![] bcast_S_S4096x3 main_cst_6
  let main_v21 : IVec S4096x3 1 := cmpf .olt main_v19 main_v20
  let main_c_7 : IVec S_ 1 := constantI S_ 1 1#1
  let main_v22 : IVec S_ 1 := (fun x v => Host.reduce IntOp.andi x v reducesTo_S4096x3_S_d0_1 h_S_) main_v21 main_c_7
  let main_v23 : IVec S_ 1 := andi main_v18 main_v22
  main_v23

def fn {F : FTy → Type} [FloatOps F] (main_arg0 : FVec F S16x3x3 .f32) (main_arg1 : FVec F S16x3 .f32) (main_arg2 : FVec F S16x3x3 .f32) (main_arg3 : FVec F S16x3 .f32) (main_arg4 : FVec F S4096x3 .f32) : IVec S_ 1 :=
  let main_v0 : FVec F S16x3x3 .f32 := Host.absf main_arg0
  let main_cst : FVec F S_ .f32 := constant S_ .f32 0x7F800000#32
  let main_v1 : FVec F S16x3x3 .f32 := broadcastInDim S16x3x3 ![] bcast_S_S16x3x3 main_cst
  let main_v2 : IVec S16x3x3 1 := cmpf .olt main_v0 main_v1
  let main_c : IVec S_ 1 := constantI S_ 1 1#1
  let main_v3 : IVec S_ 1 := (fun x v => Host.reduce IntOp.andi x v reducesTo_S16x3x3_S_d0_1_2 h_S_) main_v2 main_c
  let main_v4 : FVec F S16x3 .f32 := Host.absf main_arg1
  let main_cst_0 : FVec F S_ .f32 := constant S_ .f32 0x7F800000#32
  let main_v5 : FVec F S16x3 .f32 := broadcastInDim S16x3 ![] bcast_S_S16x3 main_cst_0
  let main_v6 : IVec S16x3 1 := cmpf .olt main_v4 main_v5
  let main_c_1 : IVec S_ 1 := constantI S_ 1 1#1
  let main_v7 : IVec S_ 1 := (fun x v => Host.reduce IntOp.andi x v reducesTo_S16x3_S_d0_1 h_S_) main_v6 main_c_1
  let main_v8 : IVec S_ 1 := andi main_v3 main_v7
  let main_v9 : FVec F S16x3x3 .f32 := Host.absf main_arg2
  let main_cst_2 : FVec F S_ .f32 := constant S_ .f32 0x7F800000#32
  let main_v10 : FVec F S16x3x3 .f32 := broadcastInDim S16x3x3 ![] bcast_S_S16x3x3 main_cst_2
  let main_v11 : IVec S16x3x3 1 := cmpf .olt main_v9 main_v10
  let main_c_3 : IVec S_ 1 := constantI S_ 1 1#1
  let main_v12 : IVec S_ 1 := (fun x v => Host.reduce IntOp.andi x v reducesTo_S16x3x3_S_d0_1_2 h_S_) main_v11 main_c_3
  let main_v13 : IVec S_ 1 := andi main_v8 main_v12
  let main_v14 : FVec F S16x3 .f32 := Host.absf main_arg3
  let main_cst_4 : FVec F S_ .f32 := constant S_ .f32 0x7F800000#32
  let main_v15 : FVec F S16x3 .f32 := broadcastInDim S16x3 ![] bcast_S_S16x3 main_cst_4
  let main_v16 : IVec S16x3 1 := cmpf .olt main_v14 main_v15
  fn_part1 (F := F) main_arg4 main_v13 main_v16
-- ==== Kernel.lean ====
abbrev S16x3x3 : Shape := ⟨3, ![16, 3, 3]⟩
abbrev S16x3 : Shape := ⟨2, ![16, 3]⟩
abbrev S4096x3 : Shape := ⟨2, ![4096, 3]⟩
abbrev S16x1x3 : Shape := ⟨3, ![16, 1, 3]⟩
abbrev S16x1x4096 : Shape := ⟨3, ![16, 1, 4096]⟩
abbrev S1024x3 : Shape := ⟨2, ![1024, 3]⟩
abbrev S1x3x3 : Shape := ⟨3, ![1, 3, 3]⟩
abbrev S1x1x3 : Shape := ⟨3, ![1, 1, 3]⟩
abbrev S1x1x1024 : Shape := ⟨3, ![1, 1, 1024]⟩
abbrev S1x1024 : Shape := ⟨2, ![1, 1024]⟩
abbrev S3x3 : Shape := ⟨2, ![3, 3]⟩
abbrev S1x3 : Shape := ⟨2, ![1, 3]⟩
abbrev S1024 : Shape := ⟨1, ![1024]⟩
abbrev S1024x1 : Shape := ⟨2, ![1024, 1]⟩
abbrev S3x1024 : Shape := ⟨2, ![3, 1024]⟩
abbrev S1024x1024 : Shape := ⟨2, ![1024, 1024]⟩
abbrev S16x4096 : Shape := ⟨2, ![16, 4096]⟩
abbrev S_ : Shape := ⟨0, ![]⟩

abbrev nBuf : Space → Nat
  | .hbm => 13
  | .vmem => 15
  | .smem => 0
  | _ => 0

abbrev bufTy : (tb : Table) → Fin (tcTables nBuf tb) → BufTy
  | .hbm, ⟨0, _⟩ => ⟨S16x3x3, .f32⟩
  | .hbm, ⟨1, _⟩ => ⟨S16x3, .f32⟩
  | .hbm, ⟨2, _⟩ => ⟨S16x3x3, .f32⟩
  | .hbm, ⟨3, _⟩ => ⟨S16x3, .f32⟩
  | .hbm, ⟨4, _⟩ => ⟨S4096x3, .f32⟩
  | .hbm, ⟨5, _⟩ => ⟨S16x1x3, .f32⟩
  | .hbm, ⟨6, _⟩ => ⟨S16x1x3, .f32⟩
  | .hbm, ⟨7, _⟩ => ⟨S16x1x4096, .f32⟩
  | .hbm, ⟨8, _⟩ => ⟨S16x4096, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .local _ .vmem, ⟨0, _⟩ => ⟨S1024x3, .f32⟩
  | .local _ .vmem, ⟨1, _⟩ => ⟨S1024x3, .f32⟩
  | .local _ .vmem, ⟨2, _⟩ => ⟨S1024x3, .f32⟩
  | .local _ .vmem, ⟨3, _⟩ => ⟨S1024x3, .f32⟩
  | .local _ .vmem, ⟨4, _⟩ => ⟨S1x3x3, .f32⟩
  | .local _ .vmem, ⟨5, _⟩ => ⟨S1x3x3, .f32⟩
  | .local _ .vmem, ⟨6, _⟩ => ⟨S1x1x3, .f32⟩
  | .local _ .vmem, ⟨7, _⟩ => ⟨S1x1x3, .f32⟩
  | .local _ .vmem, ⟨8, _⟩ => ⟨S1x3x3, .f32⟩
  | .local _ .vmem, ⟨9, _⟩ => ⟨S1x3x3, .f32⟩
  | .local _ .vmem, ⟨10, _⟩ => ⟨S1x1x3, .f32⟩
  | .local _ .vmem, ⟨11, _⟩ => ⟨S1x1x3, .f32⟩
  | .local _ .vmem, ⟨12, _⟩ => ⟨S1x1x1024, .f32⟩
  | .local _ .vmem, ⟨13, _⟩ => ⟨S1x1x1024, .f32⟩
  | .local _ .vmem, ⟨14, _⟩ => ⟨S1x1024, .f32⟩
  | _, _ => ⟨S16x3x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![16, 4, 4], ![false, false, false]⟩

def k0_cond2 (i : grid0.Coords) : BitVec 1 :=
  let arg2 : BitVec 32 := BitVec.ofNat 32 (i 2).val
  let c3_i32 : BitVec 32 := 3#32
  let v46 : BitVec 1 := Scalar.cmpi .eq arg2 c3_i32
  let v47 : BitVec 32 := Scalar.extui v46
  let c0_i32_27 : BitVec 32 := 0#32
  let v48 : BitVec 1 := Scalar.cmpi .ne v47 c0_i32_27
  v48

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage0_0 : Fin 2 → Memref sig .tc .vmem S1024x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false]

abbrev stage0_1 : Fin 2 → Memref sig .tc .vmem S1024x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1x3x3 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x1x3 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S1x3x3 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S1x1x3 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

class Facts₀ : Prop where
  shapeCasts_S16x3_S16x1x3 : S16x3.ShapeCasts S16x1x3
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  inb_S1024x3_S1024x3_0_0 : ∀ a, (![0, 0] : Fin 2 → Nat) a + S1024x3.size a ≤ S1024x3.size a
  h_S1024x3 : 0 < S1024x3.numel
  inb_S1x3x3_S1x3x3_0_0_0 : ∀ a, (![0, 0, 0] : Fin 3 → Nat) a + S1x3x3.size a ≤ S1x3x3.size a
  h_S1x3x3 : 0 < S1x3x3.numel
  shapeCasts_S1x3x3_S3x3 : S1x3x3.ShapeCasts S3x3
  transposes_S3x3_p1_0_S3x3 : S3x3.Transposes [1, 0] S3x3
  inb_S1x1x3_S1x1x3_0_0_0 : ∀ a, (![0, 0, 0] : Fin 3 → Nat) a + S1x1x3.size a ≤ S1x1x3.size a
  h_S1x1x3 : 0 < S1x1x3.numel
  shapeCasts_S1x1x3_S1x3 : S1x1x3.ShapeCasts S1x3
  broadcasts_S1x3_S1024x3 : S1x3.Broadcasts S1024x3
  reduces_S1024x3_S1024 : S1024x3.Reduces [1] S1024
  shapeCasts_S1024_S1024x1 : S1024.ShapeCasts S1024x1
  transposes_S1024x1_p1_0_S1x1024 : S1024x1.Transposes [1, 0] S1x1024
  transposes_S1024x3_p1_0_S3x1024 : S1024x3.Transposes [1, 0] S3x1024
  broadcasts_S1024x1_S1024x1024 : S1024x1.Broadcasts S1024x1024
  broadcasts_S1x1024_S1024x1024 : S1x1024.Broadcasts S1024x1024
  reduces_S1024x1024_S1024 : S1024x1024.Reduces [0] S1024
  shapeCasts_S1024_S1x1024 : S1024.ShapeCasts S1x1024
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1024 : S1x1x1024.ShapeCasts S1x1024
  shapeCasts_S1x1024_S1x1x1024 : S1x1024.ShapeCasts S1x1x1024
  shapeCasts_S16x1x4096_S16x4096 : S16x1x4096.ShapeCasts S16x4096
  reducesTo_S16x4096_S_d0_1 : S16x4096.ReducesTo [0, 1] S_
  h_S_ : 0 < S_.numel
  dot_S1024x3_S3x3_S1024x3_1_0_0_1_n_n_wf : DotDims.WF S1024x3 S3x3 S1024x3 [1] [0] [0] [1] [] []
  dot_S1024x3_S3x1024_S1024x1024_1_0_0_1_n_n_wf : DotDims.WF S1024x3 S3x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x3.size a ≤ S4096x3.size a
  hwx0_0 : ∀ i : grid0.Coords, EltTy.bits .f32 = 32 ∨ (Rect.block (s := S4096x3) S1024x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x3.size a ≤ S4096x3.size a
  hwx0_1 : ∀ i : grid0.Coords, EltTy.bits .f32 = 32 ∨ (Rect.block (s := S4096x3) S1024x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x3x3.size a ≤ S16x3x3.size a
  hwx0_2 : ∀ i : grid0.Coords, EltTy.bits .f32 = 32 ∨ (Rect.block (s := S16x3x3) S1x3x3.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x3.size a ≤ S16x1x3.size a
  hwx0_3 : ∀ i : grid0.Coords, EltTy.bits .f32 = 32 ∨ (Rect.block (s := S16x1x3) S1x1x3.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x3x3.size a ≤ S16x3x3.size a
  hwx0_4 : ∀ i : grid0.Coords, EltTy.bits .f32 = 32 ∨ (Rect.block (s := S16x3x3) S1x3x3.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x3.size a ≤ S16x1x3.size a
  hwx0_5 : ∀ i : grid0.Coords, EltTy.bits .f32 = 32 ∨ (Rect.block (s := S16x1x3) S1x1x3.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1x1024.size a ≤ S16x1x4096.size a
  hwx0_6 : ∀ i : grid0.Coords, EltTy.bits .f32 = 32 ∨ (Rect.block (s := S16x1x4096) S1x1x1024.size (cc0_transform_6 i) (hinb0_6 i)).WholeWords (EltTy.packing .f32)

variable [Facts₀]

def dot_S1024x3_S3x3_S1024x3_1_0_0_1_n_n : DotDims S1024x3 S3x3 S1024x3 where
  lhsContracting := [1]
  rhsContracting := [0]
  lhsNonContracting := [0]
  rhsNonContracting := [1]
  lhsBatch := []
  rhsBatch := []
  wf := dot_S1024x3_S3x3_S1024x3_1_0_0_1_n_n_wf
def dot_S1024x3_S3x1024_S1024x1024_1_0_0_1_n_n : DotDims S1024x3 S3x1024 S1024x1024 where
  lhsContracting := [1]
  rhsContracting := [0]
  lhsNonContracting := [0]
  rhsNonContracting := [1]
  lhsBatch := []
  rhsBatch := []
  wf := dot_S1024x3_S3x1024_S1024x1024_1_0_0_1_n_n_wf

abbrev win0_0 : Pipeline.Window sig grid0 :=
  Pipeline.Window.ofSpec (Memref.whole main_arg4) S1024x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S1024x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S1x3x3.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x1x3.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg2) S1x3x3.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x1x3.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v2) S1x1x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond2 i == 1#1) | ⟨_ + 7, h⟩ => absurd h (Nat.not_lt.2 (Nat.le_add_left _ _))

class Facts : Prop extends Facts₀ where

variable [Facts]
-- ==== ReferenceIdeal.lean ====
abbrev S16x3x3 : Shape := ⟨3, ![16, 3, 3]⟩
abbrev S16x3 : Shape := ⟨2, ![16, 3]⟩
abbrev S4096x3 : Shape := ⟨2, ![4096, 3]⟩
abbrev S16x3x4096 : Shape := ⟨3, ![16, 3, 4096]⟩
abbrev S16x4096x3 : Shape := ⟨3, ![16, 4096, 3]⟩
abbrev S16x1x3 : Shape := ⟨3, ![16, 1, 3]⟩
abbrev S_ : Shape := ⟨0, ![]⟩
abbrev S16x4096 : Shape := ⟨2, ![16, 4096]⟩
abbrev S16x4096x4096 : Shape := ⟨3, ![16, 4096, 4096]⟩
abbrev S16x4096x1 : Shape := ⟨3, ![16, 4096, 1]⟩
abbrev S16x1x4096 : Shape := ⟨3, ![16, 1, 4096]⟩

abbrev nBuf : Space → Nat
  | .hbm => 41
  | .vmem => 0
  | .smem => 0
  | _ => 0

abbrev bufTy : (tb : Table) → Fin (tcTables nBuf tb) → BufTy
  | .hbm, ⟨0, _⟩ => ⟨S16x3x3, .f32⟩
  | .hbm, ⟨1, _⟩ => ⟨S16x3, .f32⟩
  | .hbm, ⟨2, _⟩ => ⟨S16x3x3, .f32⟩
  | .hbm, ⟨3, _⟩ => ⟨S16x3, .f32⟩
  | .hbm, ⟨4, _⟩ => ⟨S4096x3, .f32⟩
  | .hbm, ⟨5, _⟩ => ⟨S16x3x4096, .f32⟩
  | .hbm, ⟨6, _⟩ => ⟨S16x4096x3, .f32⟩
  | .hbm, ⟨7, _⟩ => ⟨S16x1x3, .f32⟩
  | .hbm, ⟨8, _⟩ => ⟨S16x4096x3, .f32⟩
  | .hbm, ⟨9, _⟩ => ⟨S16x4096x3, .f32⟩
  | .hbm, ⟨10, _⟩ => ⟨S16x3x4096, .f32⟩
  | .hbm, ⟨11, _⟩ => ⟨S16x4096x3, .f32⟩
  | .hbm, ⟨12, _⟩ => ⟨S16x1x3, .f32⟩
  | .hbm, ⟨13, _⟩ => ⟨S16x4096x3, .f32⟩
  | .hbm, ⟨14, _⟩ => ⟨S16x4096x3, .f32⟩
  | .hbm, ⟨15, _⟩ => ⟨S16x4096x3, .f32⟩
  | .hbm, ⟨16, _⟩ => ⟨S_, .f32⟩
  | .hbm, ⟨17, _⟩ => ⟨S16x4096, .f32⟩
  | .hbm, ⟨18, _⟩ => ⟨S16x4096x3, .f32⟩
  | .hbm, ⟨19, _⟩ => ⟨S_, .f32⟩
  | .hbm, ⟨20, _⟩ => ⟨S16x4096, .f32⟩
  | .hbm, ⟨21, _⟩ => ⟨S16x4096x4096, .f32⟩
  | .hbm, ⟨22, _⟩ => ⟨S16x4096x1, .f32⟩
  | .hbm, ⟨23, _⟩ => ⟨S16x1x4096, .f32⟩
  | .hbm, ⟨24, _⟩ => ⟨S16x4096x4096, .f32⟩
  | .hbm, ⟨25, _⟩ => ⟨S16x4096x4096, .f32⟩
  | .hbm, ⟨26, _⟩ => ⟨S16x4096x4096, .f32⟩
  | .hbm, ⟨27, _⟩ => ⟨S_, .f32⟩
  | .hbm, ⟨28, _⟩ => ⟨S16x4096x4096, .f32⟩
  | .hbm, ⟨29, _⟩ => ⟨S16x4096x4096, .f32⟩
  | .hbm, ⟨30, _⟩ => ⟨S16x4096x4096, .f32⟩
  | .hbm, ⟨31, _⟩ => ⟨S_, .f32⟩
  | .hbm, ⟨32, _⟩ => ⟨S16x4096x4096, .f32⟩
  | .hbm, ⟨33, _⟩ => ⟨S16x4096x4096, .f32⟩
  | .hbm, ⟨34, _⟩ => ⟨S16x4096x4096, .f32⟩
  | .hbm, ⟨35, _⟩ => ⟨S_, .f32⟩
  | .hbm, ⟨36, _⟩ => ⟨S16x4096, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | _, _ => ⟨S16x3x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_1 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_2 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_3 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_cst_5 : Ref sig .tc := ⟨.hbm, 39, rfl⟩
abbrev main_v28 : Ref sig .tc := ⟨.hbm, 40, rfl⟩

abbrev nD : Nat := 1
abbrev τ : Topo := Topo.v7x

variable {F : FTy → Type} [FloatOps F]

class Facts₀ : Prop where
  transposes_S16x3x4096_S16x4096x3_0_2_1 : S16x3x4096.Transposes [0, 2, 1] S16x4096x3
  bcast_S16x3_S16x1x3_0_2 : S16x3.BroadcastsInDim S16x1x3 (![0, 2] : Fin 2 → Fin S16x1x3.rank)
  bcast_S16x1x3_S16x4096x3_0_1_2 : S16x1x3.BroadcastsInDim S16x4096x3 (![0, 1, 2] : Fin 3 → Fin S16x4096x3.rank)
  reducesTo_S16x4096x3_S16x4096_d2 : S16x4096x3.ReducesTo [2] S16x4096
  h_S_ : 0 < S_.numel
  bcast_S16x4096_S16x4096x1_0_1 : S16x4096.BroadcastsInDim S16x4096x1 (![0, 1] : Fin 2 → Fin S16x4096x1.rank)
  bcast_S16x4096_S16x1x4096_0_2 : S16x4096.BroadcastsInDim S16x1x4096 (![0, 2] : Fin 2 → Fin S16x1x4096.rank)
  bcast_S16x4096x1_S16x4096x4096_0_1_2 : S16x4096x1.BroadcastsInDim S16x4096x4096 (![0, 1, 2] : Fin 3 → Fin S16x4096x4096.rank)
  bcast_S16x1x4096_S16x4096x4096_0_1_2 : S16x1x4096.BroadcastsInDim S16x4096x4096 (![0, 1, 2] : Fin 3 → Fin S16x4096x4096.rank)
  bcast_S_S16x4096x4096 : S_.BroadcastsInDim S16x4096x4096 (![] : Fin 0 → Fin S16x4096x4096.rank)
  reducesTo_S16x4096x4096_S16x4096_d2 : S16x4096x4096.ReducesTo [2] S16x4096
  reducesTo_S16x4096_S_d0_1 : S16x4096.ReducesTo [0, 1] S_
  dot_S16x3x3_S4096x3_S16x3x4096_2_1_01_0_n_n_wf : DotDims.WF S16x3x3 S4096x3 S16x3x4096 [2] [1] [0, 1] [0] [] []
  dot_S16x4096x3_S16x4096x3_S16x4096x4096_2_2_1_1_0_0_wf : DotDims.WF S16x4096x3 S16x4096x3 S16x4096x4096 [2] [2] [1] [1] [0] [0]

variable [Facts₀]

def dot_S16x3x3_S4096x3_S16x3x4096_2_1_01_0_n_n : DotDims S16x3x3 S4096x3 S16x3x4096 where
  lhsContracting := [2]
  rhsContracting := [1]
  lhsNonContracting := [0, 1]
  rhsNonContracting := [0]
  lhsBatch := []
  rhsBatch := []
  wf := dot_S16x3x3_S4096x3_S16x3x4096_2_1_01_0_n_n_wf
def dot_S16x4096x3_S16x4096x3_S16x4096x4096_2_2_1_1_0_0 : DotDims S16x4096x3 S16x4096x3 S16x4096x4096 where
  lhsContracting := [2]
  rhsContracting := [2]
  lhsNonContracting := [1]
  rhsNonContracting := [1]
  lhsBatch := [0]
  rhsBatch := [0]
  wf := dot_S16x4096x3_S16x4096x3_S16x4096x4096_2_2_1_1_0_0_wf

class Facts : Prop extends Facts₀ where

variable [Facts]
-- ==== Proof.Kernel.Shared.lean ====
/-
  The kernel's frame, first part: the host lines around the region, each window's block at a grid point, where the two
  conditions of the body hold, and the names of the staging and scratch buffers.

  The grid has 16 · 4 · 4 points; point t has target tile t mod 4.  The body resets its running minimum where the
  target tile is 0 and writes the minimum out where it is 3, so three kinds of point occur: first tile, middle tiles,
  last tile.  The output window is written back exactly at the last-tile points and is idle elsewhere.
-/
import proofs.«105035_j43447889167182_1_alg».proof.Proof.Gen.Kernel.Launch
import proofs.«105035_j43447889167182_1_alg».proof.Proof.Gen.Kernel.Skeleton
import proofs.«105035_j43447889167182_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host lines around the region -/

/-- Core c's buffer contents when the region is entered: after the two reshapes of the translations. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is the lines before the region, the region, and the lines after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] hostOps0_sub hostOps0_fresh main_chain

/-- The lines after the region touch TensorCore references only. -/
theorem sfx_sub : ∀ ops ∈ ([hostOps1] : List (List (HloOp τ sig (Elt F)))), ∀ op ∈ ops,
    op.bufs ⊆ StableHlo.tcRefs τ sig := by
  intro ops hops op hop
  simp only [List.mem_cons, List.mem_nil_iff, or_false] at hops
  rcases hops with rfl
  exact (List.forall_iff_forall_mem.mp hostOps1_sub) op hop
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop
/-- And write no array of the pipeline. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl | rfl | rfl | rfl | rfl
  all_goals intro w; fin_cases w <;> simp only [StableHlo.nullary_writes, StableHlo.unary_writes, StableHlo.binary_writes, StableHlo.reshape_writes, Finset.mem_singleton] <;> exact StableHlo.devRef_ne_of_ne (by decide)

/-- The five arguments are as launched when the region is entered: the lines before it write two fresh buffers only. -/
theorem V_main_arg0 (c : Dev nD) : V m c main_arg0 = m ((c : Thread nD τ).loc main_arg0) := by
  dsimp only [V, V0]; simp only [hostOps0, List.flatten_cons, List.flatten_nil, List.append_nil]; after_results
theorem V_main_arg1 (c : Dev nD) : V m c main_arg1 = m ((c : Thread nD τ).loc main_arg1) := by
  dsimp only [V, V0]; simp only [hostOps0, List.flatten_cons, List.flatten_nil, List.append_nil]; after_results
theorem V_main_arg2 (c : Dev nD) : V m c main_arg2 = m ((c : Thread nD τ).loc main_arg2) := by
  dsimp only [V, V0]; simp only [hostOps0, List.flatten_cons, List.flatten_nil, List.append_nil]; after_results
theorem V_main_arg3 (c : Dev nD) : V m c main_arg3 = m ((c : Thread nD τ).loc main_arg3) := by
  dsimp only [V, V0]; simp only [hostOps0, List.flatten_cons, List.flatten_nil, List.append_nil]; after_results
theorem V_main_arg4 (c : Dev nD) : V m c main_arg4 = m ((c : Thread nD τ).loc main_arg4) := by
  dsimp only [V, V0]; simp only [hostOps0, List.flatten_cons, List.flatten_nil, List.append_nil]; after_results

/-! ## The windows' blocks -/

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for any proof data
    whose array is the region-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not, for any proof data
    whose array is the region-entry contents and whose body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not, for any proof data
    whose array is the region-entry contents and whose body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not, for any proof data
    whose array is the region-entry contents and whose body leaves the block in place. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, fetched there or not, for any proof data
    whose array is the region-entry contents and whose body leaves the block in place. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's current staging buffer holds its block at every point, fetched there or not, for any proof data
    whose array is the region-entry contents and whose body leaves the block in place. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The body's two conditions -/

/-- The reset's condition: the target tile is the first. -/
abbrev cond0_0 (i : grid0.Coords) : Prop := (Scalar.cmpi .ne (Scalar.extui (Scalar.cmpi .eq (BitVec.ofNat 32 (i 2).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)

/-- The write-out's condition: the target tile is the last. -/
abbrev cond0_1 (i : grid0.Coords) : Prop := k0_cond2 i = 1#1
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
/-- Where the write-out's condition fails the output window is idle and is not written back. -/
theorem idleAt0_6 : ∀ t : Fin cfg0.N, ¬cond0_1 (grid0.coords t) → cfg0.idle 6 (grid0.coords t) = true := by decide +kernel
theorem noFlush0_6 : ∀ t : Fin cfg0.N, ¬cond0_1 (grid0.coords t) → (cfg0.win 6).flush t = false := by decide +kernel
/-- Where it holds the window is live. -/
theorem liveAt0_6 : ∀ t : Fin cfg0.N, cond0_1 (grid0.coords t) → cfg0.idle 6 (grid0.coords t) = false := by decide +kernel

/-! ## The staging and scratch buffers by name -/

/-- One staging buffer of the output window, through which its contents are stated. -/
abbrev VO0_6 : View sig .tc .vmem S1x1x1024 .f32 := (Memref.whole cc0_stg6_0 : Memref sig .tc .vmem S1x1x1024 .f32).view
abbrev ms0_0 (t : Fin cfg0.N) : Memref sig .tc .vmem S1024x3 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x3 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x3x3 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x3 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x3x3 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1x3 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1x1024 .f32 := win0_6.stage (cfg0.slots t 6)
abbrev hs0_6 (t : Fin cfg0.N) : (ms0_6 t).IsWhole := hstage0_6 ((cfg0.slots t 6).cast nbuf0_6)
/-- The scratch holding the running minimum. -/
abbrev scM0_0 : Memref sig .tc .vmem S1x1024 .f32 := Memref.whole cc0_scratch0
abbrev VS0_0 : View sig .tc .vmem S1x1024 .f32 := scM0_0.view

/-- What the launch hands the region of the core's scoped buffers: the scratch at some contents. -/
theorem scopedRest_owns (c : Dev nD) :
    (Pipeline.scopedRest (Ix := Unit) (Name := ℕ) (U := UR sig nD τ) (Lvl := ℕ) (Val := Elt F) spec0 c : sProp 𝕄)
      = iprop(∃ d, owns (c : Thread nD τ) scM0_0 fullShare d) := by
  rw [scopedRest0_eq]; simp only [scM0_0, owns_whole]; try rfl

end Cert.Kernel.Hand

end
-- ==== Proof.Kernel.RunA.lean ====
/-
  The kernel's frame: the whole body run symbolically at a point where the target tile is the first (the running minimum is reset, nothing is written out).
-/
import proofs.«105035_j43447889167182_1_alg».proof.Proof.Kernel.Shared

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body at a point of this kind, on whole staging buffers: the six inputs at their contents, the output's buffer handed back untouched, the
    scratch at anything.  It runs to the end leaving the inputs as they were and the scratch with the
    pieces its stores wrote, which the run itself finds. -/
noncomputable def kernelRun0_A (c : Dev nD) (i : grid0.Coords) (arg3 : Memref sig .tc .vmem S1024x3 .f32) (harg3 : arg3.IsWhole) (arg4 : Memref sig .tc .vmem S1024x3 .f32) (harg4 : arg4.IsWhole) (arg5 : Memref sig .tc .vmem S1x3x3 .f32) (harg5 : arg5.IsWhole) (arg6 : Memref sig .tc .vmem S1x1x3 .f32) (harg6 : arg6.IsWhole) (arg7 : Memref sig .tc .vmem S1x3x3 .f32) (harg7 : arg7.IsWhole) (arg8 : Memref sig .tc .vmem S1x1x3 .f32) (harg8 : arg8.IsWhole) (arg9 : Memref sig .tc .vmem S1x1x1024 .f32) (harg9 : arg9.IsWhole) (arg10 : Memref sig .tc .vmem S1x1024 .f32) (harg10 : arg10.IsWhole) (hc0 : cond0_0 i) (hc1 : ¬cond0_1 i)
    (x0 : Vec F S1024x3 .f32) (x1 : Vec F S1024x3 .f32) (x2 : Vec F S1x3x3 .f32) (x3 : Vec F S1x1x3 .f32) (x4 : Vec F S1x3x3 .f32) (x5 : Vec F S1x1x3 .f32) :
    Σ' (L6 : List (View.Piece (Elt F) S1x1x1024 .f32)), { LS0 : List (View.Piece (Elt F) S1x1024 .f32) //
      ∀ (xi6 : Vec F S1x1x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare xi6 ∗ (∃ d, owns (c : Thread nD τ) arg10 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare xi6 ∗ (∃ f, arg10.view.loc (c : Thread nD τ) ↦[arg10.view.set]{fullShare} arg10.view.writes (Elt F) f LS0)) -∗ K ⟨⟩))
          ⊢ wp frame (wpE (defs₀ (F := F)) Variants.none c none) E (cc0__kernel i arg3 harg3 arg4 harg4 arg5 harg5 arg6 harg6 arg7 harg7 arg8 harg8 arg9 harg9 arg10 harg10) K } := by
  refine ⟨[], ?_, fun xi6 E K => ?run⟩
  case run =>
    simp only [cc0__kernel_eq_skeleton]; unfold cc0__kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    iexists _; iexact HS0

end Cert.Kernel.Hand

end
-- ==== Proof.Kernel.RunB.lean ====
/-
  The kernel's frame: the whole body run symbolically at a point where the target tile is a middle one (the running minimum is updated, nothing is written out).
-/
import proofs.«105035_j43447889167182_1_alg».proof.Proof.Kernel.RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body at a point of this kind, on whole staging buffers: the six inputs at their contents, the output's buffer handed back untouched, the
    scratch at what the point before left.  It runs to the end leaving the inputs as they were and the scratch with the
    pieces its stores wrote, which the run itself finds. -/
noncomputable def kernelRun0_B (c : Dev nD) (i : grid0.Coords) (arg3 : Memref sig .tc .vmem S1024x3 .f32) (harg3 : arg3.IsWhole) (arg4 : Memref sig .tc .vmem S1024x3 .f32) (harg4 : arg4.IsWhole) (arg5 : Memref sig .tc .vmem S1x3x3 .f32) (harg5 : arg5.IsWhole) (arg6 : Memref sig .tc .vmem S1x1x3 .f32) (harg6 : arg6.IsWhole) (arg7 : Memref sig .tc .vmem S1x3x3 .f32) (harg7 : arg7.IsWhole) (arg8 : Memref sig .tc .vmem S1x1x3 .f32) (harg8 : arg8.IsWhole) (arg9 : Memref sig .tc .vmem S1x1x1024 .f32) (harg9 : arg9.IsWhole) (arg10 : Memref sig .tc .vmem S1x1024 .f32) (harg10 : arg10.IsWhole) (hc0 : ¬cond0_0 i) (hc1 : ¬cond0_1 i)
    (x0 : Vec F S1024x3 .f32) (x1 : Vec F S1024x3 .f32) (x2 : Vec F S1x3x3 .f32) (x3 : Vec F S1x1x3 .f32) (x4 : Vec F S1x3x3 .f32) (x5 : Vec F S1x1x3 .f32) (xs0 : Vec F S1x1024 .f32) :
    Σ' (L6 : List (View.Piece (Elt F) S1x1x1024 .f32)), { LS0 : List (View.Piece (Elt F) S1x1024 .f32) //
      ∀ (xi6 : Vec F S1x1x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare xi6 ∗ owns (c : Thread nD τ) arg10 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare xi6 ∗ (∃ f, arg10.view.loc (c : Thread nD τ) ↦[arg10.view.set]{fullShare} arg10.view.writes (Elt F) f LS0)) -∗ K ⟨⟩))
          ⊢ wp frame (wpE (defs₀ (F := F)) Variants.none c none) E (cc0__kernel i arg3 harg3 arg4 harg4 arg5 harg5 arg6 harg6 arg7 harg7 arg8 harg8 arg9 harg9 arg10 harg10) K } := by
  refine ⟨[], ?_, fun xi6 E K => ?run⟩
  case run =>
    simp only [cc0__kernel_eq_skeleton]; unfold cc0__kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    iexists _; iexact HS0

end Cert.Kernel.Hand

end
-- ==== Proof.Kernel.RunC.lean ====
/-
  The kernel's frame: the whole body run symbolically at a point where the target tile is the last (the running minimum is updated and written out).
-/
import proofs.«105035_j43447889167182_1_alg».proof.Proof.Kernel.RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body at a point of this kind, on whole staging buffers: the six inputs at their contents, the output's buffer at anything, the
    scratch at what the point before left.  It runs to the end leaving the inputs as they were and the scratch and the output's buffer with the
    pieces its stores wrote, which the run itself finds. -/
noncomputable def kernelRun0_C (c : Dev nD) (i : grid0.Coords) (arg3 : Memref sig .tc .vmem S1024x3 .f32) (harg3 : arg3.IsWhole) (arg4 : Memref sig .tc .vmem S1024x3 .f32) (harg4 : arg4.IsWhole) (arg5 : Memref sig .tc .vmem S1x3x3 .f32) (harg5 : arg5.IsWhole) (arg6 : Memref sig .tc .vmem S1x1x3 .f32) (harg6 : arg6.IsWhole) (arg7 : Memref sig .tc .vmem S1x3x3 .f32) (harg7 : arg7.IsWhole) (arg8 : Memref sig .tc .vmem S1x1x3 .f32) (harg8 : arg8.IsWhole) (arg9 : Memref sig .tc .vmem S1x1x1024 .f32) (harg9 : arg9.IsWhole) (arg10 : Memref sig .tc .vmem S1x1024 .f32) (harg10 : arg10.IsWhole) (hc0 : ¬cond0_0 i) (hc1 : cond0_1 i)
    (x0 : Vec F S1024x3 .f32) (x1 : Vec F S1024x3 .f32) (x2 : Vec F S1x3x3 .f32) (x3 : Vec F S1x1x3 .f32) (x4 : Vec F S1x3x3 .f32) (x5 : Vec F S1x1x3 .f32) (xs0 : Vec F S1x1024 .f32) :
    Σ' (L6 : List (View.Piece (Elt F) S1x1x1024 .f32)), { LS0 : List (View.Piece (Elt F) S1x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ owns (c : Thread nD τ) arg10 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ f, arg9.view.loc (c : Thread nD τ) ↦[arg9.view.set]{fullShare} arg9.view.writes (Elt F) f L6) ∗ (∃ f, arg10.view.loc (c : Thread nD τ) ↦[arg10.view.set]{fullShare} arg10.view.writes (Elt F) f LS0)) -∗ K ⟨⟩))
          ⊢ wp frame (wpE (defs₀ (F := F)) Variants.none c none) E (cc0__kernel i arg3 harg3 arg4 harg4 arg5 harg5 arg6 harg6 arg7 harg7 arg8 harg8 arg9 harg9 arg10 harg10) K } := by
  refine ⟨?_, ?_, fun E K => ?run⟩
  case run =>
    simp only [cc0__kernel_eq_skeleton]; unfold cc0__kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg10.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]; · iexists _; iexact H6
    iexists _; iexact HS0

end Cert.Kernel.Hand

end
-- ==== Proof.LibSharedLaunch.lean ====
/-
  A pipelined kernel whose input windows may SHARE an array — one array handed to the kernel through several
  `in_specs`, read at different blocks — inside an @main that runs host operations before the kernel's region and
  after it.

  The launch rule for distinct arrays holds every array at the full share.  When two windows stage one array the
  full share of the buffer behind it is dealt among them, and dealing it is the certificate's business: it says how
  the distinct buffers, each whole at the full share, make the proof data's arrays when the region is entered
  (`hsplit`), and that after the last point the proof data's arrays and the distinct buffers at the exit contents
  `Vx` are the same resource (`hmerge`).  Between the two the host operations after the region run within the
  core's unscoped buffers exactly as the ones before it do, writing no array; they leave every bypassing buffer at
  their composed value from the exit contents.  The kernel keeps no semaphore of its own and its invariant is
  entered from, and returns to, the core's scoped buffers that are no staging buffer, each at some contents.
  Generic in the program, the grid and the element values.
-/
import Idealize.ShloMosaic.Lib.Pipeline.FrameSuffix

noncomputable section

namespace Idealize.ShloMosaic.Pipeline

open Idealize.SL
open Idealize.SL.BI (sProp bigSep bigSep_map bigSep_union bigSep_congr)
open scoped Idealize.SL.BI
open Idealize.SL.BI.BIBase Idealize.SL.BI.Laws Idealize.SL.Sem Idealize.SL.ProofMode
open Idealize.SL.RA
open TcCoe
open Idealize.ShloMosaic.Rounds

variable {nD : Nat} {τ : Topo} {sig : RefSig} {Val : EltTy → Type}
variable {Λ₀ : SL.Sem.Labels} {P : Type} [Fintype P] [DecidableEq P] [∀ e, Nonempty (Val e)]

local notation "𝕄" => MT nD τ sig Unit Val ℕ (UR sig nD τ) ℕ

variable (cfgs : P → Cfg sig Λ₀)
  (dats : (p : P) → (c : Dev nD) → Dat τ Val Unit ℕ (UR sig nD τ) ℕ (cfgs p) c) (p : P)
  (defs₀ : Defs nD τ sig Val Λ₀) (𝒱₀ : Variants)

local notation "cfg" => cfgs p
local notation "𝔻" => Pipeline.defs (fun q => Cfg.toPCfg (Val := Val) (cfgs q)) defs₀
local notation "𝕍" => Variants.lift 𝒱₀

set_option backward.isDefEq.respectTransparency.types false in
/-- THE RUN AROUND THE REGION when windows may share arrays.  Every weakly fair execution terminates; each window's
    array ends at the proof data's `arrAt … N`, and every unscoped buffer that is no window's array at the value the
    operations after the region compute from the exit contents `Vx`. -/
theorem θ_run_shared_around
    (hinj : Function.Injective (cellOf (nD := nD) (τ := τ) cfgs))
    (hw : WinFacts₀ (cfg).spec)
    (hne : ∀ w : Fin (cfg).W, 0 < ((cfg).spec w).block.numel)
    (harr : ∀ w, ((cfg).spec w).arr.IsWhole) (hstage : ∀ w s, (((cfg).spec w).stage s).IsWhole)
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (howed : ∀ c t, (dats p c).owed t = 0)
    (V₀ Vx : Dev nD → Valuation τ sig Val) (opss : List (List (HloOp τ sig Val)))
    (hsub : ∀ ops ∈ opss, ∀ op ∈ ops, op.bufs ⊆ StableHlo.tcRefs τ sig)
    (hfresh : ∀ ops ∈ opss, ∀ op ∈ ops, op.fresh = ∅)
    (hkeep : ∀ ops ∈ opss, ∀ op ∈ ops, ∀ w, Proc.devRef .tc (arrRef (cfg).spec w) ∉ op.writes)
    (hmain : HMainK (Ix := Unit) (Name := ℕ) (U := UR sig nD τ) (Lvl := ℕ) cfgs p defs₀ 𝒱₀ m main
      (fun c b => V₀ c (Proc.devRef .tc b)) (fun _ => chain (opss.map StableHlo.seq)))
    (hsplit : ∀ c, (arrBufs (cfg).spec c (fun b => V₀ c (Proc.devRef .tc b)) : sProp 𝕄) ⊢ (dats p c).arrays ((dats p c).arrAt · 0))
    (hmerge : ∀ c, ((dats p c).arrays ((dats p c).arrAt · (cfg).N) : sProp 𝕄) ⊣⊢ arrBufs (cfg).spec c (fun b => Vx c (Proc.devRef .tc b)))
    (hrest : ∀ c, ∀ b ∈ restRefs sig (cfg).spec, Vx c (Proc.devRef .tc b) = V₀ c (Proc.devRef .tc b))
    (hin : ∀ c, (scopedRest (cfg).spec c : sProp 𝕄) ⊢ (dats p c).Φ 0)
    (hout : ∀ c, (dats p c).Φ (Fin.last (cfg).N) ⊢ (scopedRest (cfg).spec c : sProp 𝕄)) :
    θ_run 𝔻 (onTc main) (s₀ m g) (fun r => ∀ c : Dev nD,
      (∀ w, r.2.mem (((cfg).spec w).arr.view.loc (c.tc : Thread nD τ)) = (dats p c).arrAt w (cfg).N)
      ∧ ∀ b ∈ restRefs sig (cfg).spec, r.2.mem ((c.tc : Thread nD τ).loc b) = StableHlo.after opss.flatten (Vx c) (Proc.devRef .tc b)) := by
  classical
  -- the exit contents' arrays are untouched by the operations after the region
  have harrx (c : Dev nD) : (arrBufs (cfg).spec c (fun b => StableHlo.after opss.flatten (Vx c) (Proc.devRef .tc b)) : sProp 𝕄)
      = arrBufs (cfg).spec c (fun b => Vx c (Proc.devRef .tc b)) := by
    unfold arrBufs
    refine bigSep_congr fun b hb => ?_
    obtain ⟨w, -, rfl⟩ := Finset.mem_image.mp hb
    dsimp only
    rw [StableHlo.after_of_forall_not_mem _ _ fun op hop => ?_]
    obtain ⟨ops, hops, hop⟩ := List.mem_flatten.mp hop
    exact hkeep ops hops op hop w
  have hrestx (c : Dev nD) : (unscopedRest (cfg).spec c (fun b => Vx c (Proc.devRef .tc b)) : sProp 𝕄)
      = unscopedRest (cfg).spec c (fun b => V₀ c (Proc.devRef .tc b)) := by
    unfold unscopedRest
    exact bigSep_congr fun b hb => by dsimp only; rw [hrest c b hb]
  exact θ_run_region_noSem_pf_tail (fun q => (cfgs q).toPCfg (Val := Val)) (fun q => (cfgs q).toPCfg_adm) dats () hinj p hw (PreFacts.none _) emb₁ defs₀ 𝒱₀ m g main
    (fun _ => chain (opss.map StableHlo.seq)) hbody hne harr hstage howed
    (u₀ := initOf (cells cfgs hinj) (launchToks cfgs hinj))
    (hu₀ := Entails.rfl)
    (V := fun c b => V₀ c (Proc.devRef .tc b)) (hmain := hmain)
    (hsplit := hsplit)
    (hpf := fun _ k => k.elim0)
    (X := fun _ => iprop(emp))
    (Y := fun _ => iprop(emp))
    (Z := fun c => unscopedRest (Ix := Unit) (Name := ℕ) (U := UR sig nD τ) (Lvl := ℕ) (cfg).spec c (fun b => V₀ c (Proc.devRef .tc b)))
    (Z' := fun c => unscopedRest (Ix := Unit) (Name := ℕ) (U := UR sig nD τ) (Lvl := ℕ) (cfg).spec c (fun b => StableHlo.after opss.flatten (Vx c) (Proc.devRef .tc b)))
    (hX := fun c => by
      rw [unscopedRestP_none]
      iintro H; isplitr; · iempintro
      iexact H)
    (hin := fun c => by
      refine Entails.trans ?_ (hin c)
      change iprop(emp ∗ prefHeld _ c _ _ ∗ scopedRest (cfg).spec c) ⊢ (scopedRest (cfg).spec c : sProp 𝕄)
      iintro ⟨-, -, H⟩; iexact H)
    (hout := fun c => by
      refine Entails.trans (hout c) ?_
      change (scopedRest (cfg).spec c : sProp 𝕄) ⊢ iprop(emp ∗ scopedRest (cfg).spec c)
      iintro H; isplitr; · iempintro
      iexact H)
    (htail := fun c Q' => by
      have hheld (W : Valuation τ sig Val) : (StableHlo.held (c.tc : Thread nD τ) (ucRefs τ sig) W : sProp 𝕄)
          = iprop(arrBufs (cfg).spec c (fun b => W (Proc.devRef .tc b)) ∗ unscopedRest (cfg).spec c (fun b => W (Proc.devRef .tc b))) := by
        rw [← unscopedBufs_held (Ix := Unit) (Name := ℕ) (U := UR sig nD τ) (Lvl := ℕ) c W]
        exact unscopedBufs_split₀ cfgs p hw.arr_unscoped c _
      change iprop((iprop((dats p c).arrays ((dats p c).arrAt · (cfg).N) ∗ unscopedRest (cfg).spec c (fun b => StableHlo.after opss.flatten (Vx c) (Proc.devRef .tc b))) -∗ Q' ⟨⟩)
          ∗ boundary (c.tc : Thread nD τ) ∗ (dats p c).arrays ((dats p c).arrAt · (cfg).N) ∗ unscopedRest (cfg).spec c (fun b => V₀ c (Proc.devRef .tc b)))
        ⊢ wp frame (wpE 𝔻 𝕍 (c.tc : Thread nD τ) none) Set.univ (chain (opss.map StableHlo.seq)) Q'
      rw [← List.append_nil (opss.map StableHlo.seq)]
      iintro ⟨Hk, Hb, Ha, Hz⟩
      ihave Ha' := (hmerge c).1 $$ Ha
      iapply (wp_seqs_then (fun q => (cfgs q).toPCfg (Val := Val)) defs₀ 𝒱₀ c (ucRefs τ sig) [] opss
        (fun ops ho op h => sub_ucRefs op (hsub ops ho op h)) hfresh (Vx c)) $$ [Hb Ha' Hz]
      · isplitl [Hb]; · iexact Hb
        rw [hheld, hrestx]
        isplitl [Ha']; · iexact Ha'
        iexact Hz
      iintro Hb
      rw [chain_nil, wp_pure, hheld, harrx]
      imodintro
      iapply Hk
      icases Hb with ⟨-, Ha, Hz⟩
      isplitl [Ha]
      · iapply (hmerge c).2; iexact Ha
      iexact Hz)
    (QY := fun c s => ∀ b ∈ restRefs sig (cfg).spec, s.mem ((c.tc : Thread nD τ).loc b) = StableHlo.after opss.flatten (Vx c) (Proc.devRef .tc b))
    (hY := fun c s' => by
      iintro ⟨-, HU, HSI⟩
      unfold unscopedRest
      imodintro
      iapply (pointsTo_read_all (restRefs sig (cfg).spec) (fun b => (c.tc : Thread nD τ).loc b) (fun b => StableHlo.after opss.flatten (Vx c) (Proc.devRef .tc b)) s')
      isplitl [HU] <;> iassumption)
    (hQ := fun s h c => ⟨(h c).1, (h c).2.2⟩)

end Idealize.ShloMosaic.Pipeline

end
-- ==== Proof.Kernel.Frame.lean ====
/-
  The kernel's frame, last part: what the scratch and the output block hold after each grid point, the proof data of the
  pipeline, the body's obligation at every point, how the one array behind the two point windows is shared between them,
  and the run of the whole program.

  The scratch after a point is defined by recursion on the point: a first-tile point's contents need nothing from
  before; a later point's are computed from what the point before left.  The array of model points is read through two
  windows, so each holds half of it; the two halves are joined again when the region is left.
-/
import proofs.«105035_j43447889167182_1_alg».proof.Proof.Kernel.RunC
import proofs.«105035_j43447889167182_1_alg».proof.Proof.LibSharedLaunch

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.SL.BI (bigSepL bigSep_eq_bigSepL_of_eq)

/-- The stores of this kind of point cover the scratch. -/
theorem scover0_A_0 (c : Dev nD) (i : grid0.Coords) (arg3 : Memref sig .tc .vmem S1024x3 .f32) (harg3 : arg3.IsWhole) (arg4 : Memref sig .tc .vmem S1024x3 .f32) (harg4 : arg4.IsWhole) (arg5 : Memref sig .tc .vmem S1x3x3 .f32) (harg5 : arg5.IsWhole) (arg6 : Memref sig .tc .vmem S1x1x3 .f32) (harg6 : arg6.IsWhole) (arg7 : Memref sig .tc .vmem S1x3x3 .f32) (harg7 : arg7.IsWhole) (arg8 : Memref sig .tc .vmem S1x1x3 .f32) (harg8 : arg8.IsWhole) (arg9 : Memref sig .tc .vmem S1x1x1024 .f32) (harg9 : arg9.IsWhole) (arg10 : Memref sig .tc .vmem S1x1024 .f32) (harg10 : arg10.IsWhole) (hc0 : cond0_0 i) (hc1 : ¬cond0_1 i)
    (x0 : Vec F S1024x3 .f32) (x1 : Vec F S1024x3 .f32) (x2 : Vec F S1x3x3 .f32) (x3 : Vec F S1x1x3 .f32) (x4 : Vec F S1x3x3 .f32) (x5 : Vec F S1x1x3 .f32) (y : S1x1024.Idx) :
    ∃ pc ∈ (kernelRun0_A c i arg3 harg3 arg4 harg4 arg5 harg5 arg6 harg6 arg7 harg7 arg8 harg8 arg9 harg9 arg10 harg10 hc0 hc1 x0 x1 x2 x3 x4 x5).2.1, y ∈ pc.1.set :=
  View.cover_of_tiledL (kernelRun0_A c i arg3 harg3 arg4 harg4 arg5 harg5 arg6 harg6 arg7 harg7 arg8 harg8 arg9 harg9 arg10 harg10 hc0 hc1 x0 x1 x2 x3 x4 x5).2.1 S1x1024.size (by sl_kernel_rfl) y

/-- What this kind of point leaves in the scratch: its stores read back. -/
def sout0_A_0 (c : Dev nD) (i : grid0.Coords) (arg3 : Memref sig .tc .vmem S1024x3 .f32) (harg3 : arg3.IsWhole) (arg4 : Memref sig .tc .vmem S1024x3 .f32) (harg4 : arg4.IsWhole) (arg5 : Memref sig .tc .vmem S1x3x3 .f32) (harg5 : arg5.IsWhole) (arg6 : Memref sig .tc .vmem S1x1x3 .f32) (harg6 : arg6.IsWhole) (arg7 : Memref sig .tc .vmem S1x3x3 .f32) (harg7 : arg7.IsWhole) (arg8 : Memref sig .tc .vmem S1x1x3 .f32) (harg8 : arg8.IsWhole) (arg9 : Memref sig .tc .vmem S1x1x1024 .f32) (harg9 : arg9.IsWhole) (arg10 : Memref sig .tc .vmem S1x1024 .f32) (harg10 : arg10.IsWhole) (hc0 : cond0_0 i) (hc1 : ¬cond0_1 i)
    (x0 : Vec F S1024x3 .f32) (x1 : Vec F S1024x3 .f32) (x2 : Vec F S1x3x3 .f32) (x3 : Vec F S1x1x3 .f32) (x4 : Vec F S1x3x3 .f32) (x5 : Vec F S1x1x3 .f32) : Vec F S1x1024 .f32 :=
  VS0_0.read (Elt F) (VS0_0.writes (Elt F) VS0_0.junk (kernelRun0_A c i arg3 harg3 arg4 harg4 arg5 harg5 arg6 harg6 arg7 harg7 arg8 harg8 arg9 harg9 arg10 harg10 hc0 hc1 x0 x1 x2 x3 x4 x5).2.1)

/-- The stores of this kind of point cover the scratch. -/
theorem scover0_B_0 (c : Dev nD) (i : grid0.Coords) (arg3 : Memref sig .tc .vmem S1024x3 .f32) (harg3 : arg3.IsWhole) (arg4 : Memref sig .tc .vmem S1024x3 .f32) (harg4 : arg4.IsWhole) (arg5 : Memref sig .tc .vmem S1x3x3 .f32) (harg5 : arg5.IsWhole) (arg6 : Memref sig .tc .vmem S1x1x3 .f32) (harg6 : arg6.IsWhole) (arg7 : Memref sig .tc .vmem S1x3x3 .f32) (harg7 : arg7.IsWhole) (arg8 : Memref sig .tc .vmem S1x1x3 .f32) (harg8 : arg8.IsWhole) (arg9 : Memref sig .tc .vmem S1x1x1024 .f32) (harg9 : arg9.IsWhole) (arg10 : Memref sig .tc .vmem S1x1024 .f32) (harg10 : arg10.IsWhole) (hc0 : ¬cond0_0 i) (hc1 : ¬cond0_1 i)
    (x0 : Vec F S1024x3 .f32) (x1 : Vec F S1024x3 .f32) (x2 : Vec F S1x3x3 .f32) (x3 : Vec F S1x1x3 .f32) (x4 : Vec F S1x3x3 .f32) (x5 : Vec F S1x1x3 .f32) (xs0 : Vec F S1x1024 .f32) (y : S1x1024.Idx) :
    ∃ pc ∈ (kernelRun0_B c i arg3 harg3 arg4 harg4 arg5 harg5 arg6 harg6 arg7 harg7 arg8 harg8 arg9 harg9 arg10 harg10 hc0 hc1 x0 x1 x2 x3 x4 x5 xs0).2.1, y ∈ pc.1.set :=
  View.cover_of_tiledL (kernelRun0_B c i arg3 harg3 arg4 harg4 arg5 harg5 arg6 harg6 arg7 harg7 arg8 harg8 arg9 harg9 arg10 harg10 hc0 hc1 x0 x1 x2 x3 x4 x5 xs0).2.1 S1x1024.size (by sl_kernel_rfl) y

/-- What this kind of point leaves in the scratch: its stores read back. -/
def sout0_B_0 (c : Dev nD) (i : grid0.Coords) (arg3 : Memref sig .tc .vmem S1024x3 .f32) (harg3 : arg3.IsWhole) (arg4 : Memref sig .tc .vmem S1024x3 .f32) (harg4 : arg4.IsWhole) (arg5 : Memref sig .tc .vmem S1x3x3 .f32) (harg5 : arg5.IsWhole) (arg6 : Memref sig .tc .vmem S1x1x3 .f32) (harg6 : arg6.IsWhole) (arg7 : Memref sig .tc .vmem S1x3x3 .f32) (harg7 : arg7.IsWhole) (arg8 : Memref sig .tc .vmem S1x1x3 .f32) (harg8 : arg8.IsWhole) (arg9 : Memref sig .tc .vmem S1x1x1024 .f32) (harg9 : arg9.IsWhole) (arg10 : Memref sig .tc .vmem S1x1024 .f32) (harg10 : arg10.IsWhole) (hc0 : ¬cond0_0 i) (hc1 : ¬cond0_1 i)
    (x0 : Vec F S1024x3 .f32) (x1 : Vec F S1024x3 .f32) (x2 : Vec F S1x3x3 .f32) (x3 : Vec F S1x1x3 .f32) (x4 : Vec F S1x3x3 .f32) (x5 : Vec F S1x1x3 .f32) (xs0 : Vec F S1x1024 .f32) : Vec F S1x1024 .f32 :=
  VS0_0.read (Elt F) (VS0_0.writes (Elt F) VS0_0.junk (kernelRun0_B c i arg3 harg3 arg4 harg4 arg5 harg5 arg6 harg6 arg7 harg7 arg8 harg8 arg9 harg9 arg10 harg10 hc0 hc1 x0 x1 x2 x3 x4 x5 xs0).2.1)

/-- The stores of this kind of point cover the scratch. -/
theorem scover0_C_0 (c : Dev nD) (i : grid0.Coords) (arg3 : Memref sig .tc .vmem S1024x3 .f32) (harg3 : arg3.IsWhole) (arg4 : Memref sig .tc .vmem S1024x3 .f32) (harg4 : arg4.IsWhole) (arg5 : Memref sig .tc .vmem S1x3x3 .f32) (harg5 : arg5.IsWhole) (arg6 : Memref sig .tc .vmem S1x1x3 .f32) (harg6 : arg6.IsWhole) (arg7 : Memref sig .tc .vmem S1x3x3 .f32) (harg7 : arg7.IsWhole) (arg8 : Memref sig .tc .vmem S1x1x3 .f32) (harg8 : arg8.IsWhole) (arg9 : Memref sig .tc .vmem S1x1x1024 .f32) (harg9 : arg9.IsWhole) (arg10 : Memref sig .tc .vmem S1x1024 .f32) (harg10 : arg10.IsWhole) (hc0 : ¬cond0_0 i) (hc1 : cond0_1 i)
    (x0 : Vec F S1024x3 .f32) (x1 : Vec F S1024x3 .f32) (x2 : Vec F S1x3x3 .f32) (x3 : Vec F S1x1x3 .f32) (x4 : Vec F S1x3x3 .f32) (x5 : Vec F S1x1x3 .f32) (xs0 : Vec F S1x1024 .f32) (y : S1x1024.Idx) :
    ∃ pc ∈ (kernelRun0_C c i arg3 harg3 arg4 harg4 arg5 harg5 arg6 harg6 arg7 harg7 arg8 harg8 arg9 harg9 arg10 harg10 hc0 hc1 x0 x1 x2 x3 x4 x5 xs0).2.1, y ∈ pc.1.set :=
  View.cover_of_tiledL (kernelRun0_C c i arg3 harg3 arg4 harg4 arg5 harg5 arg6 harg6 arg7 harg7 arg8 harg8 arg9 harg9 arg10 harg10 hc0 hc1 x0 x1 x2 x3 x4 x5 xs0).2.1 S1x1024.size (by sl_kernel_rfl) y

/-- What this kind of point leaves in the scratch: its stores read back. -/
def sout0_C_0 (c : Dev nD) (i : grid0.Coords) (arg3 : Memref sig .tc .vmem S1024x3 .f32) (harg3 : arg3.IsWhole) (arg4 : Memref sig .tc .vmem S1024x3 .f32) (harg4 : arg4.IsWhole) (arg5 : Memref sig .tc .vmem S1x3x3 .f32) (harg5 : arg5.IsWhole) (arg6 : Memref sig .tc .vmem S1x1x3 .f32) (harg6 : arg6.IsWhole) (arg7 : Memref sig .tc .vmem S1x3x3 .f32) (harg7 : arg7.IsWhole) (arg8 : Memref sig .tc .vmem S1x1x3 .f32) (harg8 : arg8.IsWhole) (arg9 : Memref sig .tc .vmem S1x1x1024 .f32) (harg9 : arg9.IsWhole) (arg10 : Memref sig .tc .vmem S1x1024 .f32) (harg10 : arg10.IsWhole) (hc0 : ¬cond0_0 i) (hc1 : cond0_1 i)
    (x0 : Vec F S1024x3 .f32) (x1 : Vec F S1024x3 .f32) (x2 : Vec F S1x3x3 .f32) (x3 : Vec F S1x1x3 .f32) (x4 : Vec F S1x3x3 .f32) (x5 : Vec F S1x1x3 .f32) (xs0 : Vec F S1x1024 .f32) : Vec F S1x1024 .f32 :=
  VS0_0.read (Elt F) (VS0_0.writes (Elt F) VS0_0.junk (kernelRun0_C c i arg3 harg3 arg4 harg4 arg5 harg5 arg6 harg6 arg7 harg7 arg8 harg8 arg9 harg9 arg10 harg10 hc0 hc1 x0 x1 x2 x3 x4 x5 xs0).2.1)

/-- The last-tile point's store covers the output block. -/
theorem cover0_C_6 (c : Dev nD) (i : grid0.Coords) (arg3 : Memref sig .tc .vmem S1024x3 .f32) (harg3 : arg3.IsWhole) (arg4 : Memref sig .tc .vmem S1024x3 .f32) (harg4 : arg4.IsWhole) (arg5 : Memref sig .tc .vmem S1x3x3 .f32) (harg5 : arg5.IsWhole) (arg6 : Memref sig .tc .vmem S1x1x3 .f32) (harg6 : arg6.IsWhole) (arg7 : Memref sig .tc .vmem S1x3x3 .f32) (harg7 : arg7.IsWhole) (arg8 : Memref sig .tc .vmem S1x1x3 .f32) (harg8 : arg8.IsWhole) (arg9 : Memref sig .tc .vmem S1x1x1024 .f32) (harg9 : arg9.IsWhole) (arg10 : Memref sig .tc .vmem S1x1024 .f32) (harg10 : arg10.IsWhole) (hc0 : ¬cond0_0 i) (hc1 : cond0_1 i)
    (x0 : Vec F S1024x3 .f32) (x1 : Vec F S1024x3 .f32) (x2 : Vec F S1x3x3 .f32) (x3 : Vec F S1x1x3 .f32) (x4 : Vec F S1x3x3 .f32) (x5 : Vec F S1x1x3 .f32) (xs0 : Vec F S1x1024 .f32) (y : S1x1x1024.Idx) :
    ∃ pc ∈ (kernelRun0_C c i arg3 harg3 arg4 harg4 arg5 harg5 arg6 harg6 arg7 harg7 arg8 harg8 arg9 harg9 arg10 harg10 hc0 hc1 x0 x1 x2 x3 x4 x5 xs0).1, y ∈ pc.1.set :=
  View.cover_of_tiledL (kernelRun0_C c i arg3 harg3 arg4 harg4 arg5 harg5 arg6 harg6 arg7 harg7 arg8 harg8 arg9 harg9 arg10 harg10 hc0 hc1 x0 x1 x2 x3 x4 x5 xs0).1 S1x1x1024.size (by sl_kernel_rfl) y

/-- What the last-tile point leaves in the output's staging buffer. -/
def out0_C_6 (c : Dev nD) (i : grid0.Coords) (arg3 : Memref sig .tc .vmem S1024x3 .f32) (harg3 : arg3.IsWhole) (arg4 : Memref sig .tc .vmem S1024x3 .f32) (harg4 : arg4.IsWhole) (arg5 : Memref sig .tc .vmem S1x3x3 .f32) (harg5 : arg5.IsWhole) (arg6 : Memref sig .tc .vmem S1x1x3 .f32) (harg6 : arg6.IsWhole) (arg7 : Memref sig .tc .vmem S1x3x3 .f32) (harg7 : arg7.IsWhole) (arg8 : Memref sig .tc .vmem S1x1x3 .f32) (harg8 : arg8.IsWhole) (arg9 : Memref sig .tc .vmem S1x1x1024 .f32) (harg9 : arg9.IsWhole) (arg10 : Memref sig .tc .vmem S1x1024 .f32) (harg10 : arg10.IsWhole) (hc0 : ¬cond0_0 i) (hc1 : cond0_1 i)
    (x0 : Vec F S1024x3 .f32) (x1 : Vec F S1024x3 .f32) (x2 : Vec F S1x3x3 .f32) (x3 : Vec F S1x1x3 .f32) (x4 : Vec F S1x3x3 .f32) (x5 : Vec F S1x1x3 .f32) (xs0 : Vec F S1x1024 .f32) : Vec F S1x1x1024 .f32 :=
  VO0_6.read (Elt F) (VO0_6.writes (Elt F) VO0_6.junk (kernelRun0_C c i arg3 harg3 arg4 harg4 arg5 harg5 arg6 harg6 arg7 harg7 arg8 harg8 arg9 harg9 arg10 harg10 hc0 hc1 x0 x1 x2 x3 x4 x5 xs0).1)

/-! ## What the scratch holds after each point -/

/-- The scratch after point n. -/
def scAt0 (c : Dev nD) : (n : ℕ) → n < cfg0.N → Vec F S1x1024 .f32
  | 0, hn => sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩)
  | n + 1, hn =>
    if h0 : (n + 1) % 4 = 0 then
      sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) ((hcond0_0 ⟨n + 1, hn⟩).mpr h0) (fun h => (fun h => by (try dsimp only at h); omega) ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩)
    else
      if h1 : (n + 1) % 4 = 3 then
        sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (scAt0 c n (Nat.lt_of_succ_lt hn))
      else
        sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (scAt0 c n (Nat.lt_of_succ_lt hn))

theorem scAt0_A (c : Dev nD) (t : Fin cfg0.N) (h0 : t.val % 4 = 0) (h1 : ¬t.val % 4 = 3) :
    scAt0 m c t.val t.isLt = sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t) := by
  obtain ⟨n, hn⟩ := t
  cases n with
  | zero => exact rfl
  | succ n => exact (dif_pos h0).trans rfl

theorem scAt0_B (c : Dev nD) (t : Fin cfg0.N) (h0 : ¬t.val % 4 = 0) (h1 : ¬t.val % 4 = 3) :
    scAt0 m c t.val t.isLt = sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (scAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

theorem scAt0_C (c : Dev nD) (t : Fin cfg0.N) (h0 : ¬t.val % 4 = 0) (h1 : t.val % 4 = 3) :
    scAt0 m c t.val t.isLt = sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (scAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-- The output's staging buffer after point t: at a last-tile point what that point stores; elsewhere the window is idle
    and nothing consults this value. -/
def outAt0 (c : Dev nD) (t : Fin cfg0.N) : Vec F S1x1x1024 .f32 :=
  if h1 : t.val % 4 = 3 then
    out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => by have := (hcond0_0 t).mp h; omega) ((hcond0_1 t).mpr h1) (iblk m c 0 t) (iblk m c 1 t) (iblk m c 2 t) (iblk m c 3 t) (iblk m c 4 t) (iblk m c 5 t) (scAt0 m c (t.val - 1) (Nat.lt_of_le_of_lt (Nat.sub_le _ _) t.isLt))
  else VO0_6.read (Elt F) VO0_6.junk

theorem outAt0_C (c : Dev nD) (t : Fin cfg0.N) (h0 : ¬t.val % 4 = 0) (h1 : t.val % 4 = 3) :
    outAt0 m c t = out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (scAt0 m c (t.val - 1) (Nat.lt_of_le_of_lt (Nat.sub_le _ _) t.isLt)) := by
  unfold outAt0; rw [dif_pos h1]

/-- The region's invariant before point n: at the start the scratch at anything; afterwards at what the point before left. -/
def PhiS (c : Dev nD) : (n : ℕ) → n ≤ cfg0.N → sProp 𝕄
  | 0, _ => Pipeline.scopedRest spec0 c
  | n + 1, hn => owns (c : Thread nD τ) scM0_0 fullShare (scAt0 m c n hn)

theorem PhiS_zero (c : Dev nD) (n : ℕ) (h : n ≤ cfg0.N) (hz : n = 0) : PhiS m c n h = Pipeline.scopedRest spec0 c := by
  subst hz; rfl
theorem PhiS_succ (c : Dev nD) (n : ℕ) (hn : n < cfg0.N) :
    PhiS m c (n + 1) hn = owns (c : Thread nD τ) scM0_0 fullShare (scAt0 m c n hn) := rfl
theorem PhiS_pos (c : Dev nD) (n : ℕ) (h : n ≤ cfg0.N) (hz : n ≠ 0) :
    PhiS m c n h = owns (c : Thread nD τ) scM0_0 fullShare (scAt0 m c (n - 1) (by omega)) := by
  cases n with
  | zero => exact absurd rfl hz
  | succ n => rfl

/-! ## The pipeline's proof data -/

/-- The arrays as the region finds them; after the body each input's buffer at its block and the output's at
    outAt0; the scratch tracked by PhiS; nothing owed; the array of model points held half by each of its two windows. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outAt0 m c t
  Φ t := PhiS m c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = outAt0 m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

theorem leaves_in (c : Dev nD) (t : Fin cfg0.N) :
    (dats m 0 c).leavesExact 0 t = owns (c : Thread nD τ) (ms0_0 t) fullShare (iblk m c 0 t)
    ∧ (dats m 0 c).leavesExact 1 t = owns (c : Thread nD τ) (ms0_1 t) fullShare (iblk m c 1 t)
    ∧ (dats m 0 c).leavesExact 2 t = owns (c : Thread nD τ) (ms0_2 t) fullShare (iblk m c 2 t)
    ∧ (dats m 0 c).leavesExact 3 t = owns (c : Thread nD τ) (ms0_3 t) fullShare (iblk m c 3 t)
    ∧ (dats m 0 c).leavesExact 4 t = owns (c : Thread nD τ) (ms0_4 t) fullShare (iblk m c 4 t)
    ∧ (dats m 0 c).leavesExact 5 t = owns (c : Thread nD τ) (ms0_5 t) fullShare (iblk m c 5 t) := by
  refine ⟨?_, ?_, ?_, ?_, ?_, ?_⟩
  · unfold Dat.leavesExact; rw [liveAt0_0 t, after0_0]
  · unfold Dat.leavesExact; rw [liveAt0_1 t, after0_1]
  · unfold Dat.leavesExact; rw [liveAt0_2 t, after0_2]
  · unfold Dat.leavesExact; rw [liveAt0_3 t, after0_3]
  · unfold Dat.leavesExact; rw [liveAt0_4 t, after0_4]
  · unfold Dat.leavesExact; rw [liveAt0_5 t, after0_5]

set_option maxHeartbeats 4800000 in
/-- The body at any point.  The inputs' buffers hold their blocks; the residue of the point modulo 4 says which kind of
    point it is; the invariant hands the scratch at what the point before left (at anything before the first point)
    and takes it back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.succ = PhiS m c (t.val + 1) t.isLt from rfl, PhiS_succ]
  obtain ⟨e0, e1, e2, e3, e4, e5⟩ := leaves_in m c t
  rw [e0, e1, e2, e3, e4, e5]
  have hN : t.val < 256 := lt_of_lt_of_eq t.isLt (show cfg0.N = 256 from N_0)
  by_cases h0 : t.val % 4 = 0
  · have h1 : ¬t.val % 4 = 3 := by omega
    rw [Dat.leavesExact_idle (dats m 0 c) 6 t (idleAt0_6 t (fun h => h1 ((hcond0_1 t).mp h))) (noFlush0_6 t (fun h => h1 ((hcond0_1 t).mp h)))]
    rw [scAt0_A m c t h0 h1]
    unfold sout0_A_0; (try dsimp only)
    by_cases hz : t.val = 0
    · rw [PhiS_castSucc m c t, PhiS_zero m c _ _ hz, scopedRest_owns]
      iintro ⟨HS0, Ho, ⟨%d0, H0⟩, ⟨%d1, H1⟩, ⟨%d2, H2⟩, ⟨%d3, H3⟩, ⟨%d4, H4⟩, ⟨%d5, H5⟩, ⟨%d6, H6⟩⟩
      iapply ((kernelRun0_A c (grid0.coords t) _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t)).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      iintro ⟨H0, H1, H2, H3, H4, H5, H6, ⟨%es0, HS0⟩⟩
      isplitl [HS0]
      · unfold owns; iexists _; isplitr
        swap; · iexact HS0
        ipureintro; exact View.read_writes_of_cover _ _ _ _ _ (scover0_A_0 c _ _ _ _ _ _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
    · rw [PhiS_castSucc m c t, PhiS_pos m c _ _ hz]
      iintro ⟨HS0, Ho, ⟨%d0, H0⟩, ⟨%d1, H1⟩, ⟨%d2, H2⟩, ⟨%d3, H3⟩, ⟨%d4, H4⟩, ⟨%d5, H5⟩, ⟨%d6, H6⟩⟩
      iapply ((kernelRun0_A c (grid0.coords t) _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t)).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexists _; iexact HS0
      iintro ⟨H0, H1, H2, H3, H4, H5, H6, ⟨%es0, HS0⟩⟩
      isplitl [HS0]
      · unfold owns; iexists _; isplitr
        swap; · iexact HS0
        ipureintro; exact View.read_writes_of_cover _ _ _ _ _ (scover0_A_0 c _ _ _ _ _ _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
  · have hz : t.val ≠ 0 := fun hz => h0 (by rw [hz])
    by_cases h1 : t.val % 4 = 3
    · rw [show (dats m 0 c).leavesExact 6 t = owns (c : Thread nD τ) (ms0_6 t) fullShare ((dats m 0 c).after 6 t) from by
        unfold Dat.leavesExact; rw [liveAt0_6 t ((hcond0_1 t).mpr h1)], after0_6]
      rw [scAt0_C m c t h0 h1, outAt0_C m c t h0 h1]
      unfold out0_C_6 sout0_C_0; (try dsimp only)
      rw [PhiS_castSucc m c t, PhiS_pos m c _ _ hz]
      iintro ⟨HS0, Ho, ⟨%d0, H0⟩, ⟨%d1, H1⟩, ⟨%d2, H2⟩, ⟨%d3, H3⟩, ⟨%d4, H4⟩, ⟨%d5, H5⟩, ⟨%d6, H6⟩⟩
      iapply ((kernelRun0_C c (grid0.coords t) _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      iintro ⟨H0, H1, H2, H3, H4, H5, ⟨%e6, H6⟩, ⟨%es0, HS0⟩⟩
      isplitl [HS0]
      · unfold owns; iexists _; isplitr
        swap; · iexact HS0
        ipureintro; exact View.read_writes_of_cover _ _ _ _ _ (scover0_C_0 c _ _ _ _ _ _ _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (cover0_C_6 c _ _ _ _ _ _ _ _ _ _ _ _ _ _ _ _ _ _ _ _ _ _ _ _ _ _)
    · rw [Dat.leavesExact_idle (dats m 0 c) 6 t (idleAt0_6 t (fun h => h1 ((hcond0_1 t).mp h))) (noFlush0_6 t (fun h => h1 ((hcond0_1 t).mp h)))]
      rw [scAt0_B m c t h0 h1]
      unfold sout0_B_0; (try dsimp only)
      rw [PhiS_castSucc m c t, PhiS_pos m c _ _ hz]
      iintro ⟨HS0, Ho, ⟨%d0, H0⟩, ⟨%d1, H1⟩, ⟨%d2, H2⟩, ⟨%d3, H3⟩, ⟨%d4, H4⟩, ⟨%d5, H5⟩, ⟨%d6, H6⟩⟩
      iapply ((kernelRun0_B c (grid0.coords t) _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) (iblk m c 5 t) _).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      iintro ⟨H0, H1, H2, H3, H4, H5, H6, ⟨%es0, HS0⟩⟩
      isplitl [HS0]
      · unfold owns; iexists _; isplitr
        swap; · iexact HS0
        ipureintro; exact View.read_writes_of_cover _ _ _ _ _ (scover0_B_0 c _ _ _ _ _ _ _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- The library's body obligation, at every point. -/
theorem body_obligation (c : Dev nD) : BodyObligation (dats (F := F) m 0 c) (defs₀ (F := F)) Variants.none () Set.univ := fun t => by
  rw [bigSep_W0, bigSep_W0]
  exact sound_body m c t

theorem hin (c : Dev nD) : (Pipeline.scopedRest spec0 c : sProp 𝕄) ⊢ (dats m 0 c).Φ 0 := by
  rw [show (dats m 0 c).Φ 0 = PhiS m c 0 (Nat.zero_le _) from rfl, PhiS_zero m c 0 _ rfl]

theorem hout (c : Dev nD) : (dats m 0 c).Φ (Fin.last cfg0.N) ⊢ (Pipeline.scopedRest spec0 c : sProp 𝕄) := by
  have hN : cfg0.N = 256 := N_0
  rw [show (dats m 0 c).Φ (Fin.last cfg0.N) = PhiS m c (Fin.last cfg0.N).val (Nat.le_of_lt_succ (Fin.last cfg0.N).isLt) from rfl,
    PhiS_pos m c _ _ (by rw [Fin.val_last]; omega), scopedRest_owns]
  iintro HS0; iexists _; iexact HS0

end Cert.Kernel.Hand

end
-- ==== Proof.Kernel.Launch.lean ====
/-
  The kernel's frame: the run of the whole program around the region.

  The array of model points is staged through two windows.  When the region is entered its buffer, whole, is dealt into
  two halves, one for each window; neither window writes, so at the exit both halves hold what they held and are joined
  again.  The region's result array is the only array that changes; the lines after the region then read it.
-/
import proofs.«105035_j43447889167182_1_alg».proof.Proof.Kernel.Frame

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.SL.BI (bigSepL bigSep_eq_bigSepL_of_eq)

/-- The arrays' buffers, listed: the model points, the two rotations, the two reshaped translations, the result. -/
theorem arrBufs_eq (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_arg4) ↦{fullShare} W main_arg4) ∗ (((c : Thread nD τ).loc main_arg0) ↦{fullShare} W main_arg0)
          ∗ (((c : Thread nD τ).loc main_v0) ↦{fullShare} W main_v0) ∗ (((c : Thread nD τ).loc main_arg2) ↦{fullShare} W main_arg2)
          ∗ (((c : Thread nD τ).loc main_v1) ↦{fullShare} W main_v1) ∗ (((c : Thread nD τ).loc main_v2) ↦{fullShare} W main_v2)) := by
  unfold Pipeline.arrBufs
  exact bigSep_eq_bigSepL_of_eq [main_arg4, main_arg0, main_v0, main_arg2, main_v1, main_v2] (by decide) (by decide) _

/-- The proof data's arrays at contents F, window by window, each at its share. -/
theorem arrays_eq7 (c : Dev nD) (G : (w : Fin cfg0.W) → Buf (Elt F) ((cfg0.win w).arr.view.loc (c : Thread nD τ))) :
    ((dats m 0 c).arrays G : sProp 𝕄)
      = iprop((((c : Thread nD τ).loc main_arg4) ↦{fullShare.left} G 0) ∗ (((c : Thread nD τ).loc main_arg4) ↦{fullShare.right} G 1)
          ∗ (((c : Thread nD τ).loc main_arg0) ↦{fullShare} G 2) ∗ (((c : Thread nD τ).loc main_v0) ↦{fullShare} G 3)
          ∗ (((c : Thread nD τ).loc main_arg2) ↦{fullShare} G 4) ∗ (((c : Thread nD τ).loc main_v1) ↦{fullShare} G 5)
          ∗ (((c : Thread nD τ).loc main_v2) ↦{fullShare} G 6)) := by
  unfold Dat.arrays
  rw [bigSep_W0]
  simp only [(arr_whole0 0).set_eq_univ, (arr_whole0 1).set_eq_univ, (arr_whole0 2).set_eq_univ, (arr_whole0 3).set_eq_univ,
    (arr_whole0 4).set_eq_univ, (arr_whole0 5).set_eq_univ, (arr_whole0 6).set_eq_univ]
  rfl

/-- Entering the region: the model points' buffer is dealt into its two halves. -/
theorem hsplit (c : Dev nD) :
    (Pipeline.arrBufs spec0 c (fun b => V0 m c (Proc.devRef .tc b)) : sProp 𝕄) ⊢ (dats m 0 c).arrays ((dats m 0 c).arrAt · 0) := by
  rw [arrBufs_eq, arrays_eq7]
  iintro ⟨H4, H0, Hv0, H2, Hv1, Hv2⟩
  ihave H4' := (pointsTo_share (PosShare.mem_left_op_right fullShare)).1 $$ H4
  icases H4' with ⟨H4l, H4r⟩
  isplitl [H4l]; · iexact H4l
  isplitl [H4r]; · iexact H4r
  isplitl [H0]; · iexact H0
  isplitl [Hv0]; · iexact Hv0
  isplitl [H2]; · iexact H2
  isplitl [Hv1]; · iexact Hv1
  iexact Hv2

/-- The core's buffer contents when the region is left: as at its entry, but for the result array. -/
def Vx (c : Dev nD) : Valuation τ sig (Elt F) :=
  Function.update (V0 m c) (Proc.devRef .tc main_v2) ((dats m 0 c).arrAt 6 cfg0.N)

theorem Vx_v2 (c : Dev nD) : Vx m c (Proc.devRef .tc main_v2) = (dats m 0 c).arrAt 6 cfg0.N := by
  unfold Vx; exact Function.update_self ..

theorem Vx_of_ne (c : Dev nD) (b : Ref sig .tc) (hb : b ≠ main_v2) : Vx m c (Proc.devRef .tc b) = V0 m c (Proc.devRef .tc b) := by
  unfold Vx; exact Function.update_of_ne (fun h => hb (Proc.devRef_injective _ h)) ..

/-- Leaving the region: every input array as it was, the two halves of the model points joined again. -/
theorem hmerge (c : Dev nD) :
    ((dats m 0 c).arrays ((dats m 0 c).arrAt · cfg0.N) : sProp 𝕄) ⊣⊢ Pipeline.arrBufs spec0 c (fun b => Vx m c (Proc.devRef .tc b)) := by
  rw [arrBufs_eq, arrays_eq7]
  rw [(dats m 0 c).arrAt_in 0 rfl, (dats m 0 c).arrAt_in 1 rfl, (dats m 0 c).arrAt_in 2 rfl, (dats m 0 c).arrAt_in 3 rfl,
    (dats m 0 c).arrAt_in 4 rfl, (dats m 0 c).arrAt_in 5 rfl]
  rw [Vx_v2, Vx_of_ne m c main_arg4 (by decide), Vx_of_ne m c main_arg0 (by decide), Vx_of_ne m c main_v0 (by decide),
    Vx_of_ne m c main_arg2 (by decide), Vx_of_ne m c main_v1 (by decide)]
  constructor
  · iintro ⟨H4l, H4r, H0, Hv0, H2, Hv1, Hv2⟩
    isplitl [H4l H4r]
    · iapply (pointsTo_share (PosShare.mem_left_op_right fullShare)).2
      isplitl [H4l]; · iexact H4l
      iexact H4r
    isplitl [H0]; · iexact H0
    isplitl [Hv0]; · iexact Hv0
    isplitl [H2]; · iexact H2
    isplitl [Hv1]; · iexact Hv1
    iexact Hv2
  · iintro ⟨H4, H0, Hv0, H2, Hv1, Hv2⟩
    ihave H4' := (pointsTo_share (PosShare.mem_left_op_right fullShare)).1 $$ H4
    icases H4' with ⟨H4l, H4r⟩
    isplitl [H4l]; · iexact H4l
    isplitl [H4r]; · iexact H4r
    isplitl [H0]; · iexact H0
    isplitl [Hv0]; · iexact Hv0
    isplitl [H2]; · iexact H2
    isplitl [Hv1]; · iexact Hv1
    iexact Hv2

theorem hrest (c : Dev nD) : ∀ b ∈ Pipeline.restRefs sig spec0, Vx m c (Proc.devRef .tc b) = V0 m c (Proc.devRef .tc b) := by
  intro b hb
  refine Vx_of_ne m c b fun h => ?_
  subst h
  exact (Finset.mem_sdiff.mp hb).2 (Finset.mem_image.mpr ⟨6, Finset.mem_univ _, rfl⟩)

set_option backward.isDefEq.respectTransparency.types false in
/-- Every weakly fair execution of the program terminates; each window's array ends at what the proof data computes,
    and every other unscoped buffer at what the lines after the region compute from the exit contents. -/
theorem run_main : θ_run defs (onTc (τ := τ) (main (F := F))) (s₀ m ρ) (fun r => ∀ c : Dev nD,
      (∀ w, r.2.mem (((cfg0).spec w).arr.view.loc (c.tc : Thread nD τ)) = (dats m 0 c).arrAt w cfg0.N)
      ∧ ∀ b ∈ Pipeline.restRefs sig spec0, r.2.mem ((c.tc : Thread nD τ).loc b) = StableHlo.after (List.flatten [hostOps1]) (Vx m c) (Proc.devRef .tc b)) :=
  Pipeline.θ_run_shared_around cfgs (dats m) (0 : Fin 1) defs₀ Variants.none cellOf_inj winFacts₀0 block_pos0 arr_whole0 stage_whole0 m ρ main
    (fun c => (body_obligation m c).loose) (fun _ _ => rfl) (V0 m) (Vx m) [hostOps1] sfx_sub sfx_fresh sfx_keeps
    (hmain m Variants.none) (hsplit m) (hmerge m) (hrest m) (hin m) (hout m)

/-- info: 'Cert.Kernel.Hand.run_main' depends on axioms: [propext, Classical.choice, Quot.sound] -/
#guard_msgs in #print axioms run_main

theorem mem_rest (b : Ref sig .tc) (hs : b.isScoped = false) (ha : ∀ w, (spec0 w).arr.view.ref ≠ b) : b ∈ Pipeline.restRefs sig spec0 :=
  Pipeline.mem_restRefs_of b hs ha

/-- A buffer no line after the region writes keeps its exit contents. -/
theorem after_tail_arg (c : Dev nD) (b : Ref sig .tc) (hb : ∀ op ∈ (hostOps1 : List (HloOp τ sig (Elt F))), Proc.devRef .tc b ∉ op.writes) :
    StableHlo.after (List.flatten [hostOps1]) (Vx m c) (Proc.devRef .tc b) = Vx m c (Proc.devRef .tc b) := by
  simp only [List.flatten_cons, List.flatten_nil, List.append_nil]
  exact StableHlo.after_of_forall_not_mem _ _ hb

/-- From the run's final state: the five arguments are as launched. -/
theorem kept (r : PUnit × MemSt nD τ sig (Elt F)) (h : ∀ c : Dev nD,
      (∀ w, r.2.mem (((cfg0).spec w).arr.view.loc (c.tc : Thread nD τ)) = (dats m 0 c).arrAt w cfg0.N)
      ∧ ∀ b ∈ Pipeline.restRefs sig spec0, r.2.mem ((c.tc : Thread nD τ).loc b) = StableHlo.after (List.flatten [hostOps1]) (Vx m c) (Proc.devRef .tc b))
    (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  have hw := (h c).1
  have hr := (h c).2
  have tail_keeps : ∀ b : Ref sig .tc, b ≠ main_v3 → b ≠ main_cst → b ≠ main_v4 → b ≠ main_cst_0 → b ≠ main_v5 →
      ∀ op ∈ (hostOps1 : List (HloOp τ sig (Elt F))), Proc.devRef .tc b ∉ op.writes := by
    intro b h3 hc h4 hc0 h5 op hop
    simp only [hostOps1, List.mem_cons, List.mem_nil_iff, or_false] at hop
    rcases hop with rfl | rfl | rfl | rfl | rfl <;>
      simp only [StableHlo.nullary_writes, StableHlo.binary_writes, StableHlo.reshape_writes, Finset.mem_singleton] <;>
      exact StableHlo.devRef_ne_of_ne (by assumption)
  refine ⟨?_, ?_, ?_, ?_, ?_⟩
  · exact (hw 2).trans (((dats m 0 c).arrAt_in 2 rfl _).trans ((A_eq m c 2).trans (V_main_arg0 m c)))
  · refine (hr main_arg1 (mem_rest main_arg1 rfl (by decide))).trans ?_
    rw [after_tail_arg m c main_arg1 (tail_keeps main_arg1 (by decide) (by decide) (by decide) (by decide) (by decide)),
      Vx_of_ne m c main_arg1 (by decide)]
    exact V_main_arg1 m c
  · exact (hw 4).trans (((dats m 0 c).arrAt_in 4 rfl _).trans ((A_eq m c 4).trans (V_main_arg2 m c)))
  · refine (hr main_arg3 (mem_rest main_arg3 rfl (by decide))).trans ?_
    rw [after_tail_arg m c main_arg3 (tail_keeps main_arg3 (by decide) (by decide) (by decide) (by decide) (by decide)),
      Vx_of_ne m c main_arg3 (by decide)]
    exact V_main_arg3 m c
  · exact (hw 0).trans (((dats m 0 c).arrAt_in 0 rfl _).trans ((A_eq m c 0).trans (V_main_arg4 m c)))

/-- THE FRAME: the program runs to the end and its five arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => kept m r h c) (run_main m ρ)

end Cert.Kernel.Hand

end
-- ==== Proof.KernelIdeal.Shared.lean ====
/-
  The kernel's frame, first part: the host lines around the region, each window's block at a grid point, where the two
  conditions of the body hold, and the names of the staging and scratch buffers.

  The grid has 16 · 4 · 4 points; point t has target tile t mod 4.  The body resets its running minimum where the
  target tile is 0 and writes the minimum out where it is 3, so three kinds of point occur: first tile, middle tiles,
  last tile.  The output window is written back exactly at the last-tile points and is idle elsewhere.
-/
import proofs.«105035_j43447889167182_1_alg».proof.Proof.Gen.KernelIdeal.Launch
import proofs.«105035_j43447889167182_1_alg».proof.Proof.Gen.KernelIdeal.Skeleton
import proofs.«105035_j43447889167182_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host lines around the region -/

/-- Core c's buffer contents when the region is entered: after the two reshapes of the translations. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is the lines before the region, the region, and the lines after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] hostOps0_sub hostOps0_fresh main_chain

/-- The lines after the region touch TensorCore references only. -/
theorem sfx_sub : ∀ ops ∈ ([hostOps1] : List (List (HloOp τ sig (Elt F)))), ∀ op ∈ ops,
    op.bufs ⊆ StableHlo.tcRefs τ sig := by
  intro ops hops op hop
  simp only [List.mem_cons, List.mem_nil_iff, or_false] at hops
  rcases hops with rfl
  exact (List.forall_iff_forall_mem.mp hostOps1_sub) op hop
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop
/-- And write no array of the pipeline. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl | rfl | rfl | rfl | rfl
  all_goals intro w; fin_cases w <;> simp only [StableHlo.nullary_writes, StableHlo.unary_writes, StableHlo.binary_writes, StableHlo.reshape_writes, Finset.mem_singleton] <;> exact StableHlo.devRef_ne_of_ne (by decide)

/-- The five arguments are as launched when the region is entered: the lines before it write two fresh buffers only. -/
theorem V_main_arg0 (c : Dev nD) : V m c main_arg0 = m ((c : Thread nD τ).loc main_arg0) := by
  dsimp only [V, V0]; simp only [hostOps0, List.flatten_cons, List.flatten_nil, List.append_nil]; after_results
theorem V_main_arg1 (c : Dev nD) : V m c main_arg1 = m ((c : Thread nD τ).loc main_arg1) := by
  dsimp only [V, V0]; simp only [hostOps0, List.flatten_cons, List.flatten_nil, List.append_nil]; after_results
theorem V_main_arg2 (c : Dev nD) : V m c main_arg2 = m ((c : Thread nD τ).loc main_arg2) := by
  dsimp only [V, V0]; simp only [hostOps0, List.flatten_cons, List.flatten_nil, List.append_nil]; after_results
theorem V_main_arg3 (c : Dev nD) : V m c main_arg3 = m ((c : Thread nD τ).loc main_arg3) := by
  dsimp only [V, V0]; simp only [hostOps0, List.flatten_cons, List.flatten_nil, List.append_nil]; after_results
theorem V_main_arg4 (c : Dev nD) : V m c main_arg4 = m ((c : Thread nD τ).loc main_arg4) := by
  dsimp only [V, V0]; simp only [hostOps0, List.flatten_cons, List.flatten_nil, List.append_nil]; after_results

/-! ## The windows' blocks -/

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for any proof data
    whose array is the region-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not, for any proof data
    whose array is the region-entry contents and whose body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not, for any proof data
    whose array is the region-entry contents and whose body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not, for any proof data
    whose array is the region-entry contents and whose body leaves the block in place. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, fetched there or not, for any proof data
    whose array is the region-entry contents and whose body leaves the block in place. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's current staging buffer holds its block at every point, fetched there or not, for any proof data
    whose array is the region-entry contents and whose body leaves the block in place. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The body's two conditions -/

/-- The reset's condition: the target tile is the first. -/
abbrev cond0_0 (i : grid0.Coords) : Prop := (Scalar.cmpi .ne (Scalar.extui (Scalar.cmpi .eq (BitVec.ofNat 32 (i 2).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)

/-- The write-out's condition: the target tile is the last. -/
abbrev cond0_1 (i : grid0.Coords) : Prop := k0_cond2 i = 1#1
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
/-- Where the write-out's condition fails the output window is idle and is not written back. -/
theorem idleAt0_6 : ∀ t : Fin cfg0.N, ¬cond0_1 (grid0.coords t) → cfg0.idle 6 (grid0.coords t) = true := by decide +kernel
theorem noFlush0_6 : ∀ t : Fin cfg0.N, ¬cond0_1 (grid0.coords t) → (cfg0.win 6).flush t = false := by decide +kernel
/-- Where it holds the window is live. -/
theorem liveAt0_6 : ∀ t : Fin cfg0.N, cond0_1 (grid0.coords t) → cfg0.idle 6 (grid0.coords t) = false := by decide +kernel

/-! ## The staging and scratch buffers by name -/

/-- One staging buffer of the output window, through which its contents are stated. -/
abbrev VO0_6 : View sig .tc .vmem S1x1x1024 .f32 := (Memref.whole cc0_stg6_0 : Memref sig .tc .vmem S1x1x1024 .f32).view
abbrev ms0_0 (t : Fin cfg0.N) : Memref sig .tc .vmem S1024x3 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x3 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x3x3 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x3 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x3x3 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1x3 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1x1024 .f32 := win0_6.stage (cfg0.slots t 6)
abbrev hs0_6 (t : Fin cfg0.N) : (ms0_6 t).IsWhole := hstage0_6 ((cfg0.slots t 6).cast nbuf0_6)
/-- The scratch holding the running minimum. -/
abbrev scM0_0 : Memref sig .tc .vmem S1x1024 .f32 := Memref.whole cc0_scratch0
abbrev VS0_0 : View sig .tc .vmem S1x1024 .f32 := scM0_0.view

/-- What the launch hands the region of the core's scoped buffers: the scratch at some contents. -/
theorem scopedRest_owns (c : Dev nD) :
    (Pipeline.scopedRest (Ix := Unit) (Name := ℕ) (U := UR sig nD τ) (Lvl := ℕ) (Val := Elt F) spec0 c : sProp 𝕄)
      = iprop(∃ d, owns (c : Thread nD τ) scM0_0 fullShare d) := by
  rw [scopedRest0_eq]; simp only [scM0_0, owns_whole]; try rfl

end Cert.KernelIdeal.Hand

end
-- ==== Proof.KernelIdeal.RunA.lean ====
/-
  The kernel's frame: the whole body run symbolically at a point where the target tile is the first (the running minimum is reset, nothing is written out).
-/
import proofs.«105035_j43447889167182_1_alg».proof.Proof.KernelIdeal.Shared

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body at a point of this kind, on whole staging buffers: the six inputs at their contents, the output's buffer handed back untouched, the
    scratch at anything.  It runs to the end leaving the inputs as they were and the scratch with the
    pieces its stores wrote, which the run itself finds. -/
noncomputable def kernelRun0_A (c : Dev nD) (i : grid0.Coords) (arg3 : Memref sig .tc .vmem S1024x3 .f32) (harg3 : arg3.IsWhole) (arg4 : Memref sig .tc .vmem S1024x3 .f32) (harg4 : arg4.IsWhole) (arg5 : Memref sig .tc .vmem S1x3x3 .f32) (harg5 : arg5.IsWhole) (arg6 : Memref sig .tc .vmem S1x1x3 .f32) (harg6 : arg6.IsWhole) (arg7 : Memref sig .tc .vmem S1x3x3 .f32) (harg7 : arg7.IsWhole) (arg8 : Memref sig .tc .vmem S1x1x3 .f32) (harg8 : arg8.IsWhole) (arg9 : Memref sig .tc .vmem S1x1x1024 .f32) (harg9 : arg9.IsWhole) (arg10 : Memref sig .tc .vmem S1x1024 .f32) (harg10 : arg10.IsWhole) (hc0 : cond0_0 i) (hc1 : ¬cond0_1 i)
    (x0 : Vec F S1024x3 .f32) (x1 : Vec F S1024x3 .f32) (x2 : Vec F S1x3x3 .f32) (x3 : Vec F S1x1x3 .f32) (x4 : Vec F S1x3x3 .f32) (x5 : Vec F S1x1x3 .f32) :
    Σ' (L6 : List (View.Piece (Elt F) S1x1x1024 .f32)), { LS0 : List (View.Piece (Elt F) S1x1024 .f32) //
      ∀ (xi6 : Vec F S1x1x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare xi6 ∗ (∃ d, owns (c : Thread nD τ) arg10 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare xi6 ∗ (∃ f, arg10.view.loc (c : Thread nD τ) ↦[arg10.view.set]{fullShare} arg10.view.writes (Elt F) f LS0)) -∗ K ⟨⟩))
          ⊢ wp frame (wpE (defs₀ (F := F)) Variants.none c none) E (cc0__kernel i arg3 harg3 arg4 harg4 arg5 harg5 arg6 harg6 arg7 harg7 arg8 harg8 arg9 harg9 arg10 harg10) K } := by
  refine ⟨[], ?_, fun xi6 E K => ?run⟩
  case run =>
    simp only [cc0__kernel_eq_skeleton]; unfold cc0__kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    iexists _; iexact HS0

end Cert.KernelIdeal.Hand

end
-- ==== Proof.KernelIdeal.RunB.lean ====
/-
  The kernel's frame: the whole body run symbolically at a point where the target tile is a middle one (the running minimum is updated, nothing is written out).
-/
import proofs.«105035_j43447889167182_1_alg».proof.Proof.KernelIdeal.RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body at a point of this kind, on whole staging buffers: the six inputs at their contents, the output's buffer handed back untouched, the
    scratch at what the point before left.  It runs to the end leaving the inputs as they were and the scratch with the
    pieces its stores wrote, which the run itself finds. -/
noncomputable def kernelRun0_B (c : Dev nD) (i : grid0.Coords) (arg3 : Memref sig .tc .vmem S1024x3 .f32) (harg3 : arg3.IsWhole) (arg4 : Memref sig .tc .vmem S1024x3 .f32) (harg4 : arg4.IsWhole) (arg5 : Memref sig .tc .vmem S1x3x3 .f32) (harg5 : arg5.IsWhole) (arg6 : Memref sig .tc .vmem S1x1x3 .f32) (harg6 : arg6.IsWhole) (arg7 : Memref sig .tc .vmem S1x3x3 .f32) (harg7 : arg7.IsWhole) (arg8 : Memref sig .tc .vmem S1x1x3 .f32) (harg8 : arg8.IsWhole) (arg9 : Memref sig .tc .vmem S1x1x1024 .f32) (harg9 : arg9.IsWhole) (arg10 : Memref sig .tc .vmem S1x1024 .f32) (harg10 : arg10.IsWhole) (hc0 : ¬cond0_0 i) (hc1 : ¬cond0_1 i)
    (x0 : Vec F S1024x3 .f32) (x1 : Vec F S1024x3 .f32) (x2 : Vec F S1x3x3 .f32) (x3 : Vec F S1x1x3 .f32) (x4 : Vec F S1x3x3 .f32) (x5 : Vec F S1x1x3 .f32) (xs0 : Vec F S1x1024 .f32) :
    Σ' (L6 : List (View.Piece (Elt F) S1x1x1024 .f32)), { LS0 : List (View.Piece (Elt F) S1x1024 .f32) //
      ∀ (xi6 : Vec F S1x1x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare xi6 ∗ owns (c : Thread nD τ) arg10 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare xi6 ∗ (∃ f, arg10.view.loc (c : Thread nD τ) ↦[arg10.view.set]{fullShare} arg10.view.writes (Elt F) f LS0)) -∗ K ⟨⟩))
          ⊢ wp frame (wpE (defs₀ (F := F)) Variants.none c none) E (cc0__kernel i arg3 harg3 arg4 harg4 arg5 harg5 arg6 harg6 arg7 harg7 arg8 harg8 arg9 harg9 arg10 harg10) K } := by
  refine ⟨[], ?_, fun xi6 E K => ?run⟩
  case run =>
    simp only [cc0__kernel_eq_skeleton]; unfold cc0__kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    iexists _; iexact HS0

end Cert.KernelIdeal.Hand

end
-- ==== Proof.KernelIdeal.RunC.lean ====
/-
  The kernel's frame: the whole body run symbolically at a point where the target tile is the last (the running minimum is updated and written out).
-/
import proofs.«105035_j43447889167182_1_alg».proof.Proof.KernelIdeal.RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body at a point of this kind, on whole staging buffers: the six inputs at their contents, the output's buffer at anything, the
    scratch at what the point before left.  It runs to the end leaving the inputs as they were and the scratch and the output's buffer with the
    pieces its stores wrote, which the run itself finds. -/
noncomputable def kernelRun0_C (c : Dev nD) (i : grid0.Coords) (arg3 : Memref sig .tc .vmem S1024x3 .f32) (harg3 : arg3.IsWhole) (arg4 : Memref sig .tc .vmem S1024x3 .f32) (harg4 : arg4.IsWhole) (arg5 : Memref sig .tc .vmem S1x3x3 .f32) (harg5 : arg5.IsWhole) (arg6 : Memref sig .tc .vmem S1x1x3 .f32) (harg6 : arg6.IsWhole) (arg7 : Memref sig .tc .vmem S1x3x3 .f32) (harg7 : arg7.IsWhole) (arg8 : Memref sig .tc .vmem S1x1x3 .f32) (harg8 : arg8.IsWhole) (arg9 : Memref sig .tc .vmem S1x1x1024 .f32) (harg9 : arg9.IsWhole) (arg10 : Memref sig .tc .vmem S1x1024 .f32) (harg10 : arg10.IsWhole) (hc0 : ¬cond0_0 i) (hc1 : cond0_1 i)
    (x0 : Vec F S1024x3 .f32) (x1 : Vec F S1024x3 .f32) (x2 : Vec F S1x3x3 .f32) (x3 : Vec F S1x1x3 .f32) (x4 : Vec F S1x3x3 .f32) (x5 : Vec F S1x1x3 .f32) (xs0 : Vec F S1x1024 .f32) :
    Σ' (L6 : List (View.Piece (Elt F) S1x1x1024 .f32)), { LS0 : List (View.Piece (Elt F) S1x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ owns (c : Thread nD τ) arg10 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ f, arg9.view.loc (c : Thread nD τ) ↦[arg9.view.set]{fullShare} arg9.view.writes (Elt F) f L6) ∗ (∃ f, arg10.view.loc (c : Thread nD τ) ↦[arg10.view.set]{fullShare} arg10.view.writes (Elt F) f LS0)) -∗ K ⟨⟩))
          ⊢ wp frame (wpE (defs₀ (F := F)) Variants.none c none) E (cc0__kernel i arg3 harg3 arg4 harg4 arg5 harg5 arg6 harg6 arg7 harg7 arg8 harg8 arg9 harg9 arg10 harg10) K } := by
  refine ⟨?_, ?_, fun E K => ?run⟩
  case run =>
    simp only [cc0__kernel_eq_skeleton]; unfold cc0__kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg10.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]; · iexists _; iexact H6
    iexists _; iexact HS0

end Cert.KernelIdeal.Hand

end
-- ==== Proof.KernelIdeal.Frame.lean ====
/-
  The kernel's frame, last part: what the scratch and the output block hold after each grid point, the proof data of the
  pipeline, the body's obligation at every point, how the one array behind the two point windows is shared between them,
  and the run of the whole program.

  The scratch after a point is defined by recursion on the point: a first-tile point's contents need nothing from
  before; a later point's are computed from what the point before left.  The array of model points is read through two
  windows, so each holds half of it; the two halves are joined again when the region is left.
-/
import proofs.«105035_j43447889167182_1_alg».proof.Proof.KernelIdeal.RunC
import proofs.«105035_j43447889167182_1_alg».proof.Proof.LibSharedLaunch

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.SL.BI (bigSepL bigSep_eq_bigSepL_of_eq)

/-- The stores of this kind of point cover the scratch. -/
theorem scover0_A_0 (c : Dev nD) (i : grid0.Coords) (arg3 : Memref sig .tc .vmem S1024x3 .f32) (harg3 : arg3.IsWhole) (arg4 : Memref sig .tc .vmem S1024x3 .f32) (harg4 : arg4.IsWhole) (arg5 : Memref sig .tc .vmem S1x3x3 .f32) (harg5 : arg5.IsWhole) (arg6 : Memref sig .tc .vmem S1x1x3 .f32) (harg6 : arg6.IsWhole) (arg7 : Memref sig .tc .vmem S1x3x3 .f32) (harg7 : arg7.IsWhole) (arg8 : Memref sig .tc .vmem S1x1x3 .f32) (harg8 : arg8.IsWhole) (arg9 : Memref sig .tc .vmem S1x1x1024 .f32) (harg9 : arg9.IsWhole) (arg10 : Memref sig .tc .vmem S1x1024 .f32) (harg10 : arg10.IsWhole) (hc0 : cond0_0 i) (hc1 : ¬cond0_1 i)
    (x0 : Vec F S1024x3 .f32) (x1 : Vec F S1024x3 .f32) (x2 : Vec F S1x3x3 .f32) (x3 : Vec F S1x1x3 .f32) (x4 : Vec F S1x3x3 .f32) (x5 : Vec F S1x1x3 .f32) (y : S1x1024.Idx) :
    ∃ pc ∈ (kernelRun0_A c i arg3 harg3 arg4 harg4 arg5 harg5 arg6 harg6 arg7 harg7 arg8 harg8 arg9 harg9 arg10 harg10 hc0 hc1 x0 x1 x2 x3 x4 x5).2.1, y ∈ pc.1.set :=
  View.cover_of_tiledL (kernelRun0_A c i arg3 harg3 arg4 harg4 arg5 harg5 arg6 harg6 arg7 harg7 arg8 harg8 arg9 harg9 arg10 harg10 hc0 hc1 x0 x1 x2 x3 x4 x5).2.1 S1x1024.size (by sl_kernel_rfl) y

/-- What this kind of point leaves in the scratch: its stores read back. -/
def sout0_A_0 (c : Dev nD) (i : grid0.Coords) (arg3 : Memref sig .tc .vmem S1024x3 .f32) (harg3 : arg3.IsWhole) (arg4 : Memref sig .tc .vmem S1024x3 .f32) (harg4 : arg4.IsWhole) (arg5 : Memref sig .tc .vmem S1x3x3 .f32) (harg5 : arg5.IsWhole) (arg6 : Memref sig .tc .vmem S1x1x3 .f32) (harg6 : arg6.IsWhole) (arg7 : Memref sig .tc .vmem S1x3x3 .f32) (harg7 : arg7.IsWhole) (arg8 : Memref sig .tc .vmem S1x1x3 .f32) (harg8 : arg8.IsWhole) (arg9 : Memref sig .tc .vmem S1x1x1024 .f32) (harg9 : arg9.IsWhole) (arg10 : Memref sig .tc .vmem S1x1024 .f32) (harg10 : arg10.IsWhole) (hc0 : cond0_0 i) (hc1 : ¬cond0_1 i)
    (x0 : Vec F S1024x3 .f32) (x1 : Vec F S1024x3 .f32) (x2 : Vec F S1x3x3 .f32) (x3 : Vec F S1x1x3 .f32) (x4 : Vec F S1x3x3 .f32) (x5 : Vec F S1x1x3 .f32) : Vec F S1x1024 .f32 :=
  VS0_0.read (Elt F) (VS0_0.writes (Elt F) VS0_0.junk (kernelRun0_A c i arg3 harg3 arg4 harg4 arg5 harg5 arg6 harg6 arg7 harg7 arg8 harg8 arg9 harg9 arg10 harg10 hc0 hc1 x0 x1 x2 x3 x4 x5).2.1)

/-- The stores of this kind of point cover the scratch. -/
theorem scover0_B_0 (c : Dev nD) (i : grid0.Coords) (arg3 : Memref sig .tc .vmem S1024x3 .f32) (harg3 : arg3.IsWhole) (arg4 : Memref sig .tc .vmem S1024x3 .f32) (harg4 : arg4.IsWhole) (arg5 : Memref sig .tc .vmem S1x3x3 .f32) (harg5 : arg5.IsWhole) (arg6 : Memref sig .tc .vmem S1x1x3 .f32) (harg6 : arg6.IsWhole) (arg7 : Memref sig .tc .vmem S1x3x3 .f32) (harg7 : arg7.IsWhole) (arg8 : Memref sig .tc .vmem S1x1x3 .f32) (harg8 : arg8.IsWhole) (arg9 : Memref sig .tc .vmem S1x1x1024 .f32) (harg9 : arg9.IsWhole) (arg10 : Memref sig .tc .vmem S1x1024 .f32) (harg10 : arg10.IsWhole) (hc0 : ¬cond0_0 i) (hc1 : ¬cond0_1 i)
    (x0 : Vec F S1024x3 .f32) (x1 : Vec F S1024x3 .f32) (x2 : Vec F S1x3x3 .f32) (x3 : Vec F S1x1x3 .f32) (x4 : Vec F S1x3x3 .f32) (x5 : Vec F S1x1x3 .f32) (xs0 : Vec F S1x1024 .f32) (y : S1x1024.Idx) :
    ∃ pc ∈ (kernelRun0_B c i arg3 harg3 arg4 harg4 arg5 harg5 arg6 harg6 arg7 harg7 arg8 harg8 arg9 harg9 arg10 harg10 hc0 hc1 x0 x1 x2 x3 x4 x5 xs0).2.1, y ∈ pc.1.set :=
  View.cover_of_tiledL (kernelRun0_B c i arg3 harg3 arg4 harg4 arg5 harg5 arg6 harg6 arg7 harg7 arg8 harg8 arg9 harg9 arg10 harg10 hc0 hc1 x0 x1 x2 x3 x4 x5 xs0).2.1 S1x1024.size (by sl_kernel_rfl) y

/-- What this kind of point leaves in the scratch: its stores read back. -/
def sout0_B_0 (c : Dev nD) (i : grid0.Coords) (arg3 : Memref sig .tc .vmem S1024x3 .f32) (harg3 : arg3.IsWhole) (arg4 : Memref sig .tc .vmem S1024x3 .f32) (harg4 : arg4.IsWhole) (arg5 : Memref sig .tc .vmem S1x3x3 .f32) (harg5 : arg5.IsWhole) (arg6 : Memref sig .tc .vmem S1x1x3 .f32) (harg6 : arg6.IsWhole) (arg7 : Memref sig .tc .vmem S1x3x3 .f32) (harg7 : arg7.IsWhole) (arg8 : Memref sig .tc .vmem S1x1x3 .f32) (harg8 : arg8.IsWhole) (arg9 : Memref sig .tc .vmem S1x1x1024 .f32) (harg9 : arg9.IsWhole) (arg10 : Memref sig .tc .vmem S1x1024 .f32) (harg10 : arg10.IsWhole) (hc0 : ¬cond0_0 i) (hc1 : ¬cond0_1 i)
    (x0 : Vec F S1024x3 .f32) (x1 : Vec F S1024x3 .f32) (x2 : Vec F S1x3x3 .f32) (x3 : Vec F S1x1x3 .f32) (x4 : Vec F S1x3x3 .f32) (x5 : Vec F S1x1x3 .f32) (xs0 : Vec F S1x1024 .f32) : Vec F S1x1024 .f32 :=
  VS0_0.read (Elt F) (VS0_0.writes (Elt F) VS0_0.junk (kernelRun0_B c i arg3 harg3 arg4 harg4 arg5 harg5 arg6 harg6 arg7 harg7 arg8 harg8 arg9 harg9 arg10 harg10 hc0 hc1 x0 x1 x2 x3 x4 x5 xs0).2.1)

/-- The stores of this kind of point cover the scratch. -/
theorem scover0_C_0 (c : Dev nD) (i : grid0.Coords) (arg3 : Memref sig .tc .vmem S1024x3 .f32) (harg3 : arg3.IsWhole) (arg4 : Memref sig .tc .vmem S1024x3 .f32) (harg4 : arg4.IsWhole) (arg5 : Memref sig .tc .vmem S1x3x3 .f32) (harg5 : arg5.IsWhole) (arg6 : Memref sig .tc .vmem S1x1x3 .f32) (harg6 : arg6.IsWhole) (arg7 : Memref sig .tc .vmem S1x3x3 .f32) (harg7 : arg7.IsWhole) (arg8 : Memref sig .tc .vmem S1x1x3 .f32) (harg8 : arg8.IsWhole) (arg9 : Memref sig .tc .vmem S1x1x1024 .f32) (harg9 : arg9.IsWhole) (arg10 : Memref sig .tc .vmem S1x1024 .f32) (harg10 : arg10.IsWhole) (hc0 : ¬cond0_0 i) (hc1 : cond0_1 i)
    (x0 : Vec F S1024x3 .f32) (x1 : Vec F S1024x3 .f32) (x2 : Vec F S1x3x3 .f32) (x3 : Vec F S1x1x3 .f32) (x4 : Vec F S1x3x3 .f32) (x5 : Vec F S1x1x3 .f32) (xs0 : Vec F S1x1024 .f32) (y : S1x1024.Idx) :
    ∃ pc ∈ (kernelRun0_C c i arg3 harg3 arg4 harg4 arg5 harg5 arg6 harg6 arg7 harg7 arg8 harg8 arg9 harg9 arg10 harg10 hc0 hc1 x0 x1 x2 x3 x4 x5 xs0).2.1, y ∈ pc.1.set :=
  View.cover_of_tiledL (kernelRun0_C c i arg3 harg3 arg4 harg4 arg5 harg5 arg6 harg6 arg7 harg7 arg8 harg8 arg9 harg9 arg10 harg10 hc0 hc1 x0 x1 x2 x3 x4 x5 xs0).2.1 S1x1024.size (by sl_kernel_rfl) y

/-- What this kind of point leaves in the scratch: its stores read back. -/
def sout0_C_0 (c : Dev nD) (i : grid0.Coords) (arg3 : Memref sig .tc .vmem S1024x3 .f32) (harg3 : arg3.IsWhole) (arg4 : Memref sig .tc .vmem S1024x3 .f32) (harg4 : arg4.IsWhole) (arg5 : Memref sig .tc .vmem S1x3x3 .f32) (harg5 : arg5.IsWhole) (arg6 : Memref sig .tc .vmem S1x1x3 .f32) (harg6 : arg6.IsWhole) (arg7 : Memref sig .tc .vmem S1x3x3 .f32) (harg7 : arg7.IsWhole) (arg8 : Memref sig .tc .vmem S1x1x3 .f32) (harg8 : arg8.IsWhole) (arg9 : Memref sig .tc .vmem S1x1x1024 .f32) (harg9 : arg9.IsWhole) (arg10 : Memref sig .tc .vmem S1x1024 .f32) (harg10 : arg10.IsWhole) (hc0 : ¬cond0_0 i) (hc1 : cond0_1 i)
    (x0 : Vec F S1024x3 .f32) (x1 : Vec F S1024x3 .f32) (x2 : Vec F S1x3x3 .f32) (x3 : Vec F S1x1x3 .f32) (x4 : Vec F S1x3x3 .f32) (x5 : Vec F S1x1x3 .f32) (xs0 : Vec F S1x1024 .f32) : Vec F S1x1024 .f32 :=
  VS0_0.read (Elt F) (VS0_0.writes (Elt F) VS0_0.junk (kernelRun0_C c i arg3 harg3 arg4 harg4 arg5 harg5 arg6 harg6 arg7 harg7 arg8 harg8 arg9 harg9 arg10 harg10 hc0 hc1 x0 x1 x2 x3 x4 x5 xs0).2.1)

/-- The last-tile point's store covers the output block. -/
theorem cover0_C_6 (c : Dev nD) (i : grid0.Coords) (arg3 : Memref sig .tc .vmem S1024x3 .f32) (harg3 : arg3.IsWhole) (arg4 : Memref sig .tc .vmem S1024x3 .f32) (harg4 : arg4.IsWhole) (arg5 : Memref sig .tc .vmem S1x3x3 .f32) (harg5 : arg5.IsWhole) (arg6 : Memref sig .tc .vmem S1x1x3 .f32) (harg6 : arg6.IsWhole) (arg7 : Memref sig .tc .vmem S1x3x3 .f32) (harg7 : arg7.IsWhole) (arg8 : Memref sig .tc .vmem S1x1x3 .f32) (harg8 : arg8.IsWhole) (arg9 : Memref sig .tc .vmem S1x1x1024 .f32) (harg9 : arg9.IsWhole) (arg10 : Memref sig .tc .vmem S1x1024 .f32) (harg10 : arg10.IsWhole) (hc0 : ¬cond0_0 i) (hc1 : cond0_1 i)
    (x0 : Vec F S1024x3 .f32) (x1 : Vec F S1024x3 .f32) (x2 : Vec F S1x3x3 .f32) (x3 : Vec F S1x1x3 .f32) (x4 : Vec F S1x3x3 .f32) (x5 : Vec F S1x1x3 .f32) (xs0 : Vec F S1x1024 .f32) (y : S1x1x1024.Idx) :
    ∃ pc ∈ (kernelRun0_C c i arg3 harg3 arg4 harg4 arg5 harg5 arg6 harg6 arg7 harg7 arg8 harg8 arg9 harg9 arg10 harg10 hc0 hc1 x0 x1 x2 x3 x4 x5 xs0).1, y ∈ pc.1.set :=
  View.cover_of_tiledL (kernelRun0_C c i arg3 harg3 arg4 harg4 arg5 harg5 arg6 harg6 arg7 harg7 arg8 harg8 arg9 harg9 arg10 harg10 hc0 hc1 x0 x1 x2 x3 x4 x5 xs0).1 S1x1x1024.size (by sl_kernel_rfl) y

/-- What the last-tile point leaves in the output's staging buffer. -/
def out0_C_6 (c : Dev nD) (i : grid0.Coords) (arg3 : Memref sig .tc .vmem S1024x3 .f32) (harg3 : arg3.IsWhole) (arg4 : Memref sig .tc .vmem S1024x3 .f32) (harg4 : arg4.IsWhole) (arg5 : Memref sig .tc .vmem S1x3x3 .f32) (harg5 : arg5.IsWhole) (arg6 : Memref sig .tc .vmem S1x1x3 .f32) (harg6 : arg6.IsWhole) (arg7 : Memref sig .tc .vmem S1x3x3 .f32) (harg7 : arg7.IsWhole) (arg8 : Memref sig .tc .vmem S1x1x3 .f32) (harg8 : arg8.IsWhole) (arg9 : Memref sig .tc .vmem S1x1x1024 .f32) (harg9 : arg9.IsWhole) (arg10 : Memref sig .tc .vmem S1x1024 .f32) (harg10 : arg10.IsWhole) (hc0 : ¬cond0_0 i) (hc1 : cond0_1 i)
    (x0 : Vec F S1024x3 .f32) (x1 : Vec F S1024x3 .f32) (x2 : Vec F S1x3x3 .f32) (x3 : Vec F S1x1x3 .f32) (x4 : Vec F S1x3x3 .f32) (x5 : Vec F S1x1x3 .f32) (xs0 : Vec F S1x1024 .f32) : Vec F S1x1x1024 .f32 :=
  VO0_6.read (Elt F) (VO0_6.writes (Elt F) VO0_6.junk (kernelRun0_C c i arg3 harg3 arg4 harg4 arg5 harg5 arg6 harg6 arg7 harg7 arg8 harg8 arg9 harg9 arg10 harg10 hc0 hc1 x0 x1 x2 x3 x4 x5 xs0).1)

/-! ## What the scratch holds after each point -/

/-- The scratch after point n. -/
def scAt0 (c : Dev nD) : (n : ℕ) → n < cfg0.N → Vec F S1x1024 .f32
  | 0, hn => sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩)
  | n + 1, hn =>
    if h0 : (n + 1) % 4 = 0 then
      sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) ((hcond0_0 ⟨n + 1, hn⟩).mpr h0) (fun h => (fun h => by (try dsimp only at h); omega) ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩)
    else
      if h1 : (n + 1) % 4 = 3 then
        sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (scAt0 c n (Nat.lt_of_succ_lt hn))
      else
        sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (scAt0 c n (Nat.lt_of_succ_lt hn))

theorem scAt0_A (c : Dev nD) (t : Fin cfg0.N) (h0 : t.val % 4 = 0) (h1 : ¬t.val % 4 = 3) :
    scAt0 m c t.val t.isLt = sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t) := by
  obtain ⟨n, hn⟩ := t
  cases n with
  | zero => exact rfl
  | succ n => exact (dif_pos h0).trans rfl

theorem scAt0_B (c : Dev nD) (t : Fin cfg0.N) (h0 : ¬t.val % 4 = 0) (h1 : ¬t.val % 4 = 3) :
    scAt0 m c t.val t.isLt = sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (scAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

theorem scAt0_C (c : Dev nD) (t : Fin cfg0.N) (h0 : ¬t.val % 4 = 0) (h1 : t.val % 4 = 3) :
    scAt0 m c t.val t.isLt = sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (scAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-- The output's staging buffer after point t: at a last-tile point what that point stores; elsewhere the window is idle
    and nothing consults this value. -/
def outAt0 (c : Dev nD) (t : Fin cfg0.N) : Vec F S1x1x1024 .f32 :=
  if h1 : t.val % 4 = 3 then
    out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => by have := (hcond0_0 t).mp h; omega) ((hcond0_1 t).mpr h1) (iblk m c 0 t) (iblk m c 1 t) (iblk m c 2 t) (iblk m c 3 t) (iblk m c 4 t) (iblk m c 5 t) (scAt0 m c (t.val - 1) (Nat.lt_of_le_of_lt (Nat.sub_le _ _) t.isLt))
  else VO0_6.read (Elt F) VO0_6.junk

theorem outAt0_C (c : Dev nD) (t : Fin cfg0.N) (h0 : ¬t.val % 4 = 0) (h1 : t.val % 4 = 3) :
    outAt0 m c t = out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (scAt0 m c (t.val - 1) (Nat.lt_of_le_of_lt (Nat.sub_le _ _) t.isLt)) := by
  unfold outAt0; rw [dif_pos h1]

/-- The region's invariant before point n: at the start the scratch at anything; afterwards at what the point before left. -/
def PhiS (c : Dev nD) : (n : ℕ) → n ≤ cfg0.N → sProp 𝕄
  | 0, _ => Pipeline.scopedRest spec0 c
  | n + 1, hn => owns (c : Thread nD τ) scM0_0 fullShare (scAt0 m c n hn)

theorem PhiS_zero (c : Dev nD) (n : ℕ) (h : n ≤ cfg0.N) (hz : n = 0) : PhiS m c n h = Pipeline.scopedRest spec0 c := by
  subst hz; rfl
theorem PhiS_succ (c : Dev nD) (n : ℕ) (hn : n < cfg0.N) :
    PhiS m c (n + 1) hn = owns (c : Thread nD τ) scM0_0 fullShare (scAt0 m c n hn) := rfl
theorem PhiS_pos (c : Dev nD) (n : ℕ) (h : n ≤ cfg0.N) (hz : n ≠ 0) :
    PhiS m c n h = owns (c : Thread nD τ) scM0_0 fullShare (scAt0 m c (n - 1) (by omega)) := by
  cases n with
  | zero => exact absurd rfl hz
  | succ n => rfl

/-! ## The pipeline's proof data -/

/-- The arrays as the region finds them; after the body each input's buffer at its block and the output's at
    outAt0; the scratch tracked by PhiS; nothing owed; the array of model points held half by each of its two windows. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outAt0 m c t
  Φ t := PhiS m c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = outAt0 m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

theorem leaves_in (c : Dev nD) (t : Fin cfg0.N) :
    (dats m 0 c).leavesExact 0 t = owns (c : Thread nD τ) (ms0_0 t) fullShare (iblk m c 0 t)
    ∧ (dats m 0 c).leavesExact 1 t = owns (c : Thread nD τ) (ms0_1 t) fullShare (iblk m c 1 t)
    ∧ (dats m 0 c).leavesExact 2 t = owns (c : Thread nD τ) (ms0_2 t) fullShare (iblk m c 2 t)
    ∧ (dats m 0 c).leavesExact 3 t = owns (c : Thread nD τ) (ms0_3 t) fullShare (iblk m c 3 t)
    ∧ (dats m 0 c).leavesExact 4 t = owns (c : Thread nD τ) (ms0_4 t) fullShare (iblk m c 4 t)
    ∧ (dats m 0 c).leavesExact 5 t = owns (c : Thread nD τ) (ms0_5 t) fullShare (iblk m c 5 t) := by
  refine ⟨?_, ?_, ?_, ?_, ?_, ?_⟩
  · unfold Dat.leavesExact; rw [liveAt0_0 t, after0_0]
  · unfold Dat.leavesExact; rw [liveAt0_1 t, after0_1]
  · unfold Dat.leavesExact; rw [liveAt0_2 t, after0_2]
  · unfold Dat.leavesExact; rw [liveAt0_3 t, after0_3]
  · unfold Dat.leavesExact; rw [liveAt0_4 t, after0_4]
  · unfold Dat.leavesExact; rw [liveAt0_5 t, after0_5]

set_option maxHeartbeats 4800000 in
/-- The body at any point.  The inputs' buffers hold their blocks; the residue of the point modulo 4 says which kind of
    point it is; the invariant hands the scratch at what the point before left (at anything before the first point)
    and takes it back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.succ = PhiS m c (t.val + 1) t.isLt from rfl, PhiS_succ]
  obtain ⟨e0, e1, e2, e3, e4, e5⟩ := leaves_in m c t
  rw [e0, e1, e2, e3, e4, e5]
  have hN : t.val < 256 := lt_of_lt_of_eq t.isLt (show cfg0.N = 256 from N_0)
  by_cases h0 : t.val % 4 = 0
  · have h1 : ¬t.val % 4 = 3 := by omega
    rw [Dat.leavesExact_idle (dats m 0 c) 6 t (idleAt0_6 t (fun h => h1 ((hcond0_1 t).mp h))) (noFlush0_6 t (fun h => h1 ((hcond0_1 t).mp h)))]
    rw [scAt0_A m c t h0 h1]
    unfold sout0_A_0; (try dsimp only)
    by_cases hz : t.val = 0
    · rw [PhiS_castSucc m c t, PhiS_zero m c _ _ hz, scopedRest_owns]
      iintro ⟨HS0, Ho, ⟨%d0, H0⟩, ⟨%d1, H1⟩, ⟨%d2, H2⟩, ⟨%d3, H3⟩, ⟨%d4, H4⟩, ⟨%d5, H5⟩, ⟨%d6, H6⟩⟩
      iapply ((kernelRun0_A c (grid0.coords t) _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t)).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      iintro ⟨H0, H1, H2, H3, H4, H5, H6, ⟨%es0, HS0⟩⟩
      isplitl [HS0]
      · unfold owns; iexists _; isplitr
        swap; · iexact HS0
        ipureintro; exact View.read_writes_of_cover _ _ _ _ _ (scover0_A_0 c _ _ _ _ _ _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
    · rw [PhiS_castSucc m c t, PhiS_pos m c _ _ hz]
      iintro ⟨HS0, Ho, ⟨%d0, H0⟩, ⟨%d1, H1⟩, ⟨%d2, H2⟩, ⟨%d3, H3⟩, ⟨%d4, H4⟩, ⟨%d5, H5⟩, ⟨%d6, H6⟩⟩
      iapply ((kernelRun0_A c (grid0.coords t) _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t)).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexists _; iexact HS0
      iintro ⟨H0, H1, H2, H3, H4, H5, H6, ⟨%es0, HS0⟩⟩
      isplitl [HS0]
      · unfold owns; iexists _; isplitr
        swap; · iexact HS0
        ipureintro; exact View.read_writes_of_cover _ _ _ _ _ (scover0_A_0 c _ _ _ _ _ _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
  · have hz : t.val ≠ 0 := fun hz => h0 (by rw [hz])
    by_cases h1 : t.val % 4 = 3
    · rw [show (dats m 0 c).leavesExact 6 t = owns (c : Thread nD τ) (ms0_6 t) fullShare ((dats m 0 c).after 6 t) from by
        unfold Dat.leavesExact; rw [liveAt0_6 t ((hcond0_1 t).mpr h1)], after0_6]
      rw [scAt0_C m c t h0 h1, outAt0_C m c t h0 h1]
      unfold out0_C_6 sout0_C_0; (try dsimp only)
      rw [PhiS_castSucc m c t, PhiS_pos m c _ _ hz]
      iintro ⟨HS0, Ho, ⟨%d0, H0⟩, ⟨%d1, H1⟩, ⟨%d2, H2⟩, ⟨%d3, H3⟩, ⟨%d4, H4⟩, ⟨%d5, H5⟩, ⟨%d6, H6⟩⟩
      iapply ((kernelRun0_C c (grid0.coords t) _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      iintro ⟨H0, H1, H2, H3, H4, H5, ⟨%e6, H6⟩, ⟨%es0, HS0⟩⟩
      isplitl [HS0]
      · unfold owns; iexists _; isplitr
        swap; · iexact HS0
        ipureintro; exact View.read_writes_of_cover _ _ _ _ _ (scover0_C_0 c _ _ _ _ _ _ _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (cover0_C_6 c _ _ _ _ _ _ _ _ _ _ _ _ _ _ _ _ _ _ _ _ _ _ _ _ _ _)
    · rw [Dat.leavesExact_idle (dats m 0 c) 6 t (idleAt0_6 t (fun h => h1 ((hcond0_1 t).mp h))) (noFlush0_6 t (fun h => h1 ((hcond0_1 t).mp h)))]
      rw [scAt0_B m c t h0 h1]
      unfold sout0_B_0; (try dsimp only)
      rw [PhiS_castSucc m c t, PhiS_pos m c _ _ hz]
      iintro ⟨HS0, Ho, ⟨%d0, H0⟩, ⟨%d1, H1⟩, ⟨%d2, H2⟩, ⟨%d3, H3⟩, ⟨%d4, H4⟩, ⟨%d5, H5⟩, ⟨%d6, H6⟩⟩
      iapply ((kernelRun0_B c (grid0.coords t) _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) (iblk m c 5 t) _).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      iintro ⟨H0, H1, H2, H3, H4, H5, H6, ⟨%es0, HS0⟩⟩
      isplitl [HS0]
      · unfold owns; iexists _; isplitr
        swap; · iexact HS0
        ipureintro; exact View.read_writes_of_cover _ _ _ _ _ (scover0_B_0 c _ _ _ _ _ _ _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- The library's body obligation, at every point. -/
theorem body_obligation (c : Dev nD) : BodyObligation (dats (F := F) m 0 c) (defs₀ (F := F)) Variants.none () Set.univ := fun t => by
  rw [bigSep_W0, bigSep_W0]
  exact sound_body m c t

theorem hin (c : Dev nD) : (Pipeline.scopedRest spec0 c : sProp 𝕄) ⊢ (dats m 0 c).Φ 0 := by
  rw [show (dats m 0 c).Φ 0 = PhiS m c 0 (Nat.zero_le _) from rfl, PhiS_zero m c 0 _ rfl]

theorem hout (c : Dev nD) : (dats m 0 c).Φ (Fin.last cfg0.N) ⊢ (Pipeline.scopedRest spec0 c : sProp 𝕄) := by
  have hN : cfg0.N = 256 := N_0
  rw [show (dats m 0 c).Φ (Fin.last cfg0.N) = PhiS m c (Fin.last cfg0.N).val (Nat.le_of_lt_succ (Fin.last cfg0.N).isLt) from rfl,
    PhiS_pos m c _ _ (by rw [Fin.val_last]; omega), scopedRest_owns]
  iintro HS0; iexists _; iexact HS0

end Cert.KernelIdeal.Hand

end
-- ==== Proof.KernelIdeal.Launch.lean ====
/-
  The kernel's frame: the run of the whole program around the region.

  The array of model points is staged through two windows.  When the region is entered its buffer, whole, is dealt into
  two halves, one for each window; neither window writes, so at the exit both halves hold what they held and are joined
  again.  The region's result array is the only array that changes; the lines after the region then read it.
-/
import proofs.«105035_j43447889167182_1_alg».proof.Proof.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.SL.BI (bigSepL bigSep_eq_bigSepL_of_eq)

/-- The arrays' buffers, listed: the model points, the two rotations, the two reshaped translations, the result. -/
theorem arrBufs_eq (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_arg4) ↦{fullShare} W main_arg4) ∗ (((c : Thread nD τ).loc main_arg0) ↦{fullShare} W main_arg0)
          ∗ (((c : Thread nD τ).loc main_v0) ↦{fullShare} W main_v0) ∗ (((c : Thread nD τ).loc main_arg2) ↦{fullShare} W main_arg2)
          ∗ (((c : Thread nD τ).loc main_v1) ↦{fullShare} W main_v1) ∗ (((c : Thread nD τ).loc main_v2) ↦{fullShare} W main_v2)) := by
  unfold Pipeline.arrBufs
  exact bigSep_eq_bigSepL_of_eq [main_arg4, main_arg0, main_v0, main_arg2, main_v1, main_v2] (by decide) (by decide) _

/-- The proof data's arrays at contents F, window by window, each at its share. -/
theorem arrays_eq7 (c : Dev nD) (G : (w : Fin cfg0.W) → Buf (Elt F) ((cfg0.win w).arr.view.loc (c : Thread nD τ))) :
    ((dats m 0 c).arrays G : sProp 𝕄)
      = iprop((((c : Thread nD τ).loc main_arg4) ↦{fullShare.left} G 0) ∗ (((c : Thread nD τ).loc main_arg4) ↦{fullShare.right} G 1)
          ∗ (((c : Thread nD τ).loc main_arg0) ↦{fullShare} G 2) ∗ (((c : Thread nD τ).loc main_v0) ↦{fullShare} G 3)
          ∗ (((c : Thread nD τ).loc main_arg2) ↦{fullShare} G 4) ∗ (((c : Thread nD τ).loc main_v1) ↦{fullShare} G 5)
          ∗ (((c : Thread nD τ).loc main_v2) ↦{fullShare} G 6)) := by
  unfold Dat.arrays
  rw [bigSep_W0]
  simp only [(arr_whole0 0).set_eq_univ, (arr_whole0 1).set_eq_univ, (arr_whole0 2).set_eq_univ, (arr_whole0 3).set_eq_univ,
    (arr_whole0 4).set_eq_univ, (arr_whole0 5).set_eq_univ, (arr_whole0 6).set_eq_univ]
  rfl

/-- Entering the region: the model points' buffer is dealt into its two halves. -/
theorem hsplit (c : Dev nD) :
    (Pipeline.arrBufs spec0 c (fun b => V0 m c (Proc.devRef .tc b)) : sProp 𝕄) ⊢ (dats m 0 c).arrays ((dats m 0 c).arrAt · 0) := by
  rw [arrBufs_eq, arrays_eq7]
  iintro ⟨H4, H0, Hv0, H2, Hv1, Hv2⟩
  ihave H4' := (pointsTo_share (PosShare.mem_left_op_right fullShare)).1 $$ H4
  icases H4' with ⟨H4l, H4r⟩
  isplitl [H4l]; · iexact H4l
  isplitl [H4r]; · iexact H4r
  isplitl [H0]; · iexact H0
  isplitl [Hv0]; · iexact Hv0
  isplitl [H2]; · iexact H2
  isplitl [Hv1]; · iexact Hv1
  iexact Hv2

/-- The core's buffer contents when the region is left: as at its entry, but for the result array. -/
def Vx (c : Dev nD) : Valuation τ sig (Elt F) :=
  Function.update (V0 m c) (Proc.devRef .tc main_v2) ((dats m 0 c).arrAt 6 cfg0.N)

theorem Vx_v2 (c : Dev nD) : Vx m c (Proc.devRef .tc main_v2) = (dats m 0 c).arrAt 6 cfg0.N := by
  unfold Vx; exact Function.update_self ..

theorem Vx_of_ne (c : Dev nD) (b : Ref sig .tc) (hb : b ≠ main_v2) : Vx m c (Proc.devRef .tc b) = V0 m c (Proc.devRef .tc b) := by
  unfold Vx; exact Function.update_of_ne (fun h => hb (Proc.devRef_injective _ h)) ..

/-- Leaving the region: every input array as it was, the two halves of the model points joined again. -/
theorem hmerge (c : Dev nD) :
    ((dats m 0 c).arrays ((dats m 0 c).arrAt · cfg0.N) : sProp 𝕄) ⊣⊢ Pipeline.arrBufs spec0 c (fun b => Vx m c (Proc.devRef .tc b)) := by
  rw [arrBufs_eq, arrays_eq7]
  rw [(dats m 0 c).arrAt_in 0 rfl, (dats m 0 c).arrAt_in 1 rfl, (dats m 0 c).arrAt_in 2 rfl, (dats m 0 c).arrAt_in 3 rfl,
    (dats m 0 c).arrAt_in 4 rfl, (dats m 0 c).arrAt_in 5 rfl]
  rw [Vx_v2, Vx_of_ne m c main_arg4 (by decide), Vx_of_ne m c main_arg0 (by decide), Vx_of_ne m c main_v0 (by decide),
    Vx_of_ne m c main_arg2 (by decide), Vx_of_ne m c main_v1 (by decide)]
  constructor
  · iintro ⟨H4l, H4r, H0, Hv0, H2, Hv1, Hv2⟩
    isplitl [H4l H4r]
    · iapply (pointsTo_share (PosShare.mem_left_op_right fullShare)).2
      isplitl [H4l]; · iexact H4l
      iexact H4r
    isplitl [H0]; · iexact H0
    isplitl [Hv0]; · iexact Hv0
    isplitl [H2]; · iexact H2
    isplitl [Hv1]; · iexact Hv1
    iexact Hv2
  · iintro ⟨H4, H0, Hv0, H2, Hv1, Hv2⟩
    ihave H4' := (pointsTo_share (PosShare.mem_left_op_right fullShare)).1 $$ H4
    icases H4' with ⟨H4l, H4r⟩
    isplitl [H4l]; · iexact H4l
    isplitl [H4r]; · iexact H4r
    isplitl [H0]; · iexact H0
    isplitl [Hv0]; · iexact Hv0
    isplitl [H2]; · iexact H2
    isplitl [Hv1]; · iexact Hv1
    iexact Hv2

theorem hrest (c : Dev nD) : ∀ b ∈ Pipeline.restRefs sig spec0, Vx m c (Proc.devRef .tc b) = V0 m c (Proc.devRef .tc b) := by
  intro b hb
  refine Vx_of_ne m c b fun h => ?_
  subst h
  exact (Finset.mem_sdiff.mp hb).2 (Finset.mem_image.mpr ⟨6, Finset.mem_univ _, rfl⟩)

set_option backward.isDefEq.respectTransparency.types false in
/-- Every weakly fair execution of the program terminates; each window's array ends at what the proof data computes,
    and every other unscoped buffer at what the lines after the region compute from the exit contents. -/
theorem run_main : θ_run defs (onTc (τ := τ) (main (F := F))) (s₀ m ρ) (fun r => ∀ c : Dev nD,
      (∀ w, r.2.mem (((cfg0).spec w).arr.view.loc (c.tc : Thread nD τ)) = (dats m 0 c).arrAt w cfg0.N)
      ∧ ∀ b ∈ Pipeline.restRefs sig spec0, r.2.mem ((c.tc : Thread nD τ).loc b) = StableHlo.after (List.flatten [hostOps1]) (Vx m c) (Proc.devRef .tc b)) :=
  Pipeline.θ_run_shared_around cfgs (dats m) (0 : Fin 1) defs₀ Variants.none cellOf_inj winFacts₀0 block_pos0 arr_whole0 stage_whole0 m ρ main
    (fun c => (body_obligation m c).loose) (fun _ _ => rfl) (V0 m) (Vx m) [hostOps1] sfx_sub sfx_fresh sfx_keeps
    (hmain m Variants.none) (hsplit m) (hmerge m) (hrest m) (hin m) (hout m)

/-- info: 'Cert.KernelIdeal.Hand.run_main' depends on axioms: [propext, Classical.choice, Quot.sound] -/
#guard_msgs in #print axioms run_main

theorem mem_rest (b : Ref sig .tc) (hs : b.isScoped = false) (ha : ∀ w, (spec0 w).arr.view.ref ≠ b) : b ∈ Pipeline.restRefs sig spec0 :=
  Pipeline.mem_restRefs_of b hs ha

/-- A buffer no line after the region writes keeps its exit contents. -/
theorem after_tail_arg (c : Dev nD) (b : Ref sig .tc) (hb : ∀ op ∈ (hostOps1 : List (HloOp τ sig (Elt F))), Proc.devRef .tc b ∉ op.writes) :
    StableHlo.after (List.flatten [hostOps1]) (Vx m c) (Proc.devRef .tc b) = Vx m c (Proc.devRef .tc b) := by
  simp only [List.flatten_cons, List.flatten_nil, List.append_nil]
  exact StableHlo.after_of_forall_not_mem _ _ hb

/-- From the run's final state: the five arguments are as launched. -/
theorem kept (r : PUnit × MemSt nD τ sig (Elt F)) (h : ∀ c : Dev nD,
      (∀ w, r.2.mem (((cfg0).spec w).arr.view.loc (c.tc : Thread nD τ)) = (dats m 0 c).arrAt w cfg0.N)
      ∧ ∀ b ∈ Pipeline.restRefs sig spec0, r.2.mem ((c.tc : Thread nD τ).loc b) = StableHlo.after (List.flatten [hostOps1]) (Vx m c) (Proc.devRef .tc b))
    (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  have hw := (h c).1
  have hr := (h c).2
  have tail_keeps : ∀ b : Ref sig .tc, b ≠ main_v3 → b ≠ main_cst → b ≠ main_v4 → b ≠ main_cst_0 → b ≠ main_v5 →
      ∀ op ∈ (hostOps1 : List (HloOp τ sig (Elt F))), Proc.devRef .tc b ∉ op.writes := by
    intro b h3 hc h4 hc0 h5 op hop
    simp only [hostOps1, List.mem_cons, List.mem_nil_iff, or_false] at hop
    rcases hop with rfl | rfl | rfl | rfl | rfl <;>
      simp only [StableHlo.nullary_writes, StableHlo.binary_writes, StableHlo.reshape_writes, Finset.mem_singleton] <;>
      exact StableHlo.devRef_ne_of_ne (by assumption)
  refine ⟨?_, ?_, ?_, ?_, ?_⟩
  · exact (hw 2).trans (((dats m 0 c).arrAt_in 2 rfl _).trans ((A_eq m c 2).trans (V_main_arg0 m c)))
  · refine (hr main_arg1 (mem_rest main_arg1 rfl (by decide))).trans ?_
    rw [after_tail_arg m c main_arg1 (tail_keeps main_arg1 (by decide) (by decide) (by decide) (by decide) (by decide)),
      Vx_of_ne m c main_arg1 (by decide)]
    exact V_main_arg1 m c
  · exact (hw 4).trans (((dats m 0 c).arrAt_in 4 rfl _).trans ((A_eq m c 4).trans (V_main_arg2 m c)))
  · refine (hr main_arg3 (mem_rest main_arg3 rfl (by decide))).trans ?_
    rw [after_tail_arg m c main_arg3 (tail_keeps main_arg3 (by decide) (by decide) (by decide) (by decide) (by decide)),
      Vx_of_ne m c main_arg3 (by decide)]
    exact V_main_arg3 m c
  · exact (hw 0).trans (((dats m 0 c).arrAt_in 0 rfl _).trans ((A_eq m c 0).trans (V_main_arg4 m c)))

/-- THE FRAME: the program runs to the end and its five arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => kept m r h c) (run_main m ρ)

end Cert.KernelIdeal.Hand

end
-- ==== Proof.KernelIdeal.Pieces.lean ====
/-
  What each kind of grid point leaves in the scratch and in the output block, as values: the body's one covering store
  into each buffer, its payload a function of the blocks the body loaded.

  A first-tile point stores the top element everywhere, reads it back, and leaves the minimum of that and the tile's
  least distances; a later point leaves the minimum of what the point before left and its own tile's least distances; a
  last-tile point moreover copies the scratch, just stored, into the output block.
-/
import proofs.«105035_j43447889167182_1_alg».proof.Proof.KernelIdeal.Frame
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

/-- A first-tile point: the reset value against this tile's least distances. -/
theorem sout_A_eq (c : Dev nD) (i : grid0.Coords) (arg3 : Memref sig .tc .vmem S1024x3 .f32) (harg3 : arg3.IsWhole) (arg4 : Memref sig .tc .vmem S1024x3 .f32) (harg4 : arg4.IsWhole) (arg5 : Memref sig .tc .vmem S1x3x3 .f32) (harg5 : arg5.IsWhole) (arg6 : Memref sig .tc .vmem S1x1x3 .f32) (harg6 : arg6.IsWhole) (arg7 : Memref sig .tc .vmem S1x3x3 .f32) (harg7 : arg7.IsWhole) (arg8 : Memref sig .tc .vmem S1x1x3 .f32) (harg8 : arg8.IsWhole) (arg9 : Memref sig .tc .vmem S1x1x1024 .f32) (harg9 : arg9.IsWhole) (arg10 : Memref sig .tc .vmem S1x1024 .f32) (harg10 : arg10.IsWhole) (hc0 : cond0_0 i) (hc1 : ¬cond0_1 i)
    (x0 : Vec F S1024x3 .f32) (x1 : Vec F S1024x3 .f32) (x2 : Vec F S1x3x3 .f32) (x3 : Vec F S1x1x3 .f32) (x4 : Vec F S1x3x3 .f32) (x5 : Vec F S1x1x3 .f32) :
    sout0_A_0 c i arg3 harg3 arg4 harg4 arg5 harg5 arg6 harg6 arg7 harg7 arg8 harg8 arg9 harg9 arg10 harg10 hc0 hc1 x0 x1 x2 x3 x4 x5 = k0_pay1 (k0_pay6 x0 x2 x3 x1 x4 x5) (k0_pay7 x0 x2 x3 x1 x4 x5) (k0_pay3 (F := F)) := by
  unfold sout0_A_0
  rw [View.read_writes_eq_canon _ _ _ (scover0_A_0 c i arg3 harg3 arg4 harg4 arg5 harg5 arg6 harg6 arg7 harg7 arg8 harg8 arg9 harg9 arg10 harg10 hc0 hc1 x0 x1 x2 x3 x4 x5)]
  unfold kernelRun0_A
  dsimp only
  sl_unfold_words
  -- Two stores, both over the whole scratch: the later one decides the contents, and the value it read back between
  -- them is what the earlier one (the reset) had put there.
  rw [View.canon_cons_unit_zero (S := S1x1024) hz2, View.readCov_unit_zero (S := S1x1024) _ hz2]
  -- Each input buffer, read whole at offset zero, gives its block.
  simp only [View.readAt_eq_ld, harg3.read_unread, harg4.read_unread, harg5.read_unread, harg6.read_unread, harg7.read_unread, harg8.read_unread, harg9.read_unread, harg10.read_unread, View.ld_unit_zero (S := S1024x3) hz2, View.ld_unit_zero (S := S1x3x3) hz3, View.ld_unit_zero (S := S1x1x3) hz3, View.ld_unit_zero (S := S1x1024) hz2, View.ld_unit_zero (S := S1x1x1024) hz3, shapeCast_self]

/-- A middle-tile point: what the point before left against this tile's least distances. -/
theorem sout_B_eq (c : Dev nD) (i : grid0.Coords) (arg3 : Memref sig .tc .vmem S1024x3 .f32) (harg3 : arg3.IsWhole) (arg4 : Memref sig .tc .vmem S1024x3 .f32) (harg4 : arg4.IsWhole) (arg5 : Memref sig .tc .vmem S1x3x3 .f32) (harg5 : arg5.IsWhole) (arg6 : Memref sig .tc .vmem S1x1x3 .f32) (harg6 : arg6.IsWhole) (arg7 : Memref sig .tc .vmem S1x3x3 .f32) (harg7 : arg7.IsWhole) (arg8 : Memref sig .tc .vmem S1x1x3 .f32) (harg8 : arg8.IsWhole) (arg9 : Memref sig .tc .vmem S1x1x1024 .f32) (harg9 : arg9.IsWhole) (arg10 : Memref sig .tc .vmem S1x1024 .f32) (harg10 : arg10.IsWhole) (hc0 : ¬cond0_0 i) (hc1 : ¬cond0_1 i)
    (x0 : Vec F S1024x3 .f32) (x1 : Vec F S1024x3 .f32) (x2 : Vec F S1x3x3 .f32) (x3 : Vec F S1x1x3 .f32) (x4 : Vec F S1x3x3 .f32) (x5 : Vec F S1x1x3 .f32) (xs0 : Vec F S1x1024 .f32) :
    sout0_B_0 c i arg3 harg3 arg4 harg4 arg5 harg5 arg6 harg6 arg7 harg7 arg8 harg8 arg9 harg9 arg10 harg10 hc0 hc1 x0 x1 x2 x3 x4 x5 xs0 = k0_pay1 (k0_pay6 x0 x2 x3 x1 x4 x5) (k0_pay7 x0 x2 x3 x1 x4 x5) xs0 := by
  unfold sout0_B_0
  rw [View.read_writes_eq_canon _ _ _ (scover0_B_0 c i arg3 harg3 arg4 harg4 arg5 harg5 arg6 harg6 arg7 harg7 arg8 harg8 arg9 harg9 arg10 harg10 hc0 hc1 x0 x1 x2 x3 x4 x5 xs0)]
  unfold kernelRun0_B
  dsimp only
  sl_unfold_words
  -- One store over the whole scratch: the contents are its payload, the scratch it read being what the point before left.
  rw [View.canon_unit_zero hz2]
  simp only [View.readAt_eq_ld, harg3.read_unread, harg4.read_unread, harg5.read_unread, harg6.read_unread, harg7.read_unread, harg8.read_unread, harg9.read_unread, harg10.read_unread, View.ld_unit_zero (S := S1024x3) hz2, View.ld_unit_zero (S := S1x3x3) hz3, View.ld_unit_zero (S := S1x1x3) hz3, View.ld_unit_zero (S := S1x1024) hz2, View.ld_unit_zero (S := S1x1x1024) hz3, shapeCast_self]

/-- A last-tile point leaves the same in the scratch, -/
theorem sout_C_eq (c : Dev nD) (i : grid0.Coords) (arg3 : Memref sig .tc .vmem S1024x3 .f32) (harg3 : arg3.IsWhole) (arg4 : Memref sig .tc .vmem S1024x3 .f32) (harg4 : arg4.IsWhole) (arg5 : Memref sig .tc .vmem S1x3x3 .f32) (harg5 : arg5.IsWhole) (arg6 : Memref sig .tc .vmem S1x1x3 .f32) (harg6 : arg6.IsWhole) (arg7 : Memref sig .tc .vmem S1x3x3 .f32) (harg7 : arg7.IsWhole) (arg8 : Memref sig .tc .vmem S1x1x3 .f32) (harg8 : arg8.IsWhole) (arg9 : Memref sig .tc .vmem S1x1x1024 .f32) (harg9 : arg9.IsWhole) (arg10 : Memref sig .tc .vmem S1x1024 .f32) (harg10 : arg10.IsWhole) (hc0 : ¬cond0_0 i) (hc1 : cond0_1 i)
    (x0 : Vec F S1024x3 .f32) (x1 : Vec F S1024x3 .f32) (x2 : Vec F S1x3x3 .f32) (x3 : Vec F S1x1x3 .f32) (x4 : Vec F S1x3x3 .f32) (x5 : Vec F S1x1x3 .f32) (xs0 : Vec F S1x1024 .f32) :
    sout0_C_0 c i arg3 harg3 arg4 harg4 arg5 harg5 arg6 harg6 arg7 harg7 arg8 harg8 arg9 harg9 arg10 harg10 hc0 hc1 x0 x1 x2 x3 x4 x5 xs0 = k0_pay1 (k0_pay6 x0 x2 x3 x1 x4 x5) (k0_pay7 x0 x2 x3 x1 x4 x5) xs0 := by
  unfold sout0_C_0
  rw [View.read_writes_eq_canon _ _ _ (scover0_C_0 c i arg3 harg3 arg4 harg4 arg5 harg5 arg6 harg6 arg7 harg7 arg8 harg8 arg9 harg9 arg10 harg10 hc0 hc1 x0 x1 x2 x3 x4 x5 xs0)]
  unfold kernelRun0_C
  dsimp only
  sl_unfold_words
  -- One store over the whole scratch: the contents are its payload, the scratch it read being what the point before left.
  rw [View.canon_unit_zero hz2]
  simp only [View.readAt_eq_ld, harg3.read_unread, harg4.read_unread, harg5.read_unread, harg6.read_unread, harg7.read_unread, harg8.read_unread, harg9.read_unread, harg10.read_unread, View.ld_unit_zero (S := S1024x3) hz2, View.ld_unit_zero (S := S1x3x3) hz3, View.ld_unit_zero (S := S1x1x3) hz3, View.ld_unit_zero (S := S1x1024) hz2, View.ld_unit_zero (S := S1x1x1024) hz3, shapeCast_self]

/-- and copies it into the output block. -/
theorem out_C_eq (c : Dev nD) (i : grid0.Coords) (arg3 : Memref sig .tc .vmem S1024x3 .f32) (harg3 : arg3.IsWhole) (arg4 : Memref sig .tc .vmem S1024x3 .f32) (harg4 : arg4.IsWhole) (arg5 : Memref sig .tc .vmem S1x3x3 .f32) (harg5 : arg5.IsWhole) (arg6 : Memref sig .tc .vmem S1x1x3 .f32) (harg6 : arg6.IsWhole) (arg7 : Memref sig .tc .vmem S1x3x3 .f32) (harg7 : arg7.IsWhole) (arg8 : Memref sig .tc .vmem S1x1x3 .f32) (harg8 : arg8.IsWhole) (arg9 : Memref sig .tc .vmem S1x1x1024 .f32) (harg9 : arg9.IsWhole) (arg10 : Memref sig .tc .vmem S1x1024 .f32) (harg10 : arg10.IsWhole) (hc0 : ¬cond0_0 i) (hc1 : cond0_1 i)
    (x0 : Vec F S1024x3 .f32) (x1 : Vec F S1024x3 .f32) (x2 : Vec F S1x3x3 .f32) (x3 : Vec F S1x1x3 .f32) (x4 : Vec F S1x3x3 .f32) (x5 : Vec F S1x1x3 .f32) (xs0 : Vec F S1x1024 .f32) :
    out0_C_6 c i arg3 harg3 arg4 harg4 arg5 harg5 arg6 harg6 arg7 harg7 arg8 harg8 arg9 harg9 arg10 harg10 hc0 hc1 x0 x1 x2 x3 x4 x5 xs0 = k0_pay2 (k0_pay1 (k0_pay6 x0 x2 x3 x1 x4 x5) (k0_pay7 x0 x2 x3 x1 x4 x5) xs0) := by
  unfold out0_C_6
  rw [View.read_writes_eq_canon _ _ _ (cover0_C_6 c i arg3 harg3 arg4 harg4 arg5 harg5 arg6 harg6 arg7 harg7 arg8 harg8 arg9 harg9 arg10 harg10 hc0 hc1 x0 x1 x2 x3 x4 x5 xs0)]
  unfold kernelRun0_C
  dsimp only
  sl_unfold_words
  -- One store over the whole output block; its payload reshapes the scratch as read back after this point's own update,
  -- which covered the whole scratch.
  rw [View.canon_unit_zero (S := S1x1x1024) hz3, View.readCov_unit_zero (S := S1x1024) _ hz2]
  simp only [View.readAt_eq_ld, harg3.read_unread, harg4.read_unread, harg5.read_unread, harg6.read_unread, harg7.read_unread, harg8.read_unread, harg9.read_unread, harg10.read_unread, View.ld_unit_zero (S := S1024x3) hz2, View.ld_unit_zero (S := S1x3x3) hz3, View.ld_unit_zero (S := S1x1x3) hz3, View.ld_unit_zero (S := S1x1024) hz2, View.ld_unit_zero (S := S1x1x1024) hz3, shapeCast_self]

end Cert.KernelIdeal.Hand

end
-- ==== Proof.KernelIdeal.Blocks.lean ====
/-
  The kernel's input blocks, read at one entry.

  The grid has 16 · 4 · 4 points; point t has batch entry t / 16, predicted tile (t / 4) mod 4 and target tile t mod 4.
  Each input window's block at a point is a rectangle of its array: rows 1024 · tile onwards of the model points (the
  predicted tile for the first window, the target tile for the second), and the batch entry's matrix or row of the
  rotations and translations.  An entry of a block sits in the array at block index × block size + the coordinate
  inside the block, on every axis.  The translations reach the region reshaped from [16, 3] to [16, 1, 3] by the two host
  lines before it; a reshape keeps the row-major position, so row b of the reshaped array is row b of the argument.
-/
import proofs.«105035_j43447889167182_1_alg».proof.Proof.KernelIdeal.Shared
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' block indices over the grid -/

/-- The first window follows the predicted tile. -/
theorem idx0_0 : ∀ t : Fin cfg0.N, win0_0.index t 0 = (t.val / 4) % 4 ∧ win0_0.index t 1 = 0 :=
  (by decide +kernel : ∀ t : Fin grid0.N, win0_0.index t 0 = (t.val / 4) % 4 ∧ win0_0.index t 1 = 0)
/-- The second window follows the target tile. -/
theorem idx0_1 : ∀ t : Fin cfg0.N, win0_1.index t 0 = t.val % 4 ∧ win0_1.index t 1 = 0 :=
  (by decide +kernel : ∀ t : Fin grid0.N, win0_1.index t 0 = t.val % 4 ∧ win0_1.index t 1 = 0)
/-- The other four follow the batch entry. -/
theorem idx0_2 : ∀ t : Fin cfg0.N, win0_2.index t 0 = t.val / 16 ∧ win0_2.index t 1 = 0 ∧ win0_2.index t 2 = 0 :=
  (by decide +kernel : ∀ t : Fin grid0.N, win0_2.index t 0 = t.val / 16 ∧ win0_2.index t 1 = 0 ∧ win0_2.index t 2 = 0)
theorem idx0_3 : ∀ t : Fin cfg0.N, win0_3.index t 0 = t.val / 16 ∧ win0_3.index t 1 = 0 ∧ win0_3.index t 2 = 0 :=
  (by decide +kernel : ∀ t : Fin grid0.N, win0_3.index t 0 = t.val / 16 ∧ win0_3.index t 1 = 0 ∧ win0_3.index t 2 = 0)
theorem idx0_4 : ∀ t : Fin cfg0.N, win0_4.index t 0 = t.val / 16 ∧ win0_4.index t 1 = 0 ∧ win0_4.index t 2 = 0 :=
  (by decide +kernel : ∀ t : Fin grid0.N, win0_4.index t 0 = t.val / 16 ∧ win0_4.index t 1 = 0 ∧ win0_4.index t 2 = 0)
theorem idx0_5 : ∀ t : Fin cfg0.N, win0_5.index t 0 = t.val / 16 ∧ win0_5.index t 1 = 0 ∧ win0_5.index t 2 = 0 :=
  (by decide +kernel : ∀ t : Fin grid0.N, win0_5.index t 0 = t.val / 16 ∧ win0_5.index t 1 = 0 ∧ win0_5.index t 2 = 0)

/-! ## The blocks by name -/

abbrev blk0 (c : Dev nD) (t : Fin cfg0.N) : Vec F S1024x3 .f32 := iblk m c 0 t
abbrev blk1 (c : Dev nD) (t : Fin cfg0.N) : Vec F S1024x3 .f32 := iblk m c 1 t
abbrev blk2 (c : Dev nD) (t : Fin cfg0.N) : Vec F S1x3x3 .f32 := iblk m c 2 t
abbrev blk3 (c : Dev nD) (t : Fin cfg0.N) : Vec F S1x1x3 .f32 := iblk m c 3 t
abbrev blk4 (c : Dev nD) (t : Fin cfg0.N) : Vec F S1x3x3 .f32 := iblk m c 4 t
abbrev blk5 (c : Dev nD) (t : Fin cfg0.N) : Vec F S1x1x3 .f32 := iblk m c 5 t

/-! ## The model points' two windows -/

/-- Row r of the predicted tile's block is row 1024 · tile + r of the model points. -/
theorem blk0_apply (c : Dev nD) (t : Fin cfg0.N) (r : Fin 1024) (k : Fin 3) (p : Fin 4096)
    (hp : p.val = 1024 * ((t.val / 4) % 4) + r.val) :
    blk0 m c t (ix2 r k) = m ((c : Thread nD τ).loc main_arg4) (ix2 p k) := by
  unfold blk0 iblk
  rw [View.read_apply]
  show V m c main_arg4 _ = _
  rw [V_main_arg4]
  congr 1
  funext a
  apply Fin.ext
  match a with
  | ⟨0, _⟩ => show win0_0.index t 0 * 1024 + 1 * r.val = p.val; rw [(idx0_0 t).1, hp]; omega
  | ⟨1, _⟩ => show win0_0.index t 1 * 3 + 1 * k.val = k.val; rw [(idx0_0 t).2]; omega

/-- Row r of the target tile's block is row 1024 · tile + r of the model points. -/
theorem blk1_apply (c : Dev nD) (t : Fin cfg0.N) (r : Fin 1024) (k : Fin 3) (p : Fin 4096)
    (hp : p.val = 1024 * (t.val % 4) + r.val) :
    blk1 m c t (ix2 r k) = m ((c : Thread nD τ).loc main_arg4) (ix2 p k) := by
  unfold blk1 iblk
  rw [View.read_apply]
  show V m c main_arg4 _ = _
  rw [V_main_arg4]
  congr 1
  funext a
  apply Fin.ext
  match a with
  | ⟨0, _⟩ => show win0_1.index t 0 * 1024 + 1 * r.val = p.val; rw [(idx0_1 t).1, hp]; omega
  | ⟨1, _⟩ => show win0_1.index t 1 * 3 + 1 * k.val = k.val; rw [(idx0_1 t).2]; omega

/-! ## The rotations' two windows -/

/-- The predicted rotations' block is the batch entry's matrix. -/
theorem blk2_apply (c : Dev nD) (t : Fin cfg0.N) (j k : Fin 3) (b : Fin 16) (hb : b.val = t.val / 16) :
    blk2 m c t (ix3 (0 : Fin 1) j k) = m ((c : Thread nD τ).loc main_arg0) (ix3 b j k) := by
  unfold blk2 iblk
  rw [View.read_apply]
  show V m c main_arg0 _ = _
  rw [V_main_arg0]
  congr 1
  funext a
  apply Fin.ext
  match a with
  | ⟨0, _⟩ => show win0_2.index t 0 * 1 + 1 * 0 = b.val; rw [(idx0_2 t).1, hb]; omega
  | ⟨1, _⟩ => show win0_2.index t 1 * 3 + 1 * j.val = j.val; rw [(idx0_2 t).2.1]; omega
  | ⟨2, _⟩ => show win0_2.index t 2 * 3 + 1 * k.val = k.val; rw [(idx0_2 t).2.2]; omega

/-- The target rotations' block is the batch entry's matrix. -/
theorem blk4_apply (c : Dev nD) (t : Fin cfg0.N) (j k : Fin 3) (b : Fin 16) (hb : b.val = t.val / 16) :
    blk4 m c t (ix3 (0 : Fin 1) j k) = m ((c : Thread nD τ).loc main_arg2) (ix3 b j k) := by
  unfold blk4 iblk
  rw [View.read_apply]
  show V m c main_arg2 _ = _
  rw [V_main_arg2]
  congr 1
  funext a
  apply Fin.ext
  match a with
  | ⟨0, _⟩ => show win0_4.index t 0 * 1 + 1 * 0 = b.val; rw [(idx0_4 t).1, hb]; omega
  | ⟨1, _⟩ => show win0_4.index t 1 * 3 + 1 * j.val = j.val; rw [(idx0_4 t).2.1]; omega
  | ⟨2, _⟩ => show win0_4.index t 2 * 3 + 1 * k.val = k.val; rw [(idx0_4 t).2.2]; omega

/-! ## The translations' two windows -/

/-- A [16, 3] array reshaped to [16, 1, 3], read at (b, 0, j), is the array at (b, j): both sit at row-major position
    3 b + j. -/
theorem reshape_row {α : Type} (x : S16x3.Idx → α) (h : S16x3.ShapeCasts S16x1x3) (b : Fin 16) (j : Fin 3) :
    shapeCast S16x1x3 x h (ix3 b (0 : Fin 1) j) = x (ix2 b j) := by
  refine shapeCast_apply x h _ _ ?_
  rw [Shape.rowMajor_val_two, Shape.rowMajor_val_three]
  show b.val * 3 + j.val = (b.val * 1 + 0) * 3 + j.val
  omega

/-- The predicted translations as the region finds them: the first host line's reshape of the argument. -/
theorem V_main_v0 (c : Dev nD) :
    (V m c main_v0 : S16x1x3.Idx → Elt F .f32)
      = shapeCast S16x1x3 (m ((c : Thread nD τ).loc main_arg1)) shapeCasts_S16x3_S16x1x3 := by
  dsimp only [V, V0]; simp only [hostOps0, List.flatten_cons, List.flatten_nil, List.append_nil]; after_results; rfl

/-- The target translations as the region finds them: the second host line's reshape of the argument. -/
theorem V_main_v1 (c : Dev nD) :
    (V m c main_v1 : S16x1x3.Idx → Elt F .f32)
      = shapeCast S16x1x3 (m ((c : Thread nD τ).loc main_arg3)) shapeCasts_S16x3_S16x1x3 := by
  dsimp only [V, V0]; simp only [hostOps0, List.flatten_cons, List.flatten_nil, List.append_nil]; after_results; rfl

/-- The predicted translations' block is the batch entry's row. -/
theorem blk3_apply (c : Dev nD) (t : Fin cfg0.N) (j : Fin 3) (b : Fin 16) (hb : b.val = t.val / 16) :
    blk3 m c t (ix3 (0 : Fin 1) (0 : Fin 1) j) = m ((c : Thread nD τ).loc main_arg1) (ix2 b j) := by
  unfold blk3 iblk
  rw [View.read_apply]
  show (V m c main_v0 : S16x1x3.Idx → Elt F .f32) _ = _
  rw [V_main_v0]
  refine Eq.trans (congrArg _ ?_) (reshape_row _ _ b j)
  funext a
  apply Fin.ext
  match a with
  | ⟨0, _⟩ => show win0_3.index t 0 * 1 + 1 * 0 = b.val; rw [(idx0_3 t).1, hb]; omega
  | ⟨1, _⟩ => show win0_3.index t 1 * 1 + 1 * 0 = 0; rw [(idx0_3 t).2.1]
  | ⟨2, _⟩ => show win0_3.index t 2 * 3 + 1 * j.val = j.val; rw [(idx0_3 t).2.2]; omega

/-- The target translations' block is the batch entry's row. -/
theorem blk5_apply (c : Dev nD) (t : Fin cfg0.N) (j : Fin 3) (b : Fin 16) (hb : b.val = t.val / 16) :
    blk5 m c t (ix3 (0 : Fin 1) (0 : Fin 1) j) = m ((c : Thread nD τ).loc main_arg3) (ix2 b j) := by
  unfold blk5 iblk
  rw [View.read_apply]
  show (V m c main_v1 : S16x1x3.Idx → Elt F .f32) _ = _
  rw [V_main_v1]
  refine Eq.trans (congrArg _ ?_) (reshape_row _ _ b j)
  funext a
  apply Fin.ext
  match a with
  | ⟨0, _⟩ => show win0_5.index t 0 * 1 + 1 * 0 = b.val; rw [(idx0_5 t).1, hb]; omega
  | ⟨1, _⟩ => show win0_5.index t 1 * 1 + 1 * 0 = 0; rw [(idx0_5 t).2.1]
  | ⟨2, _⟩ => show win0_5.index t 2 * 3 + 1 * j.val = j.val; rw [(idx0_5 t).2.2]; omega

end Cert.KernelIdeal.Hand

end
-- ==== Proof.Spec.lean ====
/-
  What the two programs compute, as functions over the extended reals.

  A model point m is carried by a rigid motion (R, t) of batch b to  pt R t mp b m = mp[m] · R[b]ᵀ + t[b]  (three
  coordinates, each a sum of three products plus a translation).  The distance of two carried points g and p is taken
  through the expansion  |g|² + |p|² − 2 g·p, clamped below at zero, under the square root.  For each batch b and each
  predicted point m the result keeps the least distance to any of the 4096 target points; the final number is the mean of
  those 16 · 4096 minima.  A running minimum over four consecutive tiles of 1024 target points each is the minimum over
  all 4096 of them, because taking minima commutes and associates.
-/
import Idealize.ShloMosaic.PureOps.Ideal
import Idealize.ShloMosaic.Lib.ValueIdx
import Mathlib.Data.Finset.Lattice.Fold
import Mathlib.Order.Fin.Basic

noncomputable section

namespace Cert.Spec

open Idealize.ShloMosaic Idealize.ShloMosaic.ValueIdx

/-- Rotations, one 3 × 3 matrix per batch entry. -/
abbrev Rot := (⟨3, ![16, 3, 3]⟩ : Shape).Idx → EReal
/-- Translations, one 3-vector per batch entry. -/
abbrev Trans := (⟨2, ![16, 3]⟩ : Shape).Idx → EReal
/-- The model's points. -/
abbrev Pts := (⟨2, ![4096, 3]⟩ : Shape).Idx → EReal

/-- Coordinate j of model point m carried by batch b's motion: the row of the points against row j of the rotation,
    plus the translation. -/
def pt (R : Rot) (t : Trans) (mp : Pts) (b : Fin 16) (m : Fin 4096) (j : Fin 3) : EReal :=
  (∑ k : Fin 3, mp (ix2 m k) * R (ix3 b j k)) + t (ix2 b j)

/-- The squared length of a 3-vector. -/
def sq (p : Fin 3 → EReal) : EReal := ∑ j : Fin 3, p j * p j

/-- The distance of g and p through |g|² + |p|² − 2 g·p, clamped at zero. -/
def dist (g p : Fin 3 → EReal) : EReal :=
  Ideal.sqrt (max ((sq g + sq p) - Ideal.ofBits .f32 0x40000000#32 * ∑ j : Fin 3, g j * p j) (Ideal.ofBits .f32 0x00000000#32))

/-- For batch b and predicted point m, the least distance to a target point. -/
def minDist (Rp : Rot) (tp : Trans) (Rg : Rot) (tg : Trans) (mp : Pts) (b : Fin 16) (m : Fin 4096) : EReal :=
  (Finset.univ : Finset (Fin 4096)).fold min (⊤ : EReal) fun n => dist (pt Rg tg mp b n) (pt Rp tp mp b m)

/-- The same array of minima, indexed as a [16, 4096] matrix. -/
def minDistArr (Rp : Rot) (tp : Trans) (Rg : Rot) (tg : Trans) (mp : Pts) : (⟨2, ![16, 4096]⟩ : Shape).Idx → EReal :=
  fun i => minDist Rp tp Rg tg mp (i 0) (i 1)

/-- Position 1024 · k + n of an axis of 4096 = 4 · 1024 positions. -/
def tilePos (k : Fin 4) (n : Fin 1024) : Fin 4096 := ⟨1024 * k.val + n.val, by have := k.isLt; have := n.isLt; omega⟩

/-- The minimum over 4096 positions, started from the top element, is the minimum over the four tiles of the minima
    inside each tile. -/
theorem fold_min_tiles (f : Fin 4096 → EReal) :
    (Finset.univ : Finset (Fin 4096)).fold min (⊤ : EReal) f
      = (Finset.univ : Finset (Fin 4)).fold min (⊤ : EReal) fun k =>
          (Finset.univ : Finset (Fin 1024)).fold min (⊤ : EReal) fun n => f (tilePos k n) := by
  show Finset.univ.inf f = Finset.univ.inf fun k => Finset.univ.inf fun n => f (tilePos k n)
  refine le_antisymm (Finset.le_inf fun k _ => Finset.le_inf fun n _ => Finset.inf_le (Finset.mem_univ _)) ?_
  refine Finset.le_inf fun x _ => ?_
  have hk : x.val / 1024 < 4 := by have := x.isLt; omega
  have hn : x.val % 1024 < 1024 := Nat.mod_lt _ (by decide)
  have hx : tilePos ⟨x.val / 1024, hk⟩ ⟨x.val % 1024, hn⟩ = x := Fin.ext (by show 1024 * (x.val / 1024) + x.val % 1024 = x.val; omega)
  calc (Finset.univ.inf fun k => Finset.univ.inf fun n => f (tilePos k n))
      ≤ Finset.univ.inf fun n => f (tilePos ⟨x.val / 1024, hk⟩ n) := Finset.inf_le (Finset.mem_univ _)
    _ ≤ f (tilePos ⟨x.val / 1024, hk⟩ ⟨x.val % 1024, hn⟩) := Finset.inf_le (Finset.mem_univ _)
    _ = f x := by rw [hx]

/-- The minimum over the tiles up to and including tile n (counted from the top element). -/
def upTo (g : Fin 4 → EReal) (n : ℕ) : EReal :=
  (Finset.univ.filter fun k : Fin 4 => k.val ≤ n).fold min (⊤ : EReal) g

theorem upTo_zero (g : Fin 4 → EReal) : upTo g 0 = min (⊤ : EReal) (g 0) := by
  have h : (Finset.univ.filter fun k : Fin 4 => k.val ≤ 0) = {0} := by decide
  unfold upTo; rw [h, Finset.fold_singleton]; exact min_comm _ _

theorem upTo_succ (g : Fin 4 → EReal) (n : ℕ) (hn : n + 1 < 4) : upTo g (n + 1) = min (upTo g n) (g ⟨n + 1, hn⟩) := by
  have h : (Finset.univ.filter fun k : Fin 4 => k.val ≤ n + 1) = insert ⟨n + 1, hn⟩ (Finset.univ.filter fun k : Fin 4 => k.val ≤ n) := by
    ext k; simp only [Finset.mem_filter, Finset.mem_univ, true_and, Finset.mem_insert, Fin.ext_iff]; omega
  unfold upTo
  rw [h, Finset.fold_insert (by simp), min_comm]

theorem upTo_three (g : Fin 4 → EReal) : upTo g 3 = (Finset.univ : Finset (Fin 4)).fold min (⊤ : EReal) g := by
  have h : (Finset.univ.filter fun k : Fin 4 => k.val ≤ 3) = Finset.univ := by decide
  unfold upTo; rw [h]

end Cert.Spec

end
-- ==== Proof.LibPlainDot.lean ====
/-
  A plain two-dimensional contraction read at one element over the extended reals.

  For the dimension numbers of an [M, K] by [K, N] product (the left operand's axis 1 contracted against the right
  operand's axis 0, no batch axis), entry (p, q) of the product is the sum over k of lhs (p, k) · rhs (k, q). This holds
  of a kernel's matrix product into a zero accumulator and of the host's dot_general alike, whatever the precision
  attribute: at the extended reals both are the textbook contraction. Generic in the three extents.
-/
import Idealize.ShloMosaic.PureOps.Ideal.Laws
import Idealize.ShloMosaic.Lib.ValueIdx

noncomputable section

namespace Cert.Lib.PlainDot

open Idealize.ShloMosaic Idealize.ShloMosaic.ValueIdx

variable (M K N : Nat)

/-- Axis 0 of the left operand is free: it reads the output's row coordinate. -/
theorem lhs_axis0 (i : (⟨2, ![M, N]⟩ : Shape).Idx) (r : (DotDims.plain M K N).contr.Idx) :
    ((DotDims.plain M K N).lhsIdx i r 0).val = (i 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

/-- Axis 1 of the left operand is the contracted one: it reads the contraction position. -/
theorem lhs_axis1 (i : (⟨2, ![M, N]⟩ : Shape).Idx) (r : (DotDims.plain M K N).contr.Idx) :
    ((DotDims.plain M K N).lhsIdx i r 1).val = (r ⟨0, Nat.one_pos⟩).val :=
  (DotDims.plain M K N).lhsIdx_val_of_single rfl i r

/-- Axis 0 of the right operand is the contracted one. -/
theorem rhs_axis0 (i : (⟨2, ![M, N]⟩ : Shape).Idx) (r : (DotDims.plain M K N).contr.Idx) :
    ((DotDims.plain M K N).rhsIdx i r 0).val = (r ⟨0, Nat.one_pos⟩).val :=
  (DotDims.plain M K N).rhsIdx_val_of_single rfl i r

/-- Axis 1 of the right operand is free: it reads the output's column coordinate. -/
theorem rhs_axis1 (i : (⟨2, ![M, N]⟩ : Shape).Idx) (r : (DotDims.plain M K N).contr.Idx) :
    ((DotDims.plain M K N).rhsIdx i r 1).val = (i 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- The contraction's sum over its one-axis index shape, re-indexed by that axis' coordinate: the sum over
    `k : Fin K` of lhs (p, k) · rhs (k, q). -/
theorem sum_eq (lhs : (⟨2, ![M, K]⟩ : Shape).Idx → EReal) (rhs : (⟨2, ![K, N]⟩ : Shape).Idx → EReal)
    (p : Fin M) (q : Fin N) :
    (∑ r : (DotDims.plain M K N).contr.Idx,
        lhs ((DotDims.plain M K N).lhsIdx (ix2 p q) r) * rhs ((DotDims.plain M K N).rhsIdx (ix2 p q) r))
      = ∑ k : Fin K, lhs (ix2 p k) * rhs (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact lhs_axis0 M K N _ _
      | ⟨1, _⟩ => exact (lhs_axis1 M K N _ _).trans hk)
  have er : (DotDims.plain M K N).rhsIdx (ix2 p q) ((contrEquiv1 (DotDims.plain M K N) K rfl rfl).symm k) = ix2 k q :=
    funext fun a => Fin.ext (by
      match a with
      | ⟨0, _⟩ => exact (rhs_axis0 M K N _ _).trans hk
      | ⟨1, _⟩ => exact rhs_axis1 M K N _ _)
  rw [el, er]

/-- A kernel's matrix product into the zero accumulator, at entry (p, q). -/
theorem matmul_zero_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) := by
  rw [Ideal.matmul_constant_zero_apply]
  exact sum_eq M K N lhs rhs p q

/-- The host's dot_general, at entry (p, q). -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ k : Fin K, lhs (ix2 p k) * rhs (ix2 k q) := by
  rw [Ideal.dotGeneral_apply]
  exact sum_eq M K N lhs rhs p q

end Cert.Lib.PlainDot

end
-- ==== Proof.LibKeepdims.lean ====
/-
  Layout operations of a `keepdims=True` row reduction, read at an index given by coordinates, generic in the extents:
  a vector made a one-column matrix by a shape cast ([a] → [a, 1]); a one-column matrix broadcast along its rows
  ([a, 1] → [a, b]); and, on the extended reals, a float lane sum over axis 1 of a matrix read at a row as the sum over
  that row's entries. Each is the library's general lemma (`shapeCast_apply`, `broadcastTo_apply`,
  `Ideal.multiReduction_add_single`) with both indices written `ix1` / `ix2` and the coordinate arithmetic done.
-/
import Idealize.ShloMosaic.Lib.Pipeline.Value
import Idealize.ShloMosaic.Lib.ValueIdx
import Idealize.ShloMosaic.PureOps.Ideal.Laws

namespace Cert.Lib.Keepdims

open Idealize.ShloMosaic Idealize.ShloMosaic.ValueIdx

variable {α : Type}

/-- A vector cast to a one-column matrix reads, at (p, z), the vector at p: both have row-major position p. -/
theorem shapeCast_a_a1_apply {a : ℕ} (v : (⟨1, ![a]⟩ : Shape).Idx → α) (h : (⟨1, ![a]⟩ : Shape).ShapeCasts ⟨2, ![a, 1]⟩)
    (p : Fin a) (z : Fin 1) : shapeCast ⟨2, ![a, 1]⟩ v h (ix2 p z) = v (ix1 p) := by
  refine shapeCast_apply v h (ix2 p z) (ix1 p) ?_
  rw [Shape.rowMajor_val_one, Shape.rowMajor_val_two]
  show p.val = p.val * 1 + z.val
  have := z.isLt
  omega

/-- A one-column matrix broadcast along its rows reads, at (p, q), the column at (p, 0). -/
theorem broadcastTo_a1_ab_apply {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- On the extended reals a float lane sum over axis 1 of a matrix is, at row p, the sum over k of the entry (p, k).
    The accumulator's hypothesis is typed as a printed payload's proof is (the zero word equal to itself). -/
theorem rowSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ k : Fin b, src (ix2 p k) := by
  refine (Ideal.multiReduction_add_single src acc h hφ hacc (ix1 p)).trans ?_
  refine Finset.sum_congr rfl fun k _ => congrArg src ?_
  funext ax
  match ax with
  | ⟨0, _⟩ => rfl
  | ⟨1, _⟩ => rfl

end Cert.Lib.Keepdims
-- ==== Proof.LibRowProducts.lean ====
/-
  Row products and row sums as a kernel spells them, each read at one entry on the extended reals and generic in the
  extents.

  * A matrix product into the zero accumulator whose right operand is an [N, K] matrix transposed to [K, N]: entry (p, q)
    is the product of row p of the left matrix with row q of the untransposed right one, summed.
  * The sum of each row of an [a, n] matrix (a float lane sum over axis 1), kept as a one-column matrix [a, 1] and then
    - transposed to the one-row matrix [1, a]: entry (0, q) is the sum of row q;
    - broadcast along the rows to [a, b]: entry (p, q) is the sum of row p.
-/
import Idealize.ShloMosaic.Lib.ValueLayout
import proofs.«105035_j43447889167182_1_alg».proof.Proof.LibPlainDot
import proofs.«105035_j43447889167182_1_alg».proof.Proof.LibKeepdims

noncomputable section

namespace Cert.Lib.RowProducts

open Idealize.ShloMosaic Idealize.ShloMosaic.ValueIdx

/-- Rows against rows: a matrix product into the zero accumulator with the right operand an [N, K] matrix transposed,
    at entry (p, q), is the sum over k of a (p, k) * b (q, k). -/
theorem matmul_transposed_rows_apply {M K N : ℕ} {φ₁ φ₂ : FTy} (prec : Option ContractPrecision)
    (a : FVec Ideal ⟨2, ![M, K]⟩ φ₁) (b : FVec Ideal ⟨2, ![N, K]⟩ φ₂)
    (h : (⟨2, ![N, K]⟩ : Shape).Transposes [1, 0] ⟨2, ![K, N]⟩) (p : Fin M) (q : Fin N) :
    FloatOps.matmul (DotDims.plain M K N) prec a (transpose ⟨2, ![K, N]⟩ [1, 0] b h)
        (constant ⟨2, ![M, N]⟩ .f32 0x00000000#32) (ix2 p q)
      = ∑ k : Fin K, a (ix2 p k) * b (ix2 q k) :=
  (Cert.Lib.PlainDot.matmul_zero_apply M K N prec a _ p q).trans
    (Finset.sum_congr rfl fun k _ => congrArg (a (ix2 p k) * ·) (transpose_ix2_apply b h k q))

/-- The row sums of a matrix, kept as a column and transposed to a row: entry (z, q) is the sum of row q. -/
theorem rowSum_asRow_apply {a n : ℕ} {φ : FTy} (src : FVec Ideal ⟨2, ![a, n]⟩ φ) (acc : BitVec φ.bits)
    (h : (⟨2, ![a, n]⟩ : Shape).Reduces [1] ⟨1, ![a]⟩) (hφ : FKind.Formats φ) (hacc : acc = FKind.add.neutral φ hφ)
    (hc : (⟨1, ![a]⟩ : Shape).ShapeCasts ⟨2, ![a, 1]⟩) (ht : (⟨2, ![a, 1]⟩ : Shape).Transposes [1, 0] ⟨2, ![1, a]⟩)
    (z : Fin 1) (q : Fin a) :
    transpose ⟨2, ![1, a]⟩ [1, 0] (shapeCast ⟨2, ![a, 1]⟩ (multiReduction .add [1] ⟨1, ![a]⟩ src acc h hφ hacc) hc) ht (ix2 z q)
      = ∑ k : Fin n, src (ix2 q k) :=
  (transpose_ix2_apply _ ht z q).trans
    ((Cert.Lib.Keepdims.shapeCast_a_a1_apply _ hc q z).trans (Cert.Lib.Keepdims.rowSum_apply src acc h hφ hacc q))

/-- The row sums of a matrix, kept as a column and broadcast along the rows: entry (p, q) is the sum of row p. -/
theorem rowSum_asColumn_apply {a b n : ℕ} {φ : FTy} (src : FVec Ideal ⟨2, ![a, n]⟩ φ) (acc : BitVec φ.bits)
    (h : (⟨2, ![a, n]⟩ : Shape).Reduces [1] ⟨1, ![a]⟩) (hφ : FKind.Formats φ) (hacc : acc = FKind.add.neutral φ hφ)
    (hc : (⟨1, ![a]⟩ : Shape).ShapeCasts ⟨2, ![a, 1]⟩) (hb : (⟨2, ![a, 1]⟩ : Shape).Broadcasts ⟨2, ![a, b]⟩)
    (p : Fin a) (q : Fin b) :
    broadcastTo ⟨2, ![a, b]⟩ (shapeCast ⟨2, ![a, 1]⟩ (multiReduction .add [1] ⟨1, ![a]⟩ src acc h hφ hacc) hc) hb (ix2 p q)
      = ∑ k : Fin n, src (ix2 p k) :=
  (Cert.Lib.Keepdims.broadcastTo_a1_ab_apply _ hb p q).trans
    ((Cert.Lib.Keepdims.shapeCast_a_a1_apply _ hc p 0).trans (Cert.Lib.Keepdims.rowSum_apply src acc h hφ hacc p))

end Cert.Lib.RowProducts

end
-- ==== Proof.LibMinReduce.lean ====
/-
  Minimum reductions over ONE axis, read at the ideal values.

  At the ideal values a float is an extended real and `minimumf` is `min`, which commutes and associates; so a
  reduction by `minimumf` over one axis does not depend on the order its definition folds in, and at a result index
  `j` it is the fold of `min`, from the starting value, over the coordinates `k` of the reduced axis, of the source at
  `j` with `k` inserted on that axis (`Shape.Reduces.lift`). This holds for a kernel's `vector.multi_reduction
  <minimumf>` (`multiReduction_minimumf_single`), whose starting value is the accumulator word's, and for a
  reference's `stablehlo.reduce` with a `minimum` body (`hostReduce_minimumf_single`), whose starting value is the
  rank-zero initial operand's one element. Generic in the shapes, the axis and the float type.

  The starting word of such reductions in single precision is `0x7F800000`, `+∞`: it denotes `⊤`
  (`ofBits_f32_posInf`), the identity of `min`.
-/
import Idealize.ShloMosaic.PureOps.Ideal.Laws
import Idealize.ShloMosaic.PureOps.Reduce

noncomputable section

namespace LibMinReduce

open Idealize.ShloMosaic

variable {φ : FTy}

/-- Single precision's `+∞` word denotes `⊤`. -/
theorem ofBits_f32_posInf : Ideal.ofBits .f32 0x7F800000#32 = (⊤ : EReal) := by simp [Ideal.ofBits, Ideal.ieee]

/-- A float `vector.multi_reduction <minimumf>` over one axis, read at the ideal values at a result index `j`: the fold
    of `min` from the accumulator word's value over that axis's coordinates. -/
theorem multiReduction_minimumf_single {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- The host's one-operand `stablehlo.reduce` with a `minimum` body over one axis, read at the ideal values at `j`: the
    fold of `min` from the initial operand's element over that axis's coordinates. -/
theorem hostReduce_minimumf_single {s t u : Shape} {a : Fin s.rank} (x : FVec Ideal s φ) (init : FVec Ideal u φ)
    (h' : s.ReducesTo [a] t) (h : s.Reduces [a] t) (hu : 0 < u.numel) (j : t.Idx) :
    Host.reduce FloatOps.minimumf x init h' hu j
      = (Finset.univ : Finset (Fin (s.size a))).fold min (init (Shape.Idx.first hu)) (x ∘ h.lift j) :=
  Host.reduce_eq_fold_single (FloatOps.minimumf (F := Ideal) (φ := φ)) x init h' h hu j

end LibMinReduce

end
-- ==== Proof.Payload.lean ====
/-
  The kernel body's arithmetic read at one entry, at the ideal values: every float an extended real, every operation the
  extended reals' own.

  One grid step holds two blocks of 1024 points, each carried by its block's rotation and translation
  (row r, coordinate j:  the row of the points against row j of the rotation, plus the translation), and forms for every
  pair (n, q) of a target row n and a predicted row q the number  |g_n|² + |p_q|² − 2 g_n·p_q, clamps it at zero from
  below and takes the square root.  The running minimum at column q is then lowered by the least of these 1024 distances.
  The reset of the running minimum stores the top element, the write-out copies it.
-/
import proofs.«105035_j43447889167182_1_alg».proof.Proof.Gen.KernelIdeal.Skeleton
import proofs.«105035_j43447889167182_1_alg».proof.Proof.Spec
import proofs.«105035_j43447889167182_1_alg».proof.Proof.LibPlainDot
import proofs.«105035_j43447889167182_1_alg».proof.Proof.LibKeepdims
import proofs.«105035_j43447889167182_1_alg».proof.Proof.LibRowProducts
import proofs.«105035_j43447889167182_1_alg».proof.Proof.LibMinReduce
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Payload

open Cert.KernelIdeal Cert.KernelIdeal.Gen Idealize.ShloMosaic Idealize.ShloMosaic.ValueIdx

/-- Coordinate j of row r of a 1024-row block of points carried by the block's rotation R and translation t. -/
def bpt (x : Vec Ideal S1024x3 .f32) (R : Vec Ideal S1x3x3 .f32) (t : Vec Ideal S1x1x3 .f32) (r : Fin 1024) (j : Fin 3) : EReal :=
  (∑ k : Fin 3, x (ix2 r k) * R (ix3 (0 : Fin 1) j k)) + t (ix3 (0 : Fin 1) (0 : Fin 1) j)

/-- The carried predicted points: entry (r, j) of the block's product with the transposed rotation, plus the translation
    broadcast along the rows. -/
theorem pay4_apply (x : Vec Ideal S1024x3 .f32) (R : Vec Ideal S1x3x3 .f32) (t : Vec Ideal S1x1x3 .f32) (r : Fin 1024) (j : Fin 3) :
    k0_pay4 (F := Ideal) x R t (ix2 r j) = bpt x R t r j := by
  unfold k0_pay4 bpt
  rw [addf_apply]
  refine congrArg₂ (· + ·) ?_ ?_
  · refine (Cert.Lib.RowProducts.matmul_transposed_rows_apply (M := 1024) (K := 3) (N := 3) (φ₁ := .f32) (φ₂ := .f32) none x
      (shapeCast S3x3 R shapeCasts_S1x3x3_S3x3) transposes_S3x3_p1_0_S3x3 r j).trans ?_
    refine Finset.sum_congr rfl fun k _ => ?_
    rw [shapeCast_1ab_ab_apply]
  · rw [broadcastTo_1b_ab_apply, shapeCast_1ab_ab_apply]

/-- The carried target points: the same arithmetic on the other block. -/
theorem pay5_apply (x : Vec Ideal S1024x3 .f32) (R : Vec Ideal S1x3x3 .f32) (t : Vec Ideal S1x1x3 .f32) (r : Fin 1024) (j : Fin 3) :
    k0_pay5 (F := Ideal) x R t (ix2 r j) = bpt x R t r j := by
  unfold k0_pay5 bpt
  rw [addf_apply]
  refine congrArg₂ (· + ·) ?_ ?_
  · refine (Cert.Lib.RowProducts.matmul_transposed_rows_apply (M := 1024) (K := 3) (N := 3) (φ₁ := .f32) (φ₂ := .f32) none x
      (shapeCast S3x3 R shapeCasts_S1x3x3_S3x3) transposes_S3x3_p1_0_S3x3 r j).trans ?_
    refine Finset.sum_congr rfl fun k _ => ?_
    rw [shapeCast_1ab_ab_apply]
  · rw [broadcastTo_1b_ab_apply, shapeCast_1ab_ab_apply]

/-- The products of target rows with predicted rows: entry (n, q) is the sum over the three coordinates of
    g_n j * p_q j. -/
theorem pay6_apply (x3 : Vec Ideal S1024x3 .f32) (x4 : Vec Ideal S1x3x3 .f32) (x8 : Vec Ideal S1x1x3 .f32)
    (x12 : Vec Ideal S1024x3 .f32) (x13 : Vec Ideal S1x3x3 .f32) (x17 : Vec Ideal S1x1x3 .f32) (n q : Fin 1024) :
    k0_pay6 (F := Ideal) x3 x4 x8 x12 x13 x17 (ix2 n q) = ∑ j : Fin 3, bpt x12 x13 x17 n j * bpt x3 x4 x8 q j := by
  unfold k0_pay6
  refine (Cert.Lib.RowProducts.matmul_transposed_rows_apply (M := 1024) (K := 3) (N := 1024) (φ₁ := .f32) (φ₂ := .f32) none
    (k0_pay5 (F := Ideal) x12 x13 x17) (k0_pay4 (F := Ideal) x3 x4 x8) transposes_S1024x3_p1_0_S3x1024 n q).trans ?_
  refine Finset.sum_congr rfl fun j _ => ?_
  rw [pay5_apply, pay4_apply]

/-- The squared lengths added: entry (n, q) is |g_n|² + |p_q|², the first a row sum kept as a column and broadcast along
    the rows, the second a row sum turned into a row and broadcast along the columns. -/
theorem pay7_apply (x3 : Vec Ideal S1024x3 .f32) (x4 : Vec Ideal S1x3x3 .f32) (x8 : Vec Ideal S1x1x3 .f32)
    (x12 : Vec Ideal S1024x3 .f32) (x13 : Vec Ideal S1x3x3 .f32) (x17 : Vec Ideal S1x1x3 .f32) (n q : Fin 1024) :
    k0_pay7 (F := Ideal) x3 x4 x8 x12 x13 x17 (ix2 n q)
      = Cert.Spec.sq (bpt x12 x13 x17 n) + Cert.Spec.sq (bpt x3 x4 x8 q) := by
  unfold k0_pay7 Cert.Spec.sq
  rw [addf_apply]
  refine congrArg₂ (· + ·) ?_ ?_
  · refine (Cert.Lib.RowProducts.rowSum_asColumn_apply (a := 1024) (b := 1024) (n := 3) (φ := .f32)
      (mulf (k0_pay5 (F := Ideal) x12 x13 x17) (k0_pay5 (F := Ideal) x12 x13 x17)) 0x00000000#32 reduces_S1024x3_S1024 (.inl rfl) rfl
      shapeCasts_S1024_S1024x1 broadcasts_S1024x1_S1024x1024 n q).trans ?_
    refine Finset.sum_congr rfl fun k _ => ?_
    rw [mulf_apply, pay5_apply]
  · rw [broadcastTo_1b_ab_apply]
    refine (Cert.Lib.RowProducts.rowSum_asRow_apply (a := 1024) (n := 3) (φ := .f32)
      (mulf (k0_pay4 (F := Ideal) x3 x4 x8) (k0_pay4 (F := Ideal) x3 x4 x8)) 0x00000000#32 reduces_S1024x3_S1024 (.inl rfl) rfl
      shapeCasts_S1024_S1024x1 transposes_S1024x1_p1_0_S1x1024 (0 : Fin 1) q).trans ?_
    refine Finset.sum_congr rfl fun k _ => ?_
    rw [mulf_apply, pay4_apply]

/-- The source index of a minimum over the rows of a 1024 × 1024 matrix: column q with row n put back is (n, q). -/
theorem lift_rows (h : S1024x1024.Reduces [0] S1024) (q n : Fin 1024) :
    Shape.Reduces.lift (a := (0 : Fin 2)) h (ix1 q) n = ix2 n q := by
  funext c
  match c with
  | ⟨0, _⟩ => exact Fin.ext rfl
  | ⟨1, _⟩ => exact Fin.ext rfl

/-- The minimum over the rows of a 1024 × 1024 matrix, started from the word of +∞, read at column q: the fold of min
    from the top element over the 1024 entries of that column. -/
theorem colMin_apply (src : FVec Ideal S1024x1024 .f32) (h : S1024x1024.Reduces [0] S1024) (hφ : FKind.Formats .f32)
    (hacc : (0x7F800000#32 : BitVec 32) = FKind.minimumf.neutral .f32 hφ) (q : Fin 1024) :
    multiReduction .minimumf [0] S1024 src 0x7F800000#32 h hφ hacc (ix1 q)
      = (Finset.univ : Finset (Fin 1024)).fold min (⊤ : EReal) fun n => src (ix2 n q) := by
  have key := LibMinReduce.multiReduction_minimumf_single (s := S1024x1024) (t := S1024) (a := (0 : Fin 2)) (φ := .f32)
    src 0x7F800000#32 h hφ hacc (ix1 q)
  refine key.trans ?_
  rw [Ideal.ofBits_def, LibMinReduce.ofBits_f32_posInf]
  refine congrArg (fun f : Fin 1024 → EReal => (Finset.univ : Finset (Fin 1024)).fold min (⊤ : EReal) f) (funext fun n => ?_)
  exact congrArg src (lift_rows h q n)

/-- One step of the running minimum at entry (0, q): the old value against the least distance from predicted point q of the block (x3, x4, x8) to the 1024 target points of the block (x12, x13, x17). -/
theorem step_apply (x3 : Vec Ideal S1024x3 .f32) (x4 : Vec Ideal S1x3x3 .f32) (x8 : Vec Ideal S1x1x3 .f32) (x12 : Vec Ideal S1024x3 .f32) (x13 : Vec Ideal S1x3x3 .f32) (x17 : Vec Ideal S1x1x3 .f32) (a : Vec Ideal S1x1024 .f32) (q : Fin 1024) :
    k0_pay1 (F := Ideal) (k0_pay6 x3 x4 x8 x12 x13 x17) (k0_pay7 x3 x4 x8 x12 x13 x17) a (ix2 (0 : Fin 1) q)
      = min (a (ix2 (0 : Fin 1) q)) ((Finset.univ : Finset (Fin 1024)).fold min (⊤ : EReal) fun n => Cert.Spec.dist (bpt x12 x13 x17 n) (bpt x3 x4 x8 q)) := by
  unfold k0_pay1
  rw [shapeCast_self, minimumf_apply]
  refine congrArg (min (a (ix2 (0 : Fin 1) q))) ?_
  rw [shapeCast_a_1a_apply]
  refine (colMin_apply _ reduces_S1024x1024_S1024 (.inl rfl) rfl q).trans ?_
  refine congrArg (fun f : Fin 1024 → EReal => (Finset.univ : Finset (Fin 1024)).fold min (⊤ : EReal) f) (funext fun n => ?_)
  show Ideal.sqrt (max (k0_pay7 (F := Ideal) x3 x4 x8 x12 x13 x17 (ix2 n q)
      - Ideal.ofBits .f32 0x40000000#32 * k0_pay6 (F := Ideal) x3 x4 x8 x12 x13 x17 (ix2 n q)) (Ideal.ofBits .f32 0x00000000#32)) = _
  rw [pay7_apply, pay6_apply]
  rfl

/-- The reset stores the top element everywhere. -/
theorem reset_apply (j : S1x1024.Idx) : k0_pay3 (F := Ideal) j = (⊤ : EReal) := by
  unfold k0_pay3
  rw [shapeCast_self, broadcast_apply]
  exact LibMinReduce.ofBits_f32_posInf

/-- The write-out copies the running minimum: entry (0,0,q) of the output block is entry (0,q) of the scratch. -/
theorem out_apply (v : Vec Ideal S1x1024 .f32) (q : Fin 1024) : k0_pay2 (F := Ideal) v (ix3 (0 : Fin 1) (0 : Fin 1) q) = v (ix2 (0 : Fin 1) q) := by
  unfold k0_pay2
  exact shapeCast_ab_1ab_apply v shapeCasts_S1x1024_S1x1x1024 (0 : Fin 1) (0 : Fin 1) q

end Cert.KernelIdeal.Payload

end
-- ==== Proof.KernelIdeal.Accum.lean ====
/-
  The kernel's value: what its result array holds after the run, and what the lines after the region make of it.

  Fix a batch entry b and a tile i of predicted points.  Over the four grid points (b, i, 0 … 3) the scratch holds, at
  entry q, the least distance from predicted point 1024·i + q to the target points of the tiles seen so far: after the
  first point the minimum of the top element and tile 0's least distance, after each later point the minimum of the
  previous value and that tile's.  This is proved by induction on the grid point.  At the fourth point the scratch is
  copied into the result block, so the block holds the least distance to all 4096 target points: a minimum over four
  tiles of minima inside each tile is the minimum over all positions.  The blocks written at the fourth points tile the
  result array.  The lines after the region reshape the array, sum it and divide by the number of its entries.
-/
import proofs.«105035_j43447889167182_1_alg».proof.Proof.KernelIdeal.Launch
import proofs.«105035_j43447889167182_1_alg».proof.Proof.KernelIdeal.Pieces
import proofs.«105035_j43447889167182_1_alg».proof.Proof.KernelIdeal.Blocks
import proofs.«105035_j43447889167182_1_alg».proof.Proof.Payload
import proofs.«105035_j43447889167182_1_alg».proof.Proof.Spec
import Idealize.ShloMosaic.Lib.Pipeline.Value
import Idealize.ShloMosaic.Lib.ValueIdx
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

open Idealize.ShloMosaic.ValueIdx Cert.Spec Cert.KernelIdeal.Payload

/-! ## The arguments, and a grid point's batch entry and tile -/

abbrev aRp (c : Dev nD) : Cert.Spec.Rot := m ((c : Thread nD τ).loc main_arg0)
abbrev aTp (c : Dev nD) : Cert.Spec.Trans := m ((c : Thread nD τ).loc main_arg1)
abbrev aRg (c : Dev nD) : Cert.Spec.Rot := m ((c : Thread nD τ).loc main_arg2)
abbrev aTg (c : Dev nD) : Cert.Spec.Trans := m ((c : Thread nD τ).loc main_arg3)
abbrev aMp (c : Dev nD) : Cert.Spec.Pts := m ((c : Thread nD τ).loc main_arg4)

/-- The batch entry of grid point t. -/
def pb (t : Fin cfg0.N) : Fin 16 := ⟨t.val / 16, by have := lt_of_lt_of_eq t.isLt (show cfg0.N = 256 from N_0); omega⟩
/-- The tile of predicted points of grid point t. -/
def pti (t : Fin cfg0.N) : Fin 4 := ⟨(t.val / 4) % 4, Nat.mod_lt _ (by decide)⟩

/-- Row q of the predicted block at point t is predicted point 1024·i + q carried by batch b's predicted motion. -/
theorem bpt_pred (c : Dev nD) (t : Fin cfg0.N) (q : Fin 1024) :
    bpt (blk0 m c t) (blk2 m c t) (blk3 m c t) q = Cert.Spec.pt (aRp m c) (aTp m c) (aMp m c) (pb t) (tilePos (pti t) q) := by
  funext j
  unfold bpt Cert.Spec.pt
  rw [blk3_apply m c t j (pb t) rfl]
  refine congrArg (· + _) (Finset.sum_congr rfl fun k _ => ?_)
  rw [blk0_apply m c t q k (tilePos (pti t) q) rfl, blk2_apply m c t j k (pb t) rfl]

/-- Row r of the target block at point t is target point 1024·k + r carried by batch b's target motion, k the point's target tile. -/
theorem bpt_targ (c : Dev nD) (t : Fin cfg0.N) (r : Fin 1024) (k : Fin 4) (hk : k.val = t.val % 4) :
    bpt (blk1 m c t) (blk4 m c t) (blk5 m c t) r = Cert.Spec.pt (aRg m c) (aTg m c) (aMp m c) (pb t) (tilePos k r) := by
  funext j
  unfold bpt Cert.Spec.pt
  rw [blk5_apply m c t j (pb t) rfl]
  refine congrArg (· + _) (Finset.sum_congr rfl fun k' _ => ?_)
  rw [blk1_apply m c t r k' (tilePos k r) (by show 1024 * k.val + r.val = _; rw [hk]), blk4_apply m c t j k' (pb t) rfl]

/-- The least distance from predicted point p of batch b to the target points of tile k. -/
def tileMin (c : Dev nD) (b : Fin 16) (p : Fin 4096) (k : Fin 4) : EReal :=
  (Finset.univ : Finset (Fin 1024)).fold min (⊤ : EReal) fun r =>
    Cert.Spec.dist (Cert.Spec.pt (aRg m c) (aTg m c) (aMp m c) b (tilePos k r)) (Cert.Spec.pt (aRp m c) (aTp m c) (aMp m c) b p)

/-- One step of the running minimum at point t, entry q: the old value against tile k's least distance. -/
theorem tile_step (c : Dev nD) (t : Fin cfg0.N) (a : Vec Ideal S1x1024 .f32) (q : Fin 1024) (k : Fin 4) (hk : k.val = t.val % 4) :
    k0_pay1 (F := Ideal) (k0_pay6 (blk0 m c t) (blk2 m c t) (blk3 m c t) (blk1 m c t) (blk4 m c t) (blk5 m c t))
        (k0_pay7 (blk0 m c t) (blk2 m c t) (blk3 m c t) (blk1 m c t) (blk4 m c t) (blk5 m c t)) a (ix2 (0 : Fin 1) q)
      = min (a (ix2 (0 : Fin 1) q)) (tileMin m c (pb t) (tilePos (pti t) q) k) := by
  refine (step_apply (blk0 m c t) (blk2 m c t) (blk3 m c t) (blk1 m c t) (blk4 m c t) (blk5 m c t) a q).trans ?_
  unfold tileMin
  rw [bpt_pred m c t q]
  exact congrArg (fun f : Fin 1024 → EReal => min (a (ix2 (0 : Fin 1) q)) ((Finset.univ : Finset (Fin 1024)).fold min (⊤ : EReal) f))
    (funext fun r => by rw [bpt_targ m c t r k hk])

/-! ## The scratch after each point -/

theorem scAt_first (c : Dev nD) (t : Fin cfg0.N) (h0 : t.val % 4 = 0) (q : Fin 1024) :
    scAt0 m c t.val t.isLt (ix2 (0 : Fin 1) q) = min (⊤ : EReal) (tileMin m c (pb t) (tilePos (pti t) q) 0) := by
  have h1 : ¬t.val % 4 = 3 := by omega
  rw [scAt0_A m c t h0 h1]
  refine (congrFun (sout_A_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t)) (ix2 (0 : Fin 1) q)).trans ?_
  refine (tile_step m c t _ q 0 (by rw [h0]; rfl)).trans ?_
  rw [reset_apply]

theorem scAt_later (c : Dev nD) (t : Fin cfg0.N) (h0 : ¬t.val % 4 = 0) (q : Fin 1024) (k : Fin 4) (hk : k.val = t.val % 4) :
    scAt0 m c t.val t.isLt (ix2 (0 : Fin 1) q)
      = min (scAt0 m c (t.val - 1) (Nat.lt_of_le_of_lt (Nat.sub_le _ _) t.isLt) (ix2 (0 : Fin 1) q)) (tileMin m c (pb t) (tilePos (pti t) q) k) := by
  by_cases h1 : t.val % 4 = 3
  · rw [scAt0_C m c t h0 h1]
    refine (congrFun (sout_C_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (scAt0 m c (t.val - 1) (Nat.lt_of_le_of_lt (Nat.sub_le _ _) t.isLt))) (ix2 (0 : Fin 1) q)).trans ?_
    exact tile_step m c t _ q k hk
  · rw [scAt0_B m c t h0 h1]
    refine (congrFun (sout_B_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (scAt0 m c (t.val - 1) (Nat.lt_of_le_of_lt (Nat.sub_le _ _) t.isLt))) (ix2 (0 : Fin 1) q)).trans ?_
    exact tile_step m c t _ q k hk

/-- After point n the scratch holds, at entry q, the least distance to the target tiles seen so far. -/
theorem scAt_eq (c : Dev nD) : ∀ (n : ℕ) (hn : n < cfg0.N) (q : Fin 1024),
    scAt0 m c n hn (ix2 (0 : Fin 1) q) = upTo (tileMin m c (pb ⟨n, hn⟩) (tilePos (pti ⟨n, hn⟩) q)) (n % 4) := by
  intro n
  induction n with
  | zero =>
    intro hn q
    rw [show (0 : ℕ) % 4 = 0 from rfl, upTo_zero]
    exact scAt_first m c ⟨0, hn⟩ rfl q
  | succ n ih =>
    intro hn q
    by_cases h0 : (n + 1) % 4 = 0
    · rw [h0, upTo_zero]
      exact scAt_first m c ⟨n + 1, hn⟩ h0 q
    · have hlt : n % 4 + 1 < 4 := by omega
      have hmod : (n + 1) % 4 = n % 4 + 1 := by omega
      have hb : pb ⟨n, Nat.lt_of_succ_lt hn⟩ = pb ⟨n + 1, hn⟩ := Fin.ext (by show n / 16 = (n + 1) / 16; omega)
      have hi : pti ⟨n, Nat.lt_of_succ_lt hn⟩ = pti ⟨n + 1, hn⟩ := Fin.ext (by show (n / 4) % 4 = ((n + 1) / 4) % 4; omega)
      rw [hmod, upTo_succ _ _ hlt]
      refine (scAt_later m c ⟨n + 1, hn⟩ h0 q ⟨n % 4 + 1, hlt⟩ hmod.symm).trans ?_
      show min (scAt0 m c n _ (ix2 (0 : Fin 1) q)) _ = _
      rw [ih (Nat.lt_of_succ_lt hn) q, hb, hi]

/-! ## The result array -/

/-- The result array the run leaves: for batch entry b and predicted point p the least distance to a target point. -/
def Gout (c : Dev nD) : S16x1x4096.Idx → EReal :=
  fun i => Cert.Spec.minDist (aRp m c) (aTp m c) (aRg m c) (aTg m c) (aMp m c) (i 0) (i 2)

theorem idx6 : ∀ t : Fin cfg0.N, win0_6.index t (0 : Fin 3) = t.val / 16 ∧ win0_6.index t (1 : Fin 3) = 0 ∧ win0_6.index t (2 : Fin 3) = (t.val / 4) % 4 :=
  (by decide +kernel : ∀ t : Fin grid0.N, _)

/-- At a last-tile point the output block is the scratch, just updated. -/
theorem outAt_eq (c : Dev nD) (t : Fin cfg0.N) (h0 : ¬t.val % 4 = 0) (h1 : t.val % 4 = 3) :
    outAt0 m c t = k0_pay2 (F := Ideal) (scAt0 m c t.val t.isLt) := by
  rw [outAt0_C m c t h0 h1, scAt0_C m c t h0 h1]
  refine (out_C_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (scAt0 m c (t.val - 1) (Nat.lt_of_le_of_lt (Nat.sub_le _ _) t.isLt))).trans ?_
  exact congrArg (k0_pay2 (F := Ideal)) (sout_C_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (scAt0 m c (t.val - 1) (Nat.lt_of_le_of_lt (Nat.sub_le _ _) t.isLt))).symm

/-- What a last-tile point writes back is its block of the result array. -/
theorem flushed_eq (c : Dev nD) (t : Fin cfg0.N) (hf : (cfg0.win 6).flush t = true) :
    (dats m 0 c).flushed 6 t = ((cfg0.win 6).blk t).view.read (Elt Ideal) (Gout m c) := by
  have h1 : t.val % 4 = 3 := (flush0_6 t).mp hf
  have h0 : ¬t.val % 4 = 0 := by omega
  show (cfg0.win 6).cut (grid0.coords t) ((dats m 0 c).after 6 t) = _
  rw [after0_6, outAt_eq m c t h0 h1]
  obtain ⟨e0, e1, e2⟩ := idx6 t
  funext j
  obtain ⟨z0, z1, q, rfl⟩ : ∃ (z0 z1 : Fin 1) (q : Fin 1024), j = ix3 z0 z1 q := ⟨j 0, j 1, j 2, eq_ix3 j⟩
  obtain rfl : z0 = 0 := Subsingleton.elim _ _
  obtain rfl : z1 = 0 := Subsingleton.elim _ _
  show k0_pay2 (F := Ideal) (scAt0 m c t.val t.isLt) (ix3 (0 : Fin 1) (0 : Fin 1) q) = Gout m c (((cfg0.win 6).blk t).view.emb (ix3 (0 : Fin 1) (0 : Fin 1) q))
  rw [out_apply, scAt_eq m c t.val t.isLt q, h1, upTo_three]
  unfold Gout Cert.Spec.minDist
  have hb : (((cfg0.win 6).blk t).view.emb (ix3 (0 : Fin 1) (0 : Fin 1) q)) 0 = pb t :=
    Fin.ext (by show win0_6.index t (0 : Fin 3) * 1 + 1 * 0 = t.val / 16; omega)
  have hp : (((cfg0.win 6).blk t).view.emb (ix3 (0 : Fin 1) (0 : Fin 1) q)) 2 = tilePos (pti t) q :=
    Fin.ext (by show win0_6.index t (2 : Fin 3) * 1024 + 1 * q.val = 1024 * ((t.val / 4) % 4) + q.val; omega)
  rw [hb, hp, fold_min_tiles]
  rfl

/-- The last-tile points' blocks tile the result array. -/
theorem covered (i : S16x1x4096.Idx) : ∃ t : Fin cfg0.N, (cfg0.win 6).flush t = true ∧ i ∈ ((cfg0.win 6).blk t).view.set := by
  have hN : cfg0.N = 256 := N_0
  have hi0 : (i 0).val < 16 := (i 0).isLt
  have hi1 : (i 1).val < 1 := (i 1).isLt
  have hi2 : (i 2).val < 4096 := (i 2).isLt
  obtain ⟨t, ht⟩ : ∃ t : Fin cfg0.N, t.val = 16 * (i 0).val + 4 * ((i 2).val / 1024) + 3 :=
    ⟨⟨16 * (i 0).val + 4 * ((i 2).val / 1024) + 3, by rw [hN]; omega⟩, rfl⟩
  refine ⟨t, (flush0_6 t).mpr (by omega), ?_⟩
  obtain ⟨e0, e1, e2⟩ := idx6 t
  show i ∈ ((View.whole main_v2).slice (win0_6.rect t)).set
  rw [View.set_slice_whole, Rect.mem_set_unit]
  intro a
  match a with
  | ⟨0, _⟩ =>
    show win0_6.index t (0 : Fin 3) * 1 ≤ (i 0).val ∧ (i 0).val < win0_6.index t (0 : Fin 3) * 1 + 1
    omega
  | ⟨1, _⟩ =>
    show win0_6.index t (1 : Fin 3) * 1 ≤ (i 1).val ∧ (i 1).val < win0_6.index t (1 : Fin 3) * 1 + 1
    omega
  | ⟨2, _⟩ =>
    show win0_6.index t (2 : Fin 3) * 1024 ≤ (i 2).val ∧ (i 2).val < win0_6.index t (2 : Fin 3) * 1024 + 1024
    omega

/-- The result array after the run. -/
theorem final (c : Dev nD) : (dats m 0 c).arrAt 6 cfg0.N = Gout m c :=
  (dats m 0 c).arrAt_eq_of_cover 6 (Gout m c) (flushed_eq m c) covered

/-! ## The lines after the region -/

/-- What the lines after the region make of the [16, 4096] matrix of least distances: its sum over the number of its entries. -/
def tail (y : S16x4096.Idx → EReal) : S_.Idx → EReal :=
  Host.divf (F := Ideal) (Host.reduceAdd (F := Ideal) y (constant (F := Ideal) S_ .f32 0x00000000#32) reducesTo_S16x4096_S_d0_1 h_S_)
    (constant (F := Ideal) S_ .f32 0x47800000#32)

/-- The result array read as a [16, 4096] matrix is the specification's. -/
theorem reshaped (c : Dev nD) :
    shapeCast S16x4096 (Gout m c) shapeCasts_S16x1x4096_S16x4096 = Cert.Spec.minDistArr (aRp m c) (aTp m c) (aRg m c) (aTg m c) (aMp m c) := by
  funext i
  obtain ⟨b, p, rfl⟩ : ∃ (b : Fin 16) (p : Fin 4096), i = ix2 b p := ⟨i 0, i 1, eq_ix2 i⟩
  refine (shapeCast_apply (Gout m c) shapeCasts_S16x1x4096_S16x4096 (ix2 b p) (ix3 b (0 : Fin 1) p) ?_).trans rfl
  rw [Shape.rowMajor_val_three, Shape.rowMajor_val_two]
  show (b.val * 1 + 0) * 4096 + p.val = b.val * 4096 + p.val
  omega

/-- THE RUN, READ: the program's result is the mean of the least distances, its arguments end as launched. -/
theorem value_run : θ_run defs (onTc (τ := τ) (main (F := Ideal))) ⟨m, fun _ => 0, ρ⟩ (fun r => ∀ c : Dev nD,
      r.2.mem ((c.tc : Thread nD τ).loc main_v5) = tail (Cert.Spec.minDistArr (aRp m c) (aTp m c) (aRg m c) (aTg m c) (aMp m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  refine (θ_run defs _ _).mono (fun r h c => ⟨?_, kept m r h c⟩) (run_main m ρ)
  refine (((h c).2) main_v5 (mem_rest main_v5 rfl (by decide))).trans ?_
  rw [← reshaped m c, ← final m c, ← Vx_v2 m c]
  show StableHlo.after hostOps1 (Vx m c) (Proc.devRef .tc main_v5) = _
  after_results
  rfl

end Cert.KernelIdeal.Hand

end
-- ==== Proof.RefValue.lean ====
/-
  The reference program's array of least distances, read at the ideal values, is the specification's.

  The reference carries every model point by the predicted motion and by the target motion (a contraction of the
  rotation's row against the point, then the translation added), forms the squared lengths of the carried points (a sum
  of three squares, started from zero), the inner products of every predicted point with every target point, and from
  them the clamped expansion  |p|² + |g|² − 2 p·g  under the square root; last it keeps, for each batch entry and each
  predicted point, the minimum over all target points, started from +∞.  Each of these stages is read here at an index
  built from its coordinates; the orders in which the reference writes its products and sums differ from the
  specification's only by commutativity of + and · on the extended reals.
-/
import proofs.«105035_j43447889167182_1_alg».proof.Proof.Gen.ReferenceIdeal.Read
import proofs.«105035_j43447889167182_1_alg».proof.Proof.Spec
import proofs.«105035_j43447889167182_1_alg».proof.Proof.LibMinReduce
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx

/-! ## The carried points -/

/-- Coordinate j of model point m carried by the predicted motion of batch b. -/
theorem carried_pred (x0 : (⟨S16x3x3, .f32⟩ : BufTy).Contents (Elt Ideal)) (x1 : (⟨S16x3, .f32⟩ : BufTy).Contents (Elt Ideal))
    (x4 : (⟨S4096x3, .f32⟩ : BufTy).Contents (Elt Ideal)) (b : Fin 16) (m : Fin 4096) (j : Fin 3) :
    val_main_v4 (F := Ideal) x0 x1 x4 (ix3 b m j) = Cert.Spec.pt x0 x1 x4 b m j := by
  have e1 : idx_main_v1 (ix3 b m j) = ix3 b j m :=
    funext fun a => Fin.ext (by match a with | ⟨0, _⟩ => rfl | ⟨1, _⟩ => rfl | ⟨2, _⟩ => rfl)
  have el : ∀ k : Fin 3, lidx_main_v0 (ix3 b j m) k = ix3 b j k := fun k =>
    funext fun a => Fin.ext (by match a with | ⟨0, _⟩ => rfl | ⟨1, _⟩ => rfl | ⟨2, _⟩ => rfl)
  have er : ∀ k : Fin 3, ridx_main_v0 (ix3 b j m) k = ix2 m k := fun k =>
    funext fun a => Fin.ext (by match a with | ⟨0, _⟩ => rfl | ⟨1, _⟩ => rfl)
  have e3 : idx_main_v2 (idx_main_v3 (ix3 b m j)) = ix2 b j :=
    funext fun a => Fin.ext (by match a with | ⟨0, _⟩ => rfl | ⟨1, _⟩ => rfl)
  rw [val_main_v4_apply, val_main_v1_apply, val_main_v3_apply, val_main_v2_apply, e1, val_main_v0_apply, e3]
  simp only [el, er, Ideal.addf_def]
  unfold Cert.Spec.pt
  exact congrArg (· + x1 (ix2 b j)) (Finset.sum_congr rfl fun k _ => mul_comm _ _)

/-- Coordinate j of model point n carried by the target motion of batch b. -/
theorem carried_targ (x2 : (⟨S16x3x3, .f32⟩ : BufTy).Contents (Elt Ideal)) (x3 : (⟨S16x3, .f32⟩ : BufTy).Contents (Elt Ideal))
    (x4 : (⟨S4096x3, .f32⟩ : BufTy).Contents (Elt Ideal)) (b : Fin 16) (n : Fin 4096) (j : Fin 3) :
    val_main_v9 (F := Ideal) x2 x3 x4 (ix3 b n j) = Cert.Spec.pt x2 x3 x4 b n j := by
  have e1 : idx_main_v6 (ix3 b n j) = ix3 b j n :=
    funext fun a => Fin.ext (by match a with | ⟨0, _⟩ => rfl | ⟨1, _⟩ => rfl | ⟨2, _⟩ => rfl)
  have el : ∀ k : Fin 3, lidx_main_v5 (ix3 b j n) k = ix3 b j k := fun k =>
    funext fun a => Fin.ext (by match a with | ⟨0, _⟩ => rfl | ⟨1, _⟩ => rfl | ⟨2, _⟩ => rfl)
  have er : ∀ k : Fin 3, ridx_main_v5 (ix3 b j n) k = ix2 n k := fun k =>
    funext fun a => Fin.ext (by match a with | ⟨0, _⟩ => rfl | ⟨1, _⟩ => rfl)
  have e3 : idx_main_v7 (idx_main_v8 (ix3 b n j)) = ix2 b j :=
    funext fun a => Fin.ext (by match a with | ⟨0, _⟩ => rfl | ⟨1, _⟩ => rfl)
  rw [val_main_v9_apply, val_main_v6_apply, val_main_v8_apply, val_main_v7_apply, e1, val_main_v5_apply, e3]
  simp only [el, er, Ideal.addf_def]
  unfold Cert.Spec.pt
  exact congrArg (· + x3 (ix2 b j)) (Finset.sum_congr rfl fun k _ => mul_comm _ _)

/-! ## The squared lengths -/

/-- The squared length of model point m carried by the predicted motion: a sum of three squares started from zero. -/
theorem sqnorm_pred (x0 : (⟨S16x3x3, .f32⟩ : BufTy).Contents (Elt Ideal)) (x1 : (⟨S16x3, .f32⟩ : BufTy).Contents (Elt Ideal))
    (x4 : (⟨S4096x3, .f32⟩ : BufTy).Contents (Elt Ideal)) (b : Fin 16) (m : Fin 4096) :
    val_main_v11 (F := Ideal) x0 x1 x4 (ix2 b m) = Cert.Spec.sq (Cert.Spec.pt x0 x1 x4 b m) := by
  have e : ∀ k : Fin 3, idx_main_v11 (ix2 b m) k = ix3 b m k := fun k =>
    funext fun a => Fin.ext (by match a with | ⟨0, _⟩ => rfl | ⟨1, _⟩ => rfl | ⟨2, _⟩ => rfl)
  rw [val_main_v11_apply, val_main_cst_apply]
  simp only [e, val_main_v10_apply, carried_pred, Ideal.mulf_def, Ideal.ofBits_def, Ideal.ofBits_zero_f32, zero_add]
  rfl

/-- The squared length of model point n carried by the target motion. -/
theorem sqnorm_targ (x2 : (⟨S16x3x3, .f32⟩ : BufTy).Contents (Elt Ideal)) (x3 : (⟨S16x3, .f32⟩ : BufTy).Contents (Elt Ideal))
    (x4 : (⟨S4096x3, .f32⟩ : BufTy).Contents (Elt Ideal)) (b : Fin 16) (n : Fin 4096) :
    val_main_v13 (F := Ideal) x2 x3 x4 (ix2 b n) = Cert.Spec.sq (Cert.Spec.pt x2 x3 x4 b n) := by
  have e : ∀ k : Fin 3, idx_main_v13 (ix2 b n) k = ix3 b n k := fun k =>
    funext fun a => Fin.ext (by match a with | ⟨0, _⟩ => rfl | ⟨1, _⟩ => rfl | ⟨2, _⟩ => rfl)
  rw [val_main_v13_apply, val_main_cst_0_apply]
  simp only [e, val_main_v12_apply, carried_targ, Ideal.mulf_def, Ideal.ofBits_def, Ideal.ofBits_zero_f32, zero_add]
  rfl

/-! ## The inner products -/

/-- The inner product of predicted point m with target point n, written predicted factor first. -/
theorem cross (x0 : (⟨S16x3x3, .f32⟩ : BufTy).Contents (Elt Ideal)) (x1 : (⟨S16x3, .f32⟩ : BufTy).Contents (Elt Ideal))
    (x2 : (⟨S16x3x3, .f32⟩ : BufTy).Contents (Elt Ideal)) (x3 : (⟨S16x3, .f32⟩ : BufTy).Contents (Elt Ideal))
    (x4 : (⟨S4096x3, .f32⟩ : BufTy).Contents (Elt Ideal)) (b : Fin 16) (m n : Fin 4096) :
    val_main_v14 (F := Ideal) x0 x1 x2 x3 x4 (ix3 b m n)
      = ∑ k : Fin 3, Cert.Spec.pt x2 x3 x4 b n k * Cert.Spec.pt x0 x1 x4 b m k := by
  have el : ∀ k : Fin 3, lidx_main_v14 (ix3 b m n) k = ix3 b m k := fun k =>
    funext fun a => Fin.ext (by match a with | ⟨0, _⟩ => rfl | ⟨1, _⟩ => rfl | ⟨2, _⟩ => rfl)
  have er : ∀ k : Fin 3, ridx_main_v14 (ix3 b m n) k = ix3 b n k := fun k =>
    funext fun a => Fin.ext (by match a with | ⟨0, _⟩ => rfl | ⟨1, _⟩ => rfl | ⟨2, _⟩ => rfl)
  rw [val_main_v14_apply]
  simp only [el, er, carried_pred, carried_targ]
  exact Finset.sum_congr rfl fun k _ => mul_comm _ _

/-! ## The distance -/

/-- The distance of target point n and predicted point m of batch b. -/
theorem dist_at (x0 : (⟨S16x3x3, .f32⟩ : BufTy).Contents (Elt Ideal)) (x1 : (⟨S16x3, .f32⟩ : BufTy).Contents (Elt Ideal))
    (x2 : (⟨S16x3x3, .f32⟩ : BufTy).Contents (Elt Ideal)) (x3 : (⟨S16x3, .f32⟩ : BufTy).Contents (Elt Ideal))
    (x4 : (⟨S4096x3, .f32⟩ : BufTy).Contents (Elt Ideal)) (b : Fin 16) (m n : Fin 4096) :
    val_main_v25 (F := Ideal) x0 x1 x2 x3 x4 (ix3 b m n)
      = Cert.Spec.dist (Cert.Spec.pt x2 x3 x4 b n) (Cert.Spec.pt x0 x1 x4 b m) := by
  have e17 : idx_main_v15 (idx_main_v17 (ix3 b m n)) = ix2 b m :=
    funext fun a => Fin.ext (by match a with | ⟨0, _⟩ => rfl | ⟨1, _⟩ => rfl)
  have e18 : idx_main_v16 (idx_main_v18 (ix3 b m n)) = ix2 b n :=
    funext fun a => Fin.ext (by match a with | ⟨0, _⟩ => rfl | ⟨1, _⟩ => rfl)
  rw [val_main_v25_apply, val_main_v24_apply, val_main_v22_apply, val_main_v19_apply, val_main_v21_apply,
    val_main_v17_apply, val_main_v15_apply, e17, val_main_v18_apply, val_main_v16_apply, e18,
    val_main_v20_apply, val_main_cst_1_apply, val_main_v23_apply, val_main_cst_2_apply,
    sqnorm_pred, sqnorm_targ, cross]
  simp only [Ideal.hostUnary_sqrt_def, Ideal.maximumf_def, Ideal.subf_def, Ideal.addf_def, Ideal.mulf_def, Ideal.ofBits_def]
  unfold Cert.Spec.dist
  rw [add_comm (Cert.Spec.sq (Cert.Spec.pt x0 x1 x4 b m))]

/-! ## The minimum over the target points -/

/-- The reduced axis is the last one: result index (b, m) with coordinate n inserted on it is (b, m, n). -/
theorem lift_last (h : S16x4096x4096.Reduces [2] S16x4096) (b : Fin 16) (m n : Fin 4096) :
    h.lift (ix2 b m) n = ix3 b m n :=
  funext fun a => Fin.ext (by match a with | ⟨0, _⟩ => rfl | ⟨1, _⟩ => rfl | ⟨2, _⟩ => rfl)

/-- The reference's [16, 4096] array of least distances is the specification's. -/
theorem v26_eq (x0 : (⟨S16x3x3, .f32⟩ : BufTy).Contents (Elt Ideal)) (x1 : (⟨S16x3, .f32⟩ : BufTy).Contents (Elt Ideal)) (x2 : (⟨S16x3x3, .f32⟩ : BufTy).Contents (Elt Ideal)) (x3 : (⟨S16x3, .f32⟩ : BufTy).Contents (Elt Ideal)) (x4 : (⟨S4096x3, .f32⟩ : BufTy).Contents (Elt Ideal)) :
    val_main_v26 (F := Ideal) x0 x1 x2 x3 x4 = Cert.Spec.minDistArr x0 x1 x2 x3 x4 := by
  funext i
  obtain ⟨b, m, rfl⟩ : ∃ (b : Fin 16) (m : Fin 4096), i = ix2 b m := ⟨i 0, i 1, eq_ix2 i⟩
  have h : S16x4096x4096.Reduces [2] S16x4096 := by decide
  -- under the fold, the distances of the target points n to predicted point m
  have hf : (fun n : Fin 4096 => val_main_v25 (F := Ideal) x0 x1 x2 x3 x4 (h.lift (ix2 b m) n))
      = fun n => Cert.Spec.dist (Cert.Spec.pt x2 x3 x4 b n) (Cert.Spec.pt x0 x1 x4 b m) :=
    funext fun n =>
      (congrArg (val_main_v25 (F := Ideal) x0 x1 x2 x3 x4) (lift_last h b m n)).trans (dist_at x0 x1 x2 x3 x4 b m n)
  unfold val_main_v26
  generalize val_main_v25 (F := Ideal) x0 x1 x2 x3 x4 = y at hf ⊢
  refine (LibMinReduce.hostReduce_minimumf_single y (val_main_cst_3 (F := Ideal)) reducesTo_S16x4096x4096_S16x4096_d2 h h_S_ (ix2 b m)).trans ?_
  rw [val_main_cst_3_apply, Ideal.ofBits_def, LibMinReduce.ofBits_f32_posInf]
  exact congrArg (fun f : Fin 4096 → EReal => (Finset.univ : Finset (Fin 4096)).fold min (⊤ : EReal) f) hf

end Cert.ReferenceIdeal.RefValue

end
-- ==== Proof.lean ====
/-
  The certificate of the pairwise-distance kernel against its reference.

  Both programs carry the 4096 model points by a predicted and by a target rigid motion for each of 16 batch entries, take
  for each predicted point the least distance to a target point, and average the 16 · 4096 minima.  The kernel walks a
  grid of 16 · 4 · 4 points, keeping for a tile of 1024 predicted points a running minimum over the four tiles of target
  points; the reference forms all distances at once.  Over the extended reals the two results are one number: the
  distances agree term by term up to the order of sums and products, and a minimum over four tiles of minima inside each
  tile is the minimum over all positions.

  The frames of the two kernel programs are proved from the pipeline's launch rule for windows that share an array (the
  model points are read through two windows); the reference's frame is its run with the result dropped; the ideal pass
  rewrote nothing, so there is nothing to preserve.
-/
import proofs.«105035_j43447889167182_1_alg».proof.Defs
import proofs.«105035_j43447889167182_1_alg».proof.Proof.Gen.Kernel
import proofs.«105035_j43447889167182_1_alg».proof.Proof.Gen.KernelIdeal
import proofs.«105035_j43447889167182_1_alg».proof.Proof.Gen.ReferenceIdeal
import proofs.«105035_j43447889167182_1_alg».proof.Proof.Gen.Pre_finite_inputs
import proofs.«105035_j43447889167182_1_alg».proof.Proof.Gen.ReferenceIdeal.Run
import proofs.«105035_j43447889167182_1_alg».proof.Proof.Gen.ReferenceIdeal.Read
import proofs.«105035_j43447889167182_1_alg».proof.Proof.Kernel.Launch
import proofs.«105035_j43447889167182_1_alg».proof.Proof.KernelIdeal.Accum
import proofs.«105035_j43447889167182_1_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Hand.frame (F := Bits) m ρ

theorem frame_ki : Cert.frame_KernelIdeal := fun m ρ _ => Cert.KernelIdeal.Hand.frame (F := Ideal) m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- The reference's result is the mean of its array of least distances. -/
theorem ref_tail (x0 : (⟨Cert.ReferenceIdeal.S16x3x3, .f32⟩ : BufTy).Contents (Elt Ideal)) (x1 : (⟨Cert.ReferenceIdeal.S16x3, .f32⟩ : BufTy).Contents (Elt Ideal))
    (x2 : (⟨Cert.ReferenceIdeal.S16x3x3, .f32⟩ : BufTy).Contents (Elt Ideal)) (x3 : (⟨Cert.ReferenceIdeal.S16x3, .f32⟩ : BufTy).Contents (Elt Ideal))
    (x4 : (⟨Cert.ReferenceIdeal.S4096x3, .f32⟩ : BufTy).Contents (Elt Ideal)) :
    Cert.ReferenceIdeal.Read.val_main_v28 (F := Ideal) x0 x1 x2 x3 x4 = Cert.KernelIdeal.Hand.tail (Cert.Spec.minDistArr x0 x1 x2 x3 x4) := by
  rw [← Cert.ReferenceIdeal.RefValue.v26_eq]
  rfl

/-- At the ideal values the kernel's result is the mean of the least distances of the arguments, and so is the reference's
    of arguments that agree. -/
theorem algebraic : Cert.algebraic_KernelIdeal_ReferenceIdeal := by
  intro m ρ m' ρ' _ hagree
  refine ⟨_, Cert.KernelIdeal.Hand.value_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v28_eq, (hagree c).1, (hagree c).2.1, (hagree c).2.2.1, (hagree c).2.2.2.1, (hagree c).2.2.2.2]
  exact ref_tail _ _ _ _ _

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
